-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768 : Shape := ⟨1, ![32768]⟩
abbrev S256x512 : Shape := ⟨2, ![256, 512]⟩
abbrev S512x256 : Shape := ⟨2, ![512, 256]⟩
abbrev S256 : Shape := ⟨1, ![256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S32768 : S_.BroadcastsInDim S32768 (![] : Fin 0 → Fin S32768.rank)
  reducesTo_S32768_S_d0 : S32768.ReducesTo [0] S_

variable [Facts]

def fn_part2 {F : FTy → Type} [FloatOps F] (main_arg2 : IVec S32768 32) (main_arg3 : IVec S32768 32) (main_v33 : IVec S_ 1) : IVec S_ 1 :=
  let main_c_12 : IVec S_ 32 := constantI S_ 32 0#32
  let main_v34 : IVec S32768 32 := broadcastInDim S32768 ![] bcast_S_S32768 main_c_12
  let main_v35 : IVec S32768 1 := cmpi .sge main_arg2 main_v34
  let main_c_13 : IVec S_ 1 := constantI S_ 1 1#1
  let main_v36 : IVec S_ 1 := (fun x v => Host.reduce IntOp.andi x v reducesTo_S32768_S_d0 h_S_) main_v35 main_c_13
  let main_v37 : IVec S_ 1 := andi main_v33 main_v36
  let main_c_14 : IVec S_ 32 := constantI S_ 32 0#32
  let main_v38 : IVec S32768 32 := broadcastInDim S32768 ![] bcast_S_S32768 main_c_14
  let main_v39 : IVec S32768 1 := cmpi .sge main_arg3 main_v38
  let main_c_15 : IVec S_ 1 := constantI S_ 1 1#1
  let main_v40 : IVec S_ 1 := (fun x v => Host.reduce IntOp.andi x v reducesTo_S32768_S_d0 h_S_) main_v39 main_c_15
  let main_v41 : IVec S_ 1 := andi main_v37 main_v40
  main_v41

def fn_part1 {F : FTy → Type} [FloatOps F] (main_arg2 : IVec S32768 32) (main_arg3 : IVec S32768 32) (main_arg7 : FVec F S256x512 .f32) (main_arg8 : FVec F S512x256 .f32) (main_arg9 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256x512 .f32 := Host.absf main_arg7
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512x256 .f32 := Host.absf main_arg8
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg3 main_v33

def fn {F : FTy → Type} [FloatOps F] (main_arg0 : FVec F S32768x256 .f32) (main_arg1 : IVec S32768 1) (main_arg2 : IVec S32768 32) (main_arg3 : IVec S32768 32) (main_arg4 : FVec F S256x512 .f32) (main_arg5 : FVec F S256x512 .f32) (main_arg6 : FVec F S256x512 .f32) (main_arg7 : FVec F S256x512 .f32) (main_arg8 : FVec F S512x256 .f32) (main_arg9 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x512 .f32 := Host.absf main_arg4
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg5
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg6
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg2 main_arg3 main_arg7 main_arg8 main_arg9 main_v13 main_v16
-- ==== Kernel.lean ====
abbrev S32768x256 : Shape := ⟨2, ![32768, 256]⟩
abbrev S32768 : Shape := ⟨1, ![32768]⟩
abbrev S256x512 : Shape := ⟨2, ![256, 512]⟩
abbrev S512x256 : Shape := ⟨2, ![512, 256]⟩
abbrev S256 : Shape := ⟨1, ![256]⟩
abbrev S32768x1 : Shape := ⟨2, ![32768, 1]⟩
abbrev S1x256 : Shape := ⟨2, ![1, 256]⟩
abbrev S2x64x512 : Shape := ⟨3, ![2, 64, 512]⟩
abbrev S2x64x1 : Shape := ⟨3, ![2, 64, 1]⟩
abbrev S2x256x512 : Shape := ⟨3, ![2, 256, 512]⟩
abbrev S2x256x1 : Shape := ⟨3, ![2, 256, 1]⟩
abbrev S32768x512 : Shape := ⟨2, ![32768, 512]⟩
abbrev S1024x256 : Shape := ⟨2, ![1024, 256]⟩
abbrev S1024x1 : Shape := ⟨2, ![1024, 1]⟩
abbrev S1x64x512 : Shape := ⟨3, ![1, 64, 512]⟩
abbrev S1x64x1 : Shape := ⟨3, ![1, 64, 1]⟩
abbrev S1x256x512 : Shape := ⟨3, ![1, 256, 512]⟩
abbrev S1x256x1 : Shape := ⟨3, ![1, 256, 1]⟩
abbrev S1024x512 : Shape := ⟨2, ![1024, 512]⟩
abbrev S64x512 : Shape := ⟨2, ![64, 512]⟩
abbrev S64x1 : Shape := ⟨2, ![64, 1]⟩
abbrev S256x1 : Shape := ⟨2, ![256, 1]⟩
abbrev S1024x64 : Shape := ⟨2, ![1024, 64]⟩
abbrev S64 : Shape := ⟨1, ![64]⟩
abbrev S_ : Shape := ⟨0, ![]⟩

abbrev nBuf : Space → Nat
  | .hbm => 46
  | .vmem => 36
  | .smem => 0
  | _ => 0

abbrev bufTy : (tb : Table) → Fin (tcTables nBuf tb) → BufTy
  | .hbm, ⟨0, _⟩ => ⟨S32768x256, .f32⟩
  | .hbm, ⟨1, _⟩ => ⟨S32768, .i1⟩
  | .hbm, ⟨2, _⟩ => ⟨S32768, .i32⟩
  | .hbm, ⟨3, _⟩ => ⟨S32768, .i32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S256, .f32⟩
  | .hbm, ⟨10, _⟩ => ⟨S32768, .f32⟩
  | .hbm, ⟨11, _⟩ => ⟨S32768x1, .f32⟩
  | .hbm, ⟨12, _⟩ => ⟨S32768x1, .i32⟩
  | .hbm, ⟨13, _⟩ => ⟨S32768x1, .i32⟩
  | .hbm, ⟨14, _⟩ => ⟨S1x256, .f32⟩
  | .hbm, ⟨15, _⟩ => ⟨S256x512, .bf16⟩
  | .hbm, ⟨16, _⟩ => ⟨S256x512, .bf16⟩
  | .hbm, ⟨17, _⟩ => ⟨S256x512, .bf16⟩
  | .hbm, ⟨18, _⟩ => ⟨S256x512, .bf16⟩
  | .hbm, ⟨19, _⟩ => ⟨S512x256, .bf16⟩
  | .hbm, ⟨20, _⟩ => ⟨S2x64x512, .f32⟩
  | .hbm, ⟨21, _⟩ => ⟨S2x64x1, .f32⟩
  | .hbm, ⟨22, _⟩ => ⟨S2x256x512, .f32⟩
  | .hbm, ⟨23, _⟩ => ⟨S2x256x1, .f32⟩
  | .hbm, ⟨24, _⟩ => ⟨S32768x512, .bf16⟩
  | .hbm, ⟨25, _⟩ => ⟨S_, .f32⟩
  | .hbm, ⟨26, _⟩ => ⟨S64x512, .f32⟩
  | .hbm, ⟨27, _⟩ => ⟨S_, .f32⟩
  | .hbm, ⟨28, _⟩ => ⟨S64x1, .f32⟩
  | .hbm, ⟨29, _⟩ => ⟨S_, .f32⟩
  | .hbm, ⟨30, _⟩ => ⟨S256x512, .f32⟩
  | .hbm, ⟨31, _⟩ => ⟨S_, .f32⟩
  | .hbm, ⟨32, _⟩ => ⟨S256x1, .f32⟩
  | .hbm, ⟨33, _⟩ => ⟨S_, .f32⟩
  | .hbm, ⟨34, _⟩ => ⟨S64x1, .f32⟩
  | .hbm, ⟨35, _⟩ => ⟨S64x1, .f32⟩
  | .hbm, ⟨36, _⟩ => ⟨S64x512, .f32⟩
  | .hbm, ⟨37, _⟩ => ⟨S64x512, .f32⟩
  | .hbm, ⟨38, _⟩ => ⟨S64x512, .bf16⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x512, .f32⟩
  | .hbm, ⟨43, _⟩ => ⟨S256x512, .f32⟩
  | .hbm, ⟨44, _⟩ => ⟨S256x512, .bf16⟩
  | .hbm, ⟨45, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S1x64x512, .f32⟩
  | .local _ .vmem, ⟨12, _⟩ => ⟨S1x64x512, .f32⟩
  | .local _ .vmem, ⟨13, _⟩ => ⟨S1x64x1, .f32⟩
  | .local _ .vmem, ⟨14, _⟩ => ⟨S1x64x1, .f32⟩
  | .local _ .vmem, ⟨15, _⟩ => ⟨S1x256x512, .f32⟩
  | .local _ .vmem, ⟨16, _⟩ => ⟨S1x256x512, .f32⟩
  | .local _ .vmem, ⟨17, _⟩ => ⟨S1x256x1, .f32⟩
  | .local _ .vmem, ⟨18, _⟩ => ⟨S1x256x1, .f32⟩
  | .local _ .vmem, ⟨19, _⟩ => ⟨S1024x512, .bf16⟩
  | .local _ .vmem, ⟨20, _⟩ => ⟨S1024x512, .bf16⟩
  | .local _ .vmem, ⟨21, _⟩ => ⟨S1024x256, .f32⟩
  | .local _ .vmem, ⟨22, _⟩ => ⟨S1024x256, .f32⟩
  | .local _ .vmem, ⟨23, _⟩ => ⟨S1024x1, .i32⟩
  | .local _ .vmem, ⟨24, _⟩ => ⟨S1024x1, .i32⟩
  | .local _ .vmem, ⟨25, _⟩ => ⟨S1024x1, .i32⟩
  | .local _ .vmem, ⟨26, _⟩ => ⟨S1024x1, .i32⟩
  | .local _ .vmem, ⟨27, _⟩ => ⟨S256x512, .bf16⟩
  | .local _ .vmem, ⟨28, _⟩ => ⟨S512x256, .bf16⟩
  | .local _ .vmem, ⟨29, _⟩ => ⟨S1x256, .f32⟩
  | .local _ .vmem, ⟨30, _⟩ => ⟨S64x512, .bf16⟩
  | .local _ .vmem, ⟨31, _⟩ => ⟨S256x512, .bf16⟩
  | .local _ .vmem, ⟨32, _⟩ => ⟨S1024x512, .bf16⟩
  | .local _ .vmem, ⟨33, _⟩ => ⟨S1024x512, .bf16⟩
  | .local _ .vmem, ⟨34, _⟩ => ⟨S1024x256, .f32⟩
  | .local _ .vmem, ⟨35, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_cst : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S32768_S32768x1_0 : S32768.BroadcastsInDim S32768x1 (![0] : Fin 1 → Fin S32768x1.rank)
  bcast_S256_S1x256_1 : S256.BroadcastsInDim S1x256 (![1] : Fin 1 → Fin S1x256.rank)
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  iota_S1024x64_d1_w32 : S1024x64.Iotas .tc 32 [1]
  iota_S1024x256_d1_w32 : S1024x256.Iotas .tc 32 [1]
  broadcasts_S1024x1_S1024x64 : S1024x1.Broadcasts S1024x64
  broadcasts_S1024x1_S1024x256 : S1024x1.Broadcasts S1024x256
  natLt_1_32 : 1 < 32
  reduces_S1024x64_S64 : S1024x64.Reduces [0] S64
  shapeCasts_S64_S64x1 : S64.ShapeCasts S64x1
  reduces_S1024x256_S256 : S1024x256.Reduces [0] S256
  shapeCasts_S256_S256x1 : S256.ShapeCasts S256x1
  reducesTo_S2x64x512_S64x512_d0 : S2x64x512.ReducesTo [0] S64x512
  h_S_ : 0 < S_.numel
  reducesTo_S2x64x1_S64x1_d0 : S2x64x1.ReducesTo [0] S64x1
  reducesTo_S2x256x512_S256x512_d0 : S2x256x512.ReducesTo [0] S256x512
  reducesTo_S2x256x1_S256x1_d0 : S2x256x1.ReducesTo [0] S256x1
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  shapeCasts_S1024x512_S1024x512 : S1024x512.ShapeCasts S1024x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x512_S1024x512_1_0_0_1_n_n_wf : DotDims.WF S1024x256 S256x512 S1024x512 [1] [0] [0] [1] [] []
  dot_S1024x64_S1024x512_S64x512_0_0_1_1_n_n_wf : DotDims.WF S1024x64 S1024x512 S64x512 [0] [0] [1] [1] [] []
  dot_S1024x256_S1024x512_S256x512_0_0_1_1_n_n_wf : DotDims.WF S1024x256 S1024x512 S256x512 [0] [0] [1] [1] [] []
  dot_S1024x64_S64x512_S1024x512_1_0_0_1_n_n_wf : DotDims.WF S1024x64 S64x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S2x64x512.size a
  hwx0_7 : ∀ i : grid0.Coords, EltTy.bits .f32 = 32 ∨ (Rect.block (s := S2x64x512) S1x64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x1.size a ≤ S2x64x1.size a
  hwx0_8 : ∀ i : grid0.Coords, EltTy.bits .f32 = 32 ∨ (Rect.block (s := S2x64x1) S1x64x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x512.size a ≤ S2x256x512.size a
  hwx0_9 : ∀ i : grid0.Coords, EltTy.bits .f32 = 32 ∨ (Rect.block (s := S2x256x512) S1x256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1.size a ≤ S2x256x1.size a
  hwx0_10 : ∀ i : grid0.Coords, EltTy.bits .f32 = 32 ∨ (Rect.block (s := S2x256x1) S1x256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S32768x512.size a
  hwx0_11 : ∀ i : grid0.Coords, EltTy.bits .bf16 = 32 ∨ (Rect.block (s := S32768x512) S1024x512.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .f32 = 32 ∨ (Rect.block (s := S32768x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S32768x1.size a
  hwx1_1 : ∀ i : grid1.Coords, EltTy.bits .i32 = 32 ∨ (Rect.block (s := S32768x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .i32 = 32 ∨ (Rect.block (s := S32768x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .bf16 = 32 ∨ (Rect.block (s := S512x256) S512x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S64x512.size a
  hwx1_6 : ∀ i : grid1.Coords, EltTy.bits .bf16 = 32 ∨ (Rect.block (s := S64x512) S64x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x512.size a ≤ S256x512.size a
  hwx1_7 : ∀ i : grid1.Coords, EltTy.bits .bf16 = 32 ∨ (Rect.block (s := S256x512) S256x512.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x512.size a ≤ S32768x512.size a
  hwx1_8 : ∀ i : grid1.Coords, EltTy.bits .bf16 = 32 ∨ (Rect.block (s := S32768x512) S1024x512.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x256.size a ≤ S32768x256.size a
  hwx1_9 : ∀ i : grid1.Coords, EltTy.bits .f32 = 32 ∨ (Rect.block (s := S32768x256) S1024x256.size (cc1_transform_9 i) (hinb1_9 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf
def dot_S1024x256_S1024x512_S256x512_0_0_1_1_n_n : DotDims S1024x256 S1024x512 S256x512 where
  lhsContracting := [0]
  rhsContracting := [0]
  lhsNonContracting := [1]
  rhsNonContracting := [1]
  lhsBatch := []
  rhsBatch := []
  wf := dot_S1024x256_S1024x512_S256x512_0_0_1_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x64x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x64x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1x256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_3) S1x256x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_4) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S64x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S256x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10_4) S1024x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1024x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32768x256 : Shape := ⟨2, ![32768, 256]⟩
abbrev S32768 : Shape := ⟨1, ![32768]⟩
abbrev S256x512 : Shape := ⟨2, ![256, 512]⟩
abbrev S512x256 : Shape := ⟨2, ![512, 256]⟩
abbrev S256 : Shape := ⟨1, ![256]⟩
abbrev S32768x1 : Shape := ⟨2, ![32768, 1]⟩
abbrev S32768x512 : Shape := ⟨2, ![32768, 512]⟩
abbrev S_ : Shape := ⟨0, ![]⟩
abbrev S64x512 : Shape := ⟨2, ![64, 512]⟩
abbrev S64x1 : Shape := ⟨2, ![64, 1]⟩
abbrev S256x1 : Shape := ⟨2, ![256, 1]⟩
abbrev S1x256 : Shape := ⟨2, ![1, 256]⟩

abbrev nBuf : Space → Nat
  | .hbm => 124
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i1⟩
  | .hbm, ⟨2, _⟩ => ⟨S32768, .i32⟩
  | .hbm, ⟨3, _⟩ => ⟨S32768, .i32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S256, .f32⟩
  | .hbm, ⟨10, _⟩ => ⟨S32768, .f32⟩
  | .hbm, ⟨11, _⟩ => ⟨S32768x1, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S_, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S_, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S_, .f32⟩
  | .hbm, ⟨71, _⟩ => ⟨S64x512, .f32⟩
  | .hbm, ⟨72, _⟩ => ⟨S32768x1, .i32⟩
  | .hbm, ⟨73, _⟩ => ⟨S64x512, .f32⟩
  | .hbm, ⟨74, _⟩ => ⟨S_, .f32⟩
  | .hbm, ⟨75, _⟩ => ⟨S64x1, .f32⟩
  | .hbm, ⟨76, _⟩ => ⟨S32768x1, .i32⟩
  | .hbm, ⟨77, _⟩ => ⟨S64x1, .f32⟩
  | .hbm, ⟨78, _⟩ => ⟨S_, .f32⟩
  | .hbm, ⟨79, _⟩ => ⟨S64x1, .f32⟩
  | .hbm, ⟨80, _⟩ => ⟨S64x1, .f32⟩
  | .hbm, ⟨81, _⟩ => ⟨S64x512, .f32⟩
  | .hbm, ⟨82, _⟩ => ⟨S64x512, .f32⟩
  | .hbm, ⟨83, _⟩ => ⟨S_, .i32⟩
  | .hbm, ⟨84, _⟩ => ⟨S32768, .i32⟩
  | .hbm, ⟨85, _⟩ => ⟨S32768, .i1⟩
  | .hbm, ⟨86, _⟩ => ⟨S_, .i32⟩
  | .hbm, ⟨87, _⟩ => ⟨S32768, .i32⟩
  | .hbm, ⟨88, _⟩ => ⟨S32768, .i32⟩
  | .hbm, ⟨89, _⟩ => ⟨S32768, .i32⟩
  | .hbm, ⟨90, _⟩ => ⟨S32768x1, .i32⟩
  | .hbm, ⟨91, _⟩ => ⟨S32768x512, .f32⟩
  | .hbm, ⟨92, _⟩ => ⟨S32768x512, .f32⟩
  | .hbm, ⟨93, _⟩ => ⟨S32768x512, .f32⟩
  | .hbm, ⟨94, _⟩ => ⟨S32768x512, .f32⟩
  | .hbm, ⟨95, _⟩ => ⟨S_, .f32⟩
  | .hbm, ⟨96, _⟩ => ⟨S256x512, .f32⟩
  | .hbm, ⟨97, _⟩ => ⟨S32768x1, .i32⟩
  | .hbm, ⟨98, _⟩ => ⟨S256x512, .f32⟩
  | .hbm, ⟨99, _⟩ => ⟨S_, .f32⟩
  | .hbm, ⟨100, _⟩ => ⟨S256x1, .f32⟩
  | .hbm, ⟨101, _⟩ => ⟨S32768x1, .i32⟩
  | .hbm, ⟨102, _⟩ => ⟨S256x1, .f32⟩
  | .hbm, ⟨103, _⟩ => ⟨S_, .f32⟩
  | .hbm, ⟨104, _⟩ => ⟨S256x1, .f32⟩
  | .hbm, ⟨105, _⟩ => ⟨S256x1, .f32⟩
  | .hbm, ⟨106, _⟩ => ⟨S256x512, .f32⟩
  | .hbm, ⟨107, _⟩ => ⟨S256x512, .f32⟩
  | .hbm, ⟨108, _⟩ => ⟨S_, .i32⟩
  | .hbm, ⟨109, _⟩ => ⟨S32768, .i32⟩
  | .hbm, ⟨110, _⟩ => ⟨S32768, .i1⟩
  | .hbm, ⟨111, _⟩ => ⟨S_, .i32⟩
  | .hbm, ⟨112, _⟩ => ⟨S32768, .i32⟩
  | .hbm, ⟨113, _⟩ => ⟨S32768, .i32⟩
  | .hbm, ⟨114, _⟩ => ⟨S32768, .i32⟩
  | .hbm, ⟨115, _⟩ => ⟨S32768x1, .i32⟩
  | .hbm, ⟨116, _⟩ => ⟨S32768x512, .f32⟩
  | .hbm, ⟨117, _⟩ => ⟨S32768x512, .f32⟩
  | .hbm, ⟨118, _⟩ => ⟨S32768x512, .f32⟩
  | .hbm, ⟨119, _⟩ => ⟨S32768x512, .f32⟩
  | .hbm, ⟨120, _⟩ => ⟨S32768x256, .f32⟩
  | .hbm, ⟨121, _⟩ => ⟨S1x256, .f32⟩
  | .hbm, ⟨122, _⟩ => ⟨S32768x256, .f32⟩
  | .hbm, ⟨123, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_c_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  bcast_S_S64x512 : S_.BroadcastsInDim S64x512 (![] : Fin 0 → Fin S64x512.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S_S32768 : S_.BroadcastsInDim S32768 (![] : Fin 0 → Fin S32768.rank)
  bcast_S_S256x512 : S_.BroadcastsInDim S256x512 (![] : Fin 0 → Fin S256x512.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x256_S256x512_S32768x512_1_0_0_1_n_n_wf : DotDims.WF S32768x256 S256x512 S32768x512 [1] [0] [0] [1] [] []
  scatter_S64x512_S32768x1_S32768x512_1_0_0_1_wf : ScatterDims.WF S64x512 S32768x1 S32768x512 [1] [0] [0] 1
  scatter_S64x1_S32768x1_S32768x1_1_0_0_1_wf : ScatterDims.WF S64x1 S32768x1 S32768x1 [1] [0] [0] 1
  gather_S64x512_S32768x1_S32768x512_1_0_n_n_0_1_1512_wf : GatherDims.WF S64x512 S32768x1 S32768x512 [1] [0] [] [0] [] 1 ![1, 512]
  scatter_S256x512_S32768x1_S32768x512_1_0_0_1_wf : ScatterDims.WF S256x512 S32768x1 S32768x512 [1] [0] [0] 1
  scatter_S256x1_S32768x1_S32768x1_1_0_0_1_wf : ScatterDims.WF S256x1 S32768x1 S32768x1 [1] [0] [0] 1
  gather_S256x512_S32768x1_S32768x512_1_0_n_n_0_1_1512_wf : GatherDims.WF S256x512 S32768x1 S32768x512 [1] [0] [] [0] [] 1 ![1, 512]
  dot_S32768x512_S512x256_S32768x256_1_0_0_1_n_n_wf : DotDims.WF S32768x512 S512x256 S32768x256 [1] [0] [0] [1] [] []

variable [Facts₀]

def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf
def scatter_S64x512_S32768x1_S32768x512_1_0_0_1 : ScatterDims S64x512 S32768x1 S32768x512 where
  updateWindowDims := [1]
  insertedWindowDims := [0]
  scatterDimsToOperandDims := [0]
  indexVectorDim := 1
  wf := scatter_S64x512_S32768x1_S32768x512_1_0_0_1_wf
def scatter_S64x1_S32768x1_S32768x1_1_0_0_1 : ScatterDims S64x1 S32768x1 S32768x1 where
  updateWindowDims := [1]
  insertedWindowDims := [0]
  scatterDimsToOperandDims := [0]
  indexVectorDim := 1
  wf := scatter_S64x1_S32768x1_S32768x1_1_0_0_1_wf
def gather_S64x512_S32768x1_S32768x512_1_0_n_n_0_1_1512 : GatherDims S64x512 S32768x1 S32768x512 where
  offsetDims := [1]
  collapsedSliceDims := [0]
  operandBatchingDims := []
  startIndicesBatchingDims := []
  startIndexMap := [0]
  indexVectorDim := 1
  sliceSizes := ![1, 512]
  wf := gather_S64x512_S32768x1_S32768x512_1_0_n_n_0_1_1512_wf
def scatter_S256x512_S32768x1_S32768x512_1_0_0_1 : ScatterDims S256x512 S32768x1 S32768x512 where
  updateWindowDims := [1]
  insertedWindowDims := [0]
  scatterDimsToOperandDims := [0]
  indexVectorDim := 1
  wf := scatter_S256x512_S32768x1_S32768x512_1_0_0_1_wf
def scatter_S256x1_S32768x1_S32768x1_1_0_0_1 : ScatterDims S256x1 S32768x1 S32768x1 where
  updateWindowDims := [1]
  insertedWindowDims := [0]
  scatterDimsToOperandDims := [0]
  indexVectorDim := 1
  wf := scatter_S256x1_S32768x1_S32768x1_1_0_0_1_wf
def gather_S256x512_S32768x1_S32768x512_1_0_n_n_0_1_1512 : GatherDims S256x512 S32768x1 S32768x512 where
  offsetDims := [1]
  collapsedSliceDims := [0]
  operandBatchingDims := []
  startIndicesBatchingDims := []
  startIndexMap := [0]
  indexVectorDim := 1
  sliceSizes := ![1, 512]
  wf := gather_S256x512_S32768x1_S32768x512_1_0_n_n_0_1_1512_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.Spec.lean ====
/-
  What both programs compute, as one function of the ten argument arrays, over the extended reals.

  With x the [32768, 256] input, u = x·W_update, and for a gate matrix W the gate g_W = gelu(x·W) (the tanh form
  of gelu), every row e carries the 512-vector  g_W[e] ⊙ u[e] · mask[e].  A segment id array assigns row e to
  segment ids[e]; the segment's mean is the sum of its rows' vectors over max(the sum of its rows' mask values, ε),
  and ids below 0 or at or past the number of segments belong to no segment.  The hidden row r is the batch
  segment's mean at a row of the batch table chosen by r, plus the chain segment's mean at a row of the chain
  table chosen by r, plus g_lg[r] ⊙ u[r]; the result is hidden · W_out + b_out.

  Which table row a position reads is a parameter here (rowB, rowC): one program clamps the id into the table,
  the other first moves a negative id up by the table's height and then clamps; on ids that are not negative the
  two choices are the same row (selRow).

  The second half states the same quantities the way the two-pass program produces them: per-core partial sums
  over the 16384 rows of each half (coreSum), the mean tables built from the two halves (meanTable), and the
  second pass over those tables (applyOut).
-/
import Idealize.ShloMosaic.PureOps.Ideal
import Idealize.ShloMosaic.Lib.ValueIdx

noncomputable section

namespace Cert.SegGate

open Idealize.ShloMosaic Idealize.ShloMosaic.ValueIdx
open scoped BigOperators

/-! ## The literals, as the binary values both programs carry -/

def c044 : EReal := Ideal.ofBits .f32 0x3D372713#32
def c079 : EReal := Ideal.ofBits .f32 0x3F4C422A#32
def cOne : EReal := Ideal.ofBits .f32 0x3F800000#32
def cHalf : EReal := Ideal.ofBits .f32 0x3F000000#32
def cEps : EReal := Ideal.ofBits .f32 0x358637BD#32

/-- gelu in its tanh form: z · (½ · (1 + tanh(c₁ · (z + c₀ · z³)))), the cube grouped z · (z · z). -/
def gelu (z : EReal) : EReal := z * (cHalf * (cOne + Ideal.tanh (c079 * (z + c044 * (z * (z * z))))))

/-- Entry (r, k) of the product of an [n, d] array with a [d, h] array. -/
def proj {n d h : Nat} (x : (⟨2, ![n, d]⟩ : Shape).Idx → EReal) (w : (⟨2, ![d, h]⟩ : Shape).Idx → EReal)
    (r : Fin n) (k : Fin h) : EReal :=
  ∑ j : Fin d, x (ix2 r j) * w (ix2 j k)

/-- Row r's masked gated update at column k: (gelu((x·wg)[r,k]) · (x·wu)[r,k]) · mask[r]. -/
def gated {n d h : Nat} (x : (⟨2, ![n, d]⟩ : Shape).Idx → EReal) (wu wg : (⟨2, ![d, h]⟩ : Shape).Idx → EReal)
    (mf : Fin n → EReal) (r : Fin n) (k : Fin h) : EReal :=
  (gelu (proj x wg r k) * proj x wu r k) * mf r

/-- The sum of v over the rows whose id, read as a signed integer, is exactly s. -/
def segSum {n : Nat} (ids : Fin n → BitVec 32) (v : Fin n → EReal) (s : Nat) : EReal :=
  ∑ e : Fin n, if (ids e).toInt = (s : Int) then v e else 0

/-- Segment s's mean of v: its sum over max(its sum of mask values, ε). -/
def segMean {n : Nat} (ids : Fin n → BitVec 32) (mf v : Fin n → EReal) (s : Nat) : EReal :=
  Ideal.div (segSum ids v s) (max (segSum ids mf s) cEps)

/-- The table row an id reads: the id as a signed integer clamped into [0, S − 1]. -/
def selRow (S : Nat) (hS : 0 < S) (b : BitVec 32) : Fin S := ⟨min b.toInt.toNat (S - 1), by omega⟩

/-- The hidden row r at column k, the table rows read chosen by rowB and rowC. -/
def hidden (x : (⟨2, ![32768, 256]⟩ : Shape).Idx → EReal) (wu wlg wcg wbg : (⟨2, ![256, 512]⟩ : Shape).Idx → EReal)
    (mf : Fin 32768 → EReal) (idB idC : Fin 32768 → BitVec 32) (rowB : Fin 32768 → Fin 64) (rowC : Fin 32768 → Fin 256)
    (r : Fin 32768) (k : Fin 512) : EReal :=
  (segMean idB mf (fun e => gated x wu wbg mf e k) (rowB r).val
    + segMean idC mf (fun e => gated x wu wcg mf e k) (rowC r).val)
    + gelu (proj x wlg r k) * proj x wu r k

/-- The result at (r, d): hidden[r] · W_out[:, d] + b_out[d]. -/
def out (x : (⟨2, ![32768, 256]⟩ : Shape).Idx → EReal) (wu wlg wcg wbg : (⟨2, ![256, 512]⟩ : Shape).Idx → EReal)
    (wout : (⟨2, ![512, 256]⟩ : Shape).Idx → EReal) (bout : Fin 256 → EReal)
    (mf : Fin 32768 → EReal) (idB idC : Fin 32768 → BitVec 32) (rowB : Fin 32768 → Fin 64) (rowC : Fin 32768 → Fin 256)
    (r : Fin 32768) (d : Fin 256) : EReal :=
  (∑ k : Fin 512, hidden x wu wlg wcg wbg mf idB idC rowB rowC r k * wout (ix2 k d)) + bout d

/-! ## The same, as a two-pass program produces it -/

/-- Row e of half cc of the 32768 rows. -/
def coreRow (cc : Fin 2) (e : Fin 16384) : Fin 32768 := ⟨16384 * cc.val + e.val, by omega⟩

/-- The sum of v over the rows of half cc whose id reads exactly s. -/
def coreSum (ids : Fin 32768 → BitVec 32) (v : Fin 32768 → EReal) (cc : Fin 2) (s : Nat) : EReal :=
  ∑ e : Fin 16384, if (ids (coreRow cc e)).toInt = (s : Int) then v (coreRow cc e) else 0

/-- First pass, the partial segment sums [2, S, 512]: half cc's sum, for segment s and column k, of the masked
    gated updates; ids and mask arrive as [32768, 1] columns. -/
def reduceSum {S : Nat} (x : (⟨2, ![32768, 256]⟩ : Shape).Idx → EReal) (idcol : (⟨2, ![32768, 1]⟩ : Shape).Idx → BitVec 32)
    (mcol : (⟨2, ![32768, 1]⟩ : Shape).Idx → EReal) (wu wg : (⟨2, ![256, 512]⟩ : Shape).Idx → EReal) :
    (⟨3, ![2, S, 512]⟩ : Shape).Idx → EReal :=
  fun i => coreSum (fun r => idcol (ix2 r 0)) (fun r => gated x wu wg (fun e => mcol (ix2 e 0)) r (i 2)) (i 0) (i 1).val

/-- First pass, the partial segment counts [2, S, 1]: half cc's sum of mask values for segment s. -/
def reduceCnt {S : Nat} (idcol : (⟨2, ![32768, 1]⟩ : Shape).Idx → BitVec 32)
    (mcol : (⟨2, ![32768, 1]⟩ : Shape).Idx → EReal) : (⟨3, ![2, S, 1]⟩ : Shape).Idx → EReal :=
  fun i => coreSum (fun r => idcol (ix2 r 0)) (fun r => mcol (ix2 r 0)) (i 0) (i 1).val

/-- First pass, the update array [32768, 512]: x · W_update. -/
def updOut (x : (⟨2, ![32768, 256]⟩ : Shape).Idx → EReal) (wu : (⟨2, ![256, 512]⟩ : Shape).Idx → EReal) :
    (⟨2, ![32768, 512]⟩ : Shape).Idx → EReal :=
  fun i => proj x wu (i 0) (i 1)

/-- Between the passes, the mean table [S, 512]: the two halves' sums added, over max(the two halves' counts
    added, ε). -/
def meanTable {S : Nat} (sums : (⟨3, ![2, S, 512]⟩ : Shape).Idx → EReal) (cnts : (⟨3, ![2, S, 1]⟩ : Shape).Idx → EReal) :
    (⟨2, ![S, 512]⟩ : Shape).Idx → EReal :=
  fun i => Ideal.div (∑ cc : Fin 2, sums (ix3 cc (i 0) (i 1))) (max (∑ cc : Fin 2, cnts (ix3 cc (i 0) 0)) cEps)

/-- Second pass, the result [32768, 256] from the two mean tables and the update array: row r reads each table at
    the row its id clamps to. -/
def applyOut (x : (⟨2, ![32768, 256]⟩ : Shape).Idx → EReal) (idBcol idCcol : (⟨2, ![32768, 1]⟩ : Shape).Idx → BitVec 32)
    (wlg : (⟨2, ![256, 512]⟩ : Shape).Idx → EReal) (wout : (⟨2, ![512, 256]⟩ : Shape).Idx → EReal)
    (brow : (⟨2, ![1, 256]⟩ : Shape).Idx → EReal) (bmean : (⟨2, ![64, 512]⟩ : Shape).Idx → EReal)
    (cmean : (⟨2, ![256, 512]⟩ : Shape).Idx → EReal) (upd : (⟨2, ![32768, 512]⟩ : Shape).Idx → EReal) :
    (⟨2, ![32768, 256]⟩ : Shape).Idx → EReal :=
  fun i => (∑ k : Fin 512,
      ((bmean (ix2 (selRow 64 (by decide) (idBcol (ix2 (i 0) 0))) k)
        + cmean (ix2 (selRow 256 (by decide) (idCcol (ix2 (i 0) 0))) k))
        + gelu (proj x wlg (i 0) k) * upd (ix2 (i 0) k)) * wout (ix2 k (i 1)))
    + brow (ix2 0 (i 1))

end Cert.SegGate

end
-- ==== Proof.SpecLaws.lean ====
/-
  The two-pass form is the one-pass form.  The two halves' partial sums added are the sum over all rows (a sum over
  32768 rows split at 16384), so the mean tables built between the passes are the segment means, and the second
  pass over them is SegGate.out with each table read at the row the id clamps to.
-/
import proofs.«408816_j25881472925818_3_alg».proof.Proof.Spec

noncomputable section

namespace Cert.SegGate

open Idealize.ShloMosaic Idealize.ShloMosaic.ValueIdx
open scoped BigOperators

/-- Row e of the first half is row e; row e of the second half is row 16384 + e. -/
theorem coreRow_zero (e : Fin 16384) : coreRow 0 e = Fin.castAdd 16384 e := Fin.ext (by simp [coreRow])

theorem coreRow_one (e : Fin 16384) : coreRow 1 e = Fin.natAdd 16384 e :=
  Fin.ext (by show 16384 * ((1 : Fin 2) : ℕ) + e.val = 16384 + e.val; rw [show ((1 : Fin 2) : ℕ) = 1 from rfl])

/-- The two halves' sums for segment s, added, are the whole segment sum. -/
theorem coreSum_add (ids : Fin 32768 → BitVec 32) (v : Fin 32768 → EReal) (s : Nat) :
    ∑ cc : Fin 2, coreSum ids v cc s = segSum ids v s := by
  have h := Fin.sum_univ_add (a := 16384) (b := 16384)
    (fun e : Fin (16384 + 16384) => if (ids e).toInt = (s : Int) then v e else 0)
  unfold coreSum segSum
  rw [Fin.sum_univ_two]
  simp only [coreRow_zero, coreRow_one]
  exact h.symm

/-- A mean table built from the two halves' partial sums and counts holds the segment means. -/
theorem meanTable_apply {S : Nat} (x : (⟨2, ![32768, 256]⟩ : Shape).Idx → EReal) (idcol : (⟨2, ![32768, 1]⟩ : Shape).Idx → BitVec 32)
    (mcol : (⟨2, ![32768, 1]⟩ : Shape).Idx → EReal) (wu wg : (⟨2, ![256, 512]⟩ : Shape).Idx → EReal) (a : Fin S) (k : Fin 512) :
    meanTable (reduceSum (S := S) x idcol mcol wu wg) (reduceCnt (S := S) idcol mcol) (ix2 a k)
      = segMean (fun r => idcol (ix2 r 0)) (fun r => mcol (ix2 r 0))
          (fun e => gated x wu wg (fun e => mcol (ix2 e 0)) e k) a.val := by
  show Ideal.div (∑ cc : Fin 2, coreSum (fun r => idcol (ix2 r 0)) (fun r => gated x wu wg (fun e => mcol (ix2 e 0)) r k) cc a.val)
      (max (∑ cc : Fin 2, coreSum (fun r => idcol (ix2 r 0)) (fun r => mcol (ix2 r 0)) cc a.val) cEps) = _
  rw [coreSum_add, coreSum_add]
  rfl

/-- The second pass over the tables built from the first pass's outputs is the one-pass result. -/
theorem two_pass (x : (⟨2, ![32768, 256]⟩ : Shape).Idx → EReal) (idBcol idCcol : (⟨2, ![32768, 1]⟩ : Shape).Idx → BitVec 32)
    (mcol : (⟨2, ![32768, 1]⟩ : Shape).Idx → EReal) (wu wlg wcg wbg : (⟨2, ![256, 512]⟩ : Shape).Idx → EReal)
    (wout : (⟨2, ![512, 256]⟩ : Shape).Idx → EReal) (brow : (⟨2, ![1, 256]⟩ : Shape).Idx → EReal) :
    applyOut x idBcol idCcol wlg wout brow
        (meanTable (reduceSum (S := 64) x idBcol mcol wu wbg) (reduceCnt (S := 64) idBcol mcol))
        (meanTable (reduceSum (S := 256) x idCcol mcol wu wcg) (reduceCnt (S := 256) idCcol mcol))
        (updOut x wu)
      = fun i => out x wu wlg wcg wbg wout (fun d => brow (ix2 0 d)) (fun r => mcol (ix2 r 0))
          (fun r => idBcol (ix2 r 0)) (fun r => idCcol (ix2 r 0))
          (fun r => selRow 64 (by decide) (idBcol (ix2 r 0))) (fun r => selRow 256 (by decide) (idCcol (ix2 r 0)))
          (i 0) (i 1) := by
  funext i
  unfold applyOut out hidden
  simp only [meanTable_apply]
  rfl

end Cert.SegGate

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.Apply.lean ====
/-
  The second pass read as a value: with the two mean tables, the update array and the weights as the region finds
  them, the result array ends at SegGate.applyOut of them — row r of block t is row 1024·t + r of the arrays, each
  table read at the row the id clamps to (the one-hot product with the table picks that row), the products with
  W_lg and W_out the plain contractions.
-/
import proofs.«408816_j25881472925818_3_alg».proof.Proof.Spec
import proofs.«408816_j25881472925818_3_alg».proof.Proof.Gen.KernelIdeal.Frame
import proofs.«408816_j25881472925818_3_alg».proof.Proof.LibTileSum
import proofs.«408816_j25881472925818_3_alg».proof.Proof.LibRowTile
import proofs.«408816_j25881472925818_3_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ApplyValue

open Cert.KernelIdeal Cert.KernelIdeal.Gen
open Idealize.ShloMosaic Idealize.ShloMosaic.TcCoe Idealize.ShloMosaic.ValueIdx Idealize.SL.Sem
open Idealize.ShloMosaic.Pipeline (Dat)

/-! ## The clamp on words, and a one-hot row

  The body clamps an id b into [0, S − 1] on signed 32-bit words, compares the result with every column number
  s < S, and reads the comparison bit as a float. As a natural number the clamped word is min (max b 0) (S − 1),
  the specification's selRow; so the row of bits is 1 at that column and 0 elsewhere, and its product with a table
  is the table's row there (0 · x = 0 for every extended real x, so nothing about finiteness is needed). -/

/-- The signed clamp of a word into [0, S − 1] (first the larger of 0 and the word, then the smaller of S − 1 and
    that, both as signed words), read as a natural number, is the row the specification's selRow names. -/
theorem clamp_toNat (S : Nat) (hS : 0 < S) (hS' : S ≤ 2 ^ 31) (b : BitVec 32) :
    (IntOp.minsi (BitVec.ofNat 32 (S - 1)) (IntOp.maxsi 0#32 b)).toNat = (Cert.SegGate.selRow S hS b).val := by
  have e := BitVec.toInt_eq_toNat_cond b
  have hb := b.isLt
  have h0 : (0#32 : BitVec 32).toInt = 0 := by decide
  have hc : (BitVec.ofNat 32 (S - 1)).toNat = S - 1 := by
    rw [BitVec.toNat_ofNat]; exact Nat.mod_eq_of_lt (by omega)
  have ec := BitVec.toInt_eq_toNat_cond (BitVec.ofNat 32 (S - 1))
  show _ = min b.toInt.toNat (S - 1)
  unfold IntOp.maxsi
  by_cases h : b.slt 0#32 = true
  · rw [if_pos h]
    rw [BitVec.slt_iff_toInt_lt, h0] at h
    unfold IntOp.minsi
    by_cases h2 : (BitVec.ofNat 32 (S - 1)).slt 0#32 = true
    · rw [if_pos h2]
      rw [BitVec.slt_iff_toInt_lt, h0] at h2
      split at ec <;> omega
    · rw [if_neg h2]
      show 0 = _
      omega
  · rw [if_neg h]
    rw [BitVec.slt_iff_toInt_lt, h0] at h
    unfold IntOp.minsi
    by_cases h2 : (BitVec.ofNat 32 (S - 1)).slt b = true
    · rw [if_pos h2]
      rw [BitVec.slt_iff_toInt_lt] at h2
      split at ec <;> split at e <;> omega
    · rw [if_neg h2]
      rw [BitVec.slt_iff_toInt_lt] at h2
      split at ec <;> split at e <;> omega

/-- A one-bit word widened to 32 bits and read as a float: 1 for a set bit, 0 for a clear one. -/
abbrev oh (w : BitVec 1) : EReal := FloatOps.sitofp (F := Ideal) .f32 (w.setWidth 32)

/-- An entry of the one-hot matrix: at column s it compares the clamped id with s, so it is 1 exactly at the
    column selRow names and 0 at every other. -/
theorem onehot_entry (S : Nat) (hS : 0 < S) (hS' : S ≤ 2 ^ 31) (b : BitVec 32) (s : Fin S) :
    oh (IntOp.cmpi .eq (IntOp.minsi (BitVec.ofNat 32 (S - 1)) (IntOp.maxsi 0#32 b)) (BitVec.ofNat 32 s.val))
      = if Cert.SegGate.selRow S hS b = s then 1 else 0 := by
  have hn := clamp_toNat S hS hS' b
  have hs : (BitVec.ofNat 32 s.val).toNat = s.val := by
    rw [BitVec.toNat_ofNat]; exact Nat.mod_eq_of_lt (by have := s.isLt; omega)
  by_cases h : Cert.SegGate.selRow S hS b = s
  · rw [if_pos h]
    have he : IntOp.minsi (BitVec.ofNat 32 (S - 1)) (IntOp.maxsi 0#32 b) = BitVec.ofNat 32 s.val :=
      BitVec.eq_of_toNat_eq (by rw [hn, hs, h])
    rw [he]
    show (((((BitVec.ofBool (BitVec.ofNat 32 s.val == BitVec.ofNat 32 s.val)).setWidth 32).toInt : ℝ)) : EReal) = 1
    rw [beq_self_eq_true, show ((BitVec.ofBool true).setWidth 32).toInt = 1 from by decide, Int.cast_one, EReal.coe_one]
  · rw [if_neg h]
    have hne : ¬ IntOp.minsi (BitVec.ofNat 32 (S - 1)) (IntOp.maxsi 0#32 b) = BitVec.ofNat 32 s.val := fun he =>
      h (Fin.ext (by rw [← hn, he, hs]))
    show (((((BitVec.ofBool (IntOp.minsi (BitVec.ofNat 32 (S - 1)) (IntOp.maxsi 0#32 b) == BitVec.ofNat 32 s.val)).setWidth 32).toInt : ℝ)) : EReal) = 0
    rw [beq_eq_false_iff_ne.mpr hne, show ((BitVec.ofBool false).setWidth 32).toInt = 0 from by decide, Int.cast_zero, EReal.coe_zero]

/-- A one-hot row times a table keeps one term: the table's row at the clamped id. -/
theorem onehot_sum (S : Nat) (hS : 0 < S) (hS' : S ≤ 2 ^ 31) (b : BitVec 32) (T : Fin S → EReal) :
    ∑ s : Fin S, oh (IntOp.cmpi .eq (IntOp.minsi (BitVec.ofNat 32 (S - 1)) (IntOp.maxsi 0#32 b)) (BitVec.ofNat 32 s.val)) * T s
      = T (Cert.SegGate.selRow S hS b) := by
  rw [Finset.sum_congr rfl fun s _ => by rw [onehot_entry S hS hS' b s, Cert.Lib.indicator_mul Iff.rfl]]
  rw [Finset.sum_ite_eq, if_pos (Finset.mem_univ _)]

/-! ## The three contractions are plain products

  Each product of the body contracts the left operand's second axis with the right operand's first and has no batch
  axis: [1024, 64]·[64, 512] (the batch one-hot with its table), [1024, 256]·[256, 512] (the chain one-hot with its
  table, and the rows of x with W_lg), [1024, 512]·[512, 256] (the hidden rows with W_out). -/

theorem plain_batch : Cert.Lib.IsPlain dot_S1024x64_S64x512_S1024x512_1_0_0_1_n_n := ⟨rfl, rfl, rfl, rfl, rfl, rfl, rfl, rfl⟩
theorem plain_rows256 : Cert.Lib.IsPlain dot_S1024x256_S256x512_S1024x512_1_0_0_1_n_n := ⟨rfl, rfl, rfl, rfl, rfl, rfl, rfl, rfl⟩
theorem plain_out : Cert.Lib.IsPlain dot_S1024x512_S512x256_S1024x256_1_0_0_1_n_n := ⟨rfl, rfl, rfl, rfl, rfl, rfl, rfl, rfl⟩

/-! ## The body's arithmetic at an index

  Each of the body's four terms read at a row p of the block and a column: the two comparison matrices, the gated
  update, and the stored value over them. Every product accumulates into zero, so it is the bare sum over the
  contracted coordinate; a change of float format is the identity on the extended reals. -/

/-- Entry (p, s) of the batch comparison matrix: row p's id, clamped into [0, 63] as a signed word, compared with
    the column number s. -/
theorem batch_onehot_apply (v22 : Vec Ideal S1024x1 .i32) (p : Fin 1024) (s : Fin 64) :
    k1_pay3 (F := Ideal) v22 (ix2 p s)
      = IntOp.cmpi .eq (IntOp.minsi 63#32 (IntOp.maxsi 0#32 (v22 (ix2 p (0 : Fin 1))))) (BitVec.ofNat 32 s.val) := by
  unfold k1_pay3
  simp only [shapeCast_self]
  refine congrArg₂ (IntOp.cmpi .eq) ?_ ?_
  · exact broadcastTo_a1_ab_apply _ _ p s
  · exact iota_single_apply .tc S1024x64 32 1 _ (ix2 p s)

/-- Entry (p, s) of the chain comparison matrix: row p's id, clamped into [0, 255], compared with s. -/
theorem chain_onehot_apply (v28 : Vec Ideal S1024x1 .i32) (p : Fin 1024) (s : Fin 256) :
    k1_pay4 (F := Ideal) v28 (ix2 p s)
      = IntOp.cmpi .eq (IntOp.minsi 255#32 (IntOp.maxsi 0#32 (v28 (ix2 p (0 : Fin 1))))) (BitVec.ofNat 32 s.val) := by
  unfold k1_pay4
  simp only [shapeCast_self]
  refine congrArg₂ (IntOp.cmpi .eq) ?_ ?_
  · exact broadcastTo_a1_ab_apply _ _ p s
  · exact iota_single_apply .tc S1024x256 32 1 _ (ix2 p s)

/-- Entry (p, k) of the gated update: gelu of row p of the block times column k of W_lg, times the update entry;
    the body spells gelu exactly as the specification does, on the same literal words. -/
theorem gated_apply (v0 : FVec Ideal S1024x256 .f32) (v2 : FVec Ideal S256x512 .bf16) (v4 : FVec Ideal S1024x512 .bf16)
    (p : Fin 1024) (k : Fin 512) :
    k1_pay2 (F := Ideal) v0 v2 v4 (ix2 p k)
      = Cert.SegGate.gelu (∑ j : Fin 256, v0 (ix2 p j) * v2 (ix2 j k)) * v4 (ix2 p k) := by
  unfold k1_pay2
  simp only [shapeCast_self]
  have zero_offsets : matmul dot_S1024x256_S256x512_S1024x512_1_0_0_1_n_n none (truncf .bf16 v0 bitsLt_bf16_f32) v2
      (constant S1024x512 .f32 0x00000000#32) (ix2 p k) = ∑ j : Fin 256, v0 (ix2 p j) * v2 (ix2 j k) :=
    (Ideal.matmul_constant_zero_apply dot_S1024x256_S256x512_S1024x512_1_0_0_1_n_n none (truncf .bf16 v0 bitsLt_bf16_f32) v2 (ix2 p k)).trans
      (plain_rows256.sum_eq v0 v2 (ix2 p k))
  refine Eq.trans ?_ (congrArg (fun z => Cert.SegGate.gelu z * v4 (ix2 p k)) zero_offsets)
  rfl

/-- Entry (p, q) of the stored value, over the comparison matrices and the gated update as given: the hidden row
    (the two one-hot products added, plus the gated update) times column q of W_out, plus the bias. -/
theorem store_apply (v21 : FVec Ideal S1024x512 .f32) (v37 : IVec S1024x64 1) (v39 : IVec S1024x256 1)
    (v46 : FVec Ideal S64x512 .bf16) (v48 : FVec Ideal S256x512 .bf16) (v54 : FVec Ideal S512x256 .bf16)
    (v58 : FVec Ideal S1x256 .f32) (p : Fin 1024) (q : Fin 256) :
    k1_pay1 (F := Ideal) v21 v37 v39 v46 v48 v54 v58 (ix2 p q)
      = (∑ k : Fin 512, (((∑ s : Fin 64, oh (v37 (ix2 p s)) * v46 (ix2 s k))
            + (∑ s : Fin 256, oh (v39 (ix2 p s)) * v48 (ix2 s k))) + v21 (ix2 p k)) * v54 (ix2 k q))
        + v58 (ix2 (0 : Fin 1) q) := by
  unfold k1_pay1
  simp only [shapeCast_self]
  have hB : ∀ k : Fin 512, matmul dot_S1024x64_S64x512_S1024x512_1_0_0_1_n_n none
      (truncf .bf16 (sitofp .f32 (extui 32 v37 natLt_1_32)) bitsLt_bf16_f32) v46 (constant S1024x512 .f32 0x00000000#32) (ix2 p k)
        = ∑ s : Fin 64, oh (v37 (ix2 p s)) * v46 (ix2 s k) := fun k =>
    (Ideal.matmul_constant_zero_apply dot_S1024x64_S64x512_S1024x512_1_0_0_1_n_n none
      (truncf .bf16 (sitofp .f32 (extui 32 v37 natLt_1_32)) bitsLt_bf16_f32) v46 (ix2 p k)).trans
      (plain_batch.sum_eq (fun i => oh (v37 i)) v46 (ix2 p k))
  have hC : ∀ k : Fin 512, matmul dot_S1024x256_S256x512_S1024x512_1_0_0_1_n_n none
      (truncf .bf16 (sitofp .f32 (extui 32 v39 natLt_1_32)) bitsLt_bf16_f32) v48 (constant S1024x512 .f32 0x00000000#32) (ix2 p k)
        = ∑ s : Fin 256, oh (v39 (ix2 p s)) * v48 (ix2 s k) := fun k =>
    (Ideal.matmul_constant_zero_apply dot_S1024x256_S256x512_S1024x512_1_0_0_1_n_n none
      (truncf .bf16 (sitofp .f32 (extui 32 v39 natLt_1_32)) bitsLt_bf16_f32) v48 (ix2 p k)).trans
      (plain_rows256.sum_eq (fun i => oh (v39 i)) v48 (ix2 p k))
  refine (addf_apply _ _ _).trans (congrArg₂ (· + ·) ?_ (broadcastTo_1b_ab_apply v58 _ p q))
  refine (Ideal.matmul_constant_zero_apply dot_S1024x512_S512x256_S1024x256_1_0_0_1_n_n none _ v54 (ix2 p q)).trans ?_
  refine (plain_out.sum_eq _ v54 (ix2 p q)).trans ?_
  refine Finset.sum_congr rfl fun k _ => ?_
  refine congrArg (· * v54 (ix2 k q)) ?_
  exact congrArg₂ (fun a b => (a + b) + v21 (ix2 p k)) (hB k) (hC k)

/-- The body's stored value at row p and column q of a block, from the nine loaded blocks: each one-hot product is
    the table's row at the clamped id, the gate is gelu of the row's product with W_lg. -/
theorem stored_apply (x0 : FVec Ideal S1024x256 .f32) (x1 x2 : IVec S1024x1 32) (x3 : FVec Ideal S256x512 .bf16)
    (x4 : FVec Ideal S512x256 .bf16) (x5 : FVec Ideal S1x256 .f32) (x6 : FVec Ideal S64x512 .bf16)
    (x7 : FVec Ideal S256x512 .bf16) (x8 : FVec Ideal S1024x512 .bf16) (p : Fin 1024) (q : Fin 256) :
    k1_pay1 (F := Ideal) (k1_pay2 (F := Ideal) x0 x3 x8) (k1_pay3 (F := Ideal) x1) (k1_pay4 (F := Ideal) x2) x6 x7 x4 x5 (ix2 p q)
      = (∑ k : Fin 512,
          ((x6 (ix2 (Cert.SegGate.selRow 64 (by decide) (x1 (ix2 p (0 : Fin 1)))) k)
            + x7 (ix2 (Cert.SegGate.selRow 256 (by decide) (x2 (ix2 p (0 : Fin 1)))) k))
            + Cert.SegGate.gelu (∑ j : Fin 256, x0 (ix2 p j) * x3 (ix2 j k)) * x8 (ix2 p k)) * x4 (ix2 k q))
        + x5 (ix2 (0 : Fin 1) q) := by
  refine (store_apply _ _ _ x6 x7 x4 x5 p q).trans ?_
  refine congrArg (· + x5 (ix2 (0 : Fin 1) q)) (Finset.sum_congr rfl fun k _ => ?_)
  refine congrArg (· * x4 (ix2 k q)) ?_
  refine congrArg₂ (· + ·) (congrArg₂ (· + ·) ?_ ?_) (gated_apply x0 x3 x8 p k)
  · rw [Finset.sum_congr rfl fun s _ => by rw [batch_onehot_apply x1 p s]]
    exact onehot_sum 64 (by decide) (by decide) (x1 (ix2 p (0 : Fin 1))) (fun s => x6 (ix2 s k))
  · rw [Finset.sum_congr rfl fun s _ => by rw [chain_onehot_apply x2 p s]]
    exact onehot_sum 256 (by decide) (by decide) (x2 (ix2 p (0 : Fin 1))) (fun s => x7 (ix2 s k))

/-! ## From the blocks to the arrays

  Point t stages rows 1024·t … 1024·t + 1023 of x, of the two id columns and of the update array, the whole of the
  two weight matrices, the bias row and the two mean tables, and writes rows 1024·t … 1024·t + 1023 of the result. A
  block's element (y₀, y₁) sits in its array at block index × block extent + y on each axis. -/

variable (V : (c : Dev nD) → (b : Ref sig .tc) → Buf (Elt Ideal) ((c : Thread nD τ).loc b))

/-- The body loads and stores whole blocks: every rectangle starts at (0, 0). -/
theorem zero_offsets : (![0, 0] : Fin 2 → Nat) = fun _ => 0 := funext fun a => by fin_cases a <;> rfl

/-- The index maps, decided over the 32 points: the row-blocked windows sit at block row t, column block 0; the
    whole-array windows at block (0, 0). -/
theorem block_positions : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- Row p of x's block at point t is row 1024·t + p of x. -/
theorem x_block (c : Dev nD) (t : Fin cfg1.N) (p : Fin 1024) (j : Fin 256) (r : Fin 32768) (hr : r.val = 1024 * t.val + p.val) :
    (iblk1 V c 0 t : FVec Ideal S1024x256 .f32) (ix2 p j) = (V c main_arg0 : S32768x256.Idx → EReal) (ix2 r j) := by
  obtain ⟨⟨e0, e1⟩, -⟩ := block_positions t
  show V c main_arg0 (((cfg1.win 0).blk t).view.emb (ix2 p j)) = _
  refine congrArg (V c main_arg0) (funext fun a => Fin.ext ?_)
  match a with
  | ⟨0, _⟩ => show win1_0.index t (0 : Fin 2) * 1024 + 1 * p.val = r.val; rw [e0, hr]; omega
  | ⟨1, _⟩ => show win1_0.index t (1 : Fin 2) * 256 + 1 * j.val = j.val; rw [e1]; omega

/-- Row p of the batch id column's block at point t is row 1024·t + p of the column. -/
theorem batch_id_block (c : Dev nD) (t : Fin cfg1.N) (p : Fin 1024) (r : Fin 32768) (hr : r.val = 1024 * t.val + p.val) :
    (iblk1 V c 1 t : IVec S1024x1 32) (ix2 p (0 : Fin 1)) = (V c main_v2 : S32768x1.Idx → BitVec 32) (ix2 r (0 : Fin 1)) := by
  obtain ⟨-, ⟨e0, e1⟩, -⟩ := block_positions t
  show V c main_v2 (((cfg1.win 1).blk t).view.emb (ix2 p (0 : Fin 1))) = _
  refine congrArg (V c main_v2) (funext fun a => Fin.ext ?_)
  match a with
  | ⟨0, _⟩ => show win1_1.index t (0 : Fin 2) * 1024 + 1 * p.val = r.val; rw [e0, hr]; omega
  | ⟨1, _⟩ => show win1_1.index t (1 : Fin 2) * 1 + 1 * 0 = 0; rw [e1]

/-- The same for the chain id column. -/
theorem chain_id_block (c : Dev nD) (t : Fin cfg1.N) (p : Fin 1024) (r : Fin 32768) (hr : r.val = 1024 * t.val + p.val) :
    (iblk1 V c 2 t : IVec S1024x1 32) (ix2 p (0 : Fin 1)) = (V c main_v3 : S32768x1.Idx → BitVec 32) (ix2 r (0 : Fin 1)) := by
  obtain ⟨-, -, ⟨e0, e1⟩, -⟩ := block_positions t
  show V c main_v3 (((cfg1.win 2).blk t).view.emb (ix2 p (0 : Fin 1))) = _
  refine congrArg (V c main_v3) (funext fun a => Fin.ext ?_)
  match a with
  | ⟨0, _⟩ => show win1_2.index t (0 : Fin 2) * 1024 + 1 * p.val = r.val; rw [e0, hr]; omega
  | ⟨1, _⟩ => show win1_2.index t (1 : Fin 2) * 1 + 1 * 0 = 0; rw [e1]

/-- W_lg's one block is W_lg. -/
theorem wlg_block (c : Dev nD) (t : Fin cfg1.N) (j : Fin 256) (k : Fin 512) :
    (iblk1 V c 3 t : FVec Ideal S256x512 .bf16) (ix2 j k) = (V c main_v8 : S256x512.Idx → EReal) (ix2 j k) := by
  obtain ⟨-, -, -, ⟨e0, e1⟩, -⟩ := block_positions t
  show V c main_v8 (((cfg1.win 3).blk t).view.emb (ix2 j k)) = _
  refine congrArg (V c main_v8) (funext fun a => Fin.ext ?_)
  match a with
  | ⟨0, _⟩ => show win1_3.index t (0 : Fin 2) * 256 + 1 * j.val = j.val; rw [e0]; omega
  | ⟨1, _⟩ => show win1_3.index t (1 : Fin 2) * 512 + 1 * k.val = k.val; rw [e1]; omega

/-- W_out's one block is W_out. -/
theorem wout_block (c : Dev nD) (t : Fin cfg1.N) (k : Fin 512) (q : Fin 256) :
    (iblk1 V c 4 t : FVec Ideal S512x256 .bf16) (ix2 k q) = (V c main_v9 : S512x256.Idx → EReal) (ix2 k q) := by
  obtain ⟨-, -, -, -, ⟨e0, e1⟩, -⟩ := block_positions t
  show V c main_v9 (((cfg1.win 4).blk t).view.emb (ix2 k q)) = _
  refine congrArg (V c main_v9) (funext fun a => Fin.ext ?_)
  match a with
  | ⟨0, _⟩ => show win1_4.index t (0 : Fin 2) * 512 + 1 * k.val = k.val; rw [e0]; omega
  | ⟨1, _⟩ => show win1_4.index t (1 : Fin 2) * 256 + 1 * q.val = q.val; rw [e1]; omega

/-- The bias row's one block is the bias row. -/
theorem bias_block (c : Dev nD) (t : Fin cfg1.N) (q : Fin 256) :
    (iblk1 V c 5 t : FVec Ideal S1x256 .f32) (ix2 (0 : Fin 1) q) = (V c main_v4 : S1x256.Idx → EReal) (ix2 (0 : Fin 1) q) := by
  obtain ⟨-, -, -, -, -, ⟨e0, e1⟩, -⟩ := block_positions t
  show V c main_v4 (((cfg1.win 5).blk t).view.emb (ix2 (0 : Fin 1) q)) = _
  refine congrArg (V c main_v4) (funext fun a => Fin.ext ?_)
  match a with
  | ⟨0, _⟩ => show win1_5.index t (0 : Fin 2) * 1 + 1 * 0 = 0; rw [e0]
  | ⟨1, _⟩ => show win1_5.index t (1 : Fin 2) * 256 + 1 * q.val = q.val; rw [e1]; omega

/-- The batch mean table's one block is the table. -/
theorem bmean_block (c : Dev nD) (t : Fin cfg1.N) (s : Fin 64) (k : Fin 512) :
    (iblk1 V c 6 t : FVec Ideal S64x512 .bf16) (ix2 s k) = (V c main_v19 : S64x512.Idx → EReal) (ix2 s k) := by
  obtain ⟨-, -, -, -, -, -, ⟨e0, e1⟩, -⟩ := block_positions t
  show V c main_v19 (((cfg1.win 6).blk t).view.emb (ix2 s k)) = _
  refine congrArg (V c main_v19) (funext fun a => Fin.ext ?_)
  match a with
  | ⟨0, _⟩ => show win1_6.index t (0 : Fin 2) * 64 + 1 * s.val = s.val; rw [e0]; omega
  | ⟨1, _⟩ => show win1_6.index t (1 : Fin 2) * 512 + 1 * k.val = k.val; rw [e1]; omega

/-- The chain mean table's one block is the table. -/
theorem cmean_block (c : Dev nD) (t : Fin cfg1.N) (s : Fin 256) (k : Fin 512) :
    (iblk1 V c 7 t : FVec Ideal S256x512 .bf16) (ix2 s k) = (V c main_v24 : S256x512.Idx → EReal) (ix2 s k) := by
  obtain ⟨-, -, -, -, -, -, -, ⟨e0, e1⟩, -⟩ := block_positions t
  show V c main_v24 (((cfg1.win 7).blk t).view.emb (ix2 s k)) = _
  refine congrArg (V c main_v24) (funext fun a => Fin.ext ?_)
  match a with
  | ⟨0, _⟩ => show win1_7.index t (0 : Fin 2) * 256 + 1 * s.val = s.val; rw [e0]; omega
  | ⟨1, _⟩ => show win1_7.index t (1 : Fin 2) * 512 + 1 * k.val = k.val; rw [e1]; omega

/-- Row p of the update array's block at point t is row 1024·t + p of the update array. -/
theorem upd_block (c : Dev nD) (t : Fin cfg1.N) (p : Fin 1024) (k : Fin 512) (r : Fin 32768) (hr : r.val = 1024 * t.val + p.val) :
    (iblk1 V c 8 t : FVec Ideal S1024x512 .bf16) (ix2 p k) = (V c main_v10_4 : S32768x512.Idx → EReal) (ix2 r k) := by
  obtain ⟨-, -, -, -, -, -, -, -, ⟨e0, e1⟩, -⟩ := block_positions t
  show V c main_v10_4 (((cfg1.win 8).blk t).view.emb (ix2 p k)) = _
  refine congrArg (V c main_v10_4) (funext fun a => Fin.ext ?_)
  match a with
  | ⟨0, _⟩ => show win1_8.index t (0 : Fin 2) * 1024 + 1 * p.val = r.val; rw [e0, hr]; omega
  | ⟨1, _⟩ => show win1_8.index t (1 : Fin 2) * 512 + 1 * k.val = k.val; rw [e1]; omega

/-- What point t writes back is block t of applyOut of the arrays as the region finds them. -/
theorem point_writes (c : Dev nD) (t : Fin cfg1.N) :
    (dat1 (F := Ideal) V c).flushed 9 t = ((cfg1.win 9).blk t).view.read (Elt Ideal)
      (Cert.SegGate.applyOut (V c main_arg0) (V c main_v2) (V c main_v3) (V c main_v8) (V c main_v9) (V c main_v4)
          (V c main_v19) (V c main_v24) (V c main_v10_4)) := by
  show (cfg1.win 9).cut (grid1.coords t) ((dat1 V c).after 9 t) = _
  rw [after1_9]
  unfold out1_9
  rw [View.canon_unit_zero zero_offsets]
  simp only [View.ld_unit_zero (S := S1024x256) zero_offsets, View.ld_unit_zero (S := S1024x1) zero_offsets, View.ld_unit_zero (S := S256x512) zero_offsets,
    View.ld_unit_zero (S := S512x256) zero_offsets, View.ld_unit_zero (S := S1x256) zero_offsets, View.ld_unit_zero (S := S64x512) zero_offsets,
    View.ld_unit_zero (S := S1024x512) zero_offsets]
  refine funext fun (j : S1024x256.Idx) => ?_
  obtain ⟨p, q, rfl⟩ : ∃ (p : Fin 1024) (q : Fin 256), j = ix2 p q := ⟨j 0, j 1, eq_ix2 j⟩
  show k1_pay1 (F := Ideal) (k1_pay2 (F := Ideal) (iblk1 V c 0 t) (iblk1 V c 3 t) (iblk1 V c 8 t)) (k1_pay3 (F := Ideal) (iblk1 V c 1 t))
        (k1_pay4 (F := Ideal) (iblk1 V c 2 t)) (iblk1 V c 6 t) (iblk1 V c 7 t) (iblk1 V c 4 t) (iblk1 V c 5 t) (ix2 p q)
      = Cert.SegGate.applyOut (V c main_arg0) (V c main_v2) (V c main_v3) (V c main_v8) (V c main_v9) (V c main_v4)
        (V c main_v19) (V c main_v24) (V c main_v10_4) (((cfg1.win 9).blk t).view.emb (ix2 p q))
  refine (stored_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  have ht : t.val < 32 := lt_of_lt_of_eq t.isLt N_1
  have hr : (⟨1024 * t.val + p.val, by have := p.isLt; omega⟩ : Fin 32768).val = 1024 * t.val + p.val := rfl
  generalize (⟨1024 * t.val + p.val, by have := p.isLt; omega⟩ : Fin 32768) = r at hr
  have hemb : ((cfg1.win 9).blk t).view.emb (ix2 p q) = (ix2 r q : S32768x256.Idx) := by
    obtain ⟨-, -, -, -, -, -, -, -, -, ⟨e0, e1⟩⟩ := block_positions t
    funext a; apply Fin.ext
    match a with
    | ⟨0, _⟩ => show win1_9.index t (0 : Fin 2) * 1024 + 1 * p.val = r.val; rw [e0, hr]; omega
    | ⟨1, _⟩ => show win1_9.index t (1 : Fin 2) * 256 + 1 * q.val = q.val; rw [e1]; omega
  rw [hemb]
  rw [batch_id_block V c t p r hr, chain_id_block V c t p r hr, bias_block V c t q]
  refine congrArg (· + (V c main_v4 : S1x256.Idx → EReal) (ix2 (0 : Fin 1) q)) (Finset.sum_congr rfl fun k _ => ?_)
  rw [bmean_block V c t _ k, cmean_block V c t _ k, upd_block V c t p k r hr, wout_block V c t k q,
    Finset.sum_congr rfl fun j _ => by rw [x_block V c t p j r hr, wlg_block V c t j k]]
  rfl

/-- An index of the result array is in point t's block iff each coordinate is in the block's range on its axis. -/
theorem mem_result_block (t : Fin cfg1.N) (i : S32768x256.Idx) :
    i ∈ ((cfg1.win 9).blk t).view.set ↔ ∀ a : Fin 2, win1_9.index t a * S1024x256.size a ≤ (i a).val
      ∧ (i a).val < win1_9.index t a * S1024x256.size a + S1024x256.size a := by
  show i ∈ ((View.whole main_v25).slice (win1_9.rect t)).set ↔ _
  rw [View.set_slice_whole, Rect.mem_set_unit]
  exact Iff.rfl

/-- Every index of the result array is in some point's block: row r is in the block of point r / 1024. -/
theorem rows_covered (i : S32768x256.Idx) :
    ∃ t : Fin cfg1.N, (cfg1.win 9).flush t = true ∧ i ∈ ((cfg1.win 9).blk t).view.set := by
  have hi0 : (i 0).val < 32768 := (i 0).isLt
  have hi1 : (i 1).val < 256 := (i 1).isLt
  have hlt : (i 0).val / 1024 < cfg1.N := lt_of_lt_of_eq (by omega : (i 0).val / 1024 < 32) N_1.symm
  obtain ⟨-, -, -, -, -, -, -, -, -, ⟨e0, e1⟩⟩ := block_positions ⟨(i 0).val / 1024, hlt⟩
  have e0' : win1_9.index ⟨(i 0).val / 1024, hlt⟩ (0 : Fin 2) = (i 0).val / 1024 := e0
  refine ⟨⟨(i 0).val / 1024, hlt⟩, flush1_9 _, ?_⟩
  rw [mem_result_block]
  intro a
  match a with
  | ⟨0, _⟩ =>
    show win1_9.index ⟨(i 0).val / 1024, hlt⟩ (0 : Fin 2) * 1024 ≤ (i 0).val
      ∧ (i 0).val < win1_9.index ⟨(i 0).val / 1024, hlt⟩ (0 : Fin 2) * 1024 + 1024
    rw [e0']; omega
  | ⟨1, _⟩ =>
    show win1_9.index ⟨(i 0).val / 1024, hlt⟩ (1 : Fin 2) * 256 ≤ (i 1).val
      ∧ (i 1).val < win1_9.index ⟨(i 0).val / 1024, hlt⟩ (1 : Fin 2) * 256 + 256
    rw [e1]; omega

/-- The second region's result array, after all 32 points, as one function of the arrays the region is entered with. -/
theorem final (V : (c : Dev nD) → (b : Ref sig .tc) → Buf (Elt Ideal) ((c : Thread nD τ).loc b)) (c : Dev nD) :
    (dat1 (F := Ideal) V c).arrAt 9 cfg1.N
      = Cert.SegGate.applyOut (V c main_arg0) (V c main_v2) (V c main_v3) (V c main_v8) (V c main_v9) (V c main_v4)
          (V c main_v19) (V c main_v24) (V c main_v10_4) :=
  (dat1 (F := Ideal) V c).arrAt_eq_of_cover 9 _ (fun t _ => point_writes V c t) rows_covered

end Cert.KernelIdeal.ApplyValue

end
-- ==== Proof.ReduceSum.lean ====
/-
  The first pass's partial segment sums read as values: after the 16 points of half cc, block cc of the [2, S, 512]
  array holds, for segment s and column k, the sum over that half's 16384 rows whose id reads s of the masked gated
  update — the block is zeroed at the half's first point, every point adds its 1024 rows' one-hot product, and the
  block is written back after the half's last point.

  The steps. What each of the body's two cases leaves in an accumulator's block, as a term of the point's blocks and
  of what the block held (the reset case: zero plus the point's partial sum; the other: what it held plus the partial
  sum). The partial sum at (s, k): a product contracting the row axis of a 0/1 matrix (row p has its 1 in the column
  its id names) with the rows' masked gated updates, so the sum over the point's 1024 rows p of the update of the rows
  whose id reads s; the gated update itself is gelu of one [1024, 256]·[256, 512] product times another, times the
  row's mask value. A point's blocks are rows 1024·t … 1024·t + 1023 of the arrays. Over the sixteen points of a half
  the block is the sum of the sixteen partial sums, and sixteen tiles of 1024 rows are the half's 16384 rows. The
  last point of a half writes block (half, 0, 0) back, and the two halves' blocks are the array. First for the batch
  ids (64 segments), then the same for the chain ids (256 segments), whose gate the body computes in three stretches.
-/
import proofs.«408816_j25881472925818_3_alg».proof.Proof.Spec
import proofs.«408816_j25881472925818_3_alg».proof.Proof.Gen.KernelIdeal.Frame
import proofs.«408816_j25881472925818_3_alg».proof.Proof.LibTileSum
import proofs.«408816_j25881472925818_3_alg».proof.Proof.LibLayoutColumn
import proofs.«408816_j25881472925818_3_alg».proof.Proof.LibRowTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReduceSum

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## What each case of the body leaves in an accumulator's block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_7 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : ¬cond0_0 i) (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) (xo7 : Vec F S1x64x512 .f32) (xo8 : Vec F S1x64x1 .f32) (xo9 : Vec F S1x256x512 .f32) (xo10 : Vec F S1x256x1 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10
      = k0_pay1 (k0_pay19 (k0_pay10 x0 x4) (k0_pay12 x0 x5) x3 x1) xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10)]
  unfold kernelRun0_B
  dsimp only
  sl_unfold_words
  rw [View.canon_unit_zero hz3]
  simp only [View.readAt_eq_ld, harg2.read_unread, harg3.read_unread, harg5.read_unread, harg6.read_unread, harg7.read_unread, harg9.read_unread, View.ld_unit_zero (S := S1x64x512) hz3, View.ld_unit_zero (S := S1024x256) hz2, View.ld_unit_zero (S := S1024x1) hz2, View.ld_unit_zero (S := S256x512) hz2]

theorem out_A_7 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : cond0_0 i) (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
      = k0_pay1 (k0_pay19 (k0_pay10 x0 x4) (k0_pay12 x0 x5) x3 x1) k0_pay5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S1x64x512) hz3]
  simp only [View.readAt_eq_ld, harg2.read_unread, harg3.read_unread, harg5.read_unread, harg6.read_unread, harg7.read_unread, View.readCov_unit_zero (S := S1x64x512) _ hz3, View.ld_unit_zero (S := S1x64x512) hz3, View.ld_unit_zero (S := S1024x256) hz2, View.ld_unit_zero (S := S1024x1) hz2, View.ld_unit_zero (S := S256x512) hz2]

theorem out_B_9 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : ¬cond0_0 i) (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) (xo7 : Vec F S1x64x512 .f32) (xo8 : Vec F S1x64x1 .f32) (xo9 : Vec F S1x256x512 .f32) (xo10 : Vec F S1x256x1 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10
      = k0_pay3 (k0_pay20 (k0_pay10 x0 x4) (k0_pay13 x0 x6) (k0_pay14 x0 x6) k0_pay15 x3 x2) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10)]
  unfold kernelRun0_B
  dsimp only
  sl_unfold_words
  rw [View.canon_unit_zero hz3]
  simp only [View.readAt_eq_ld, harg2.read_unread, harg4.read_unread, harg5.read_unread, harg6.read_unread, harg8.read_unread, harg11.read_unread, View.ld_unit_zero (S := S1x256x512) hz3, View.ld_unit_zero (S := S1024x256) hz2, View.ld_unit_zero (S := S1024x1) hz2, View.ld_unit_zero (S := S256x512) hz2]

theorem out_A_9 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : cond0_0 i) (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6
      = k0_pay3 (k0_pay20 (k0_pay10 x0 x4) (k0_pay13 x0 x6) (k0_pay14 x0 x6) k0_pay15 x3 x2) k0_pay7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S1x256x512) hz3]
  simp only [View.readAt_eq_ld, harg2.read_unread, harg4.read_unread, harg5.read_unread, harg6.read_unread, harg8.read_unread, View.readCov_unit_zero (S := S1x256x512) _ hz3, View.ld_unit_zero (S := S1x256x512) hz3, View.ld_unit_zero (S := S1024x256) hz2, View.ld_unit_zero (S := S1024x1) hz2, View.ld_unit_zero (S := S256x512) hz2]

end Pieces

/-! ## The body's arithmetic at an index, over the extended reals -/

section Words

/-- The 0/1 word of an equality test, widened and converted: 1 where the two words are equal, else 0. -/
theorem oneHot_word (a b : BitVec 32) :
    ((((IntOp.cmpi .eq a b).setWidth 32).toInt : ℝ) : EReal) = if a = b then (1 : EReal) else 0 := by
  by_cases h : a = b
  · have e : IntOp.cmpi .eq a b = 1#1 := by simp [IntOp.cmpi, h]
    rw [e, if_pos h]
    have e1 : ((1#1 : BitVec 1).setWidth 32).toInt = 1 := by decide
    rw [e1]; simp
  · have hb : (a == b) = false := beq_eq_false_iff_ne.mpr h
    have e : IntOp.cmpi .eq a b = 0#1 := by
      show BitVec.ofBool (a == b) = 0#1
      rw [hb]; rfl
    rw [e, if_neg h]
    have e0 : ((0#1 : BitVec 1).setWidth 32).toInt = 0 := by decide
    rw [e0]; simp

/-- A 32-bit word is the word of a small natural s exactly when it reads, signed, as s. -/
theorem eq_ofNat_iff_toInt (a : BitVec 32) (s : Nat) (hs : s < 2 ^ 31) :
    a = BitVec.ofNat 32 s ↔ a.toInt = (s : Int) := by
  have e := BitVec.toInt_eq_toNat_cond a
  have hlt := a.isLt
  constructor
  · intro h
    have hn : a.toNat = s := by rw [h, BitVec.toNat_ofNat]; exact Nat.mod_eq_of_lt (by omega)
    omega
  · intro h
    apply BitVec.eq_of_toNat_eq
    rw [BitVec.toNat_ofNat, Nat.mod_eq_of_lt (by omega)]
    omega

end Words

section Batch

/-- The one-hot product contracts the row axis of both operands: on its left operand the row is the contraction
    position, -/
theorem lhs64_0 (i : S64x512.Idx) (q : dot_S1024x64_S1024x512_S64x512_0_0_1_1_n_n.contr.Idx) :
    (dot_S1024x64_S1024x512_S64x512_0_0_1_1_n_n.lhsIdx i q 0).val = (q ⟨0, by decide⟩).val :=
  dot_S1024x64_S1024x512_S64x512_0_0_1_1_n_n.lhsIdx_val_of_single rfl i q
/-- the column is the result's segment, -/
theorem lhs64_1 (i : S64x512.Idx) (q : dot_S1024x64_S1024x512_S64x512_0_0_1_1_n_n.contr.Idx) :
    (dot_S1024x64_S1024x512_S64x512_0_0_1_1_n_n.lhsIdx i q 1).val = (i 0).val := by
  unfold DotDims.lhsIdx
  rw [dif_neg (show ¬(1 : Fin S1024x64.rank) ∈ dot_S1024x64_S1024x512_S64x512_0_0_1_1_n_n.lhsBatch by decide), dif_pos (show (1 : Fin S1024x64.rank) ∈ dot_S1024x64_S1024x512_S64x512_0_0_1_1_n_n.lhsNonContracting by decide)]
  rfl
/-- on its right operand the row is the contraction position -/
theorem rhs64_0 (i : S64x512.Idx) (q : dot_S1024x64_S1024x512_S64x512_0_0_1_1_n_n.contr.Idx) :
    (dot_S1024x64_S1024x512_S64x512_0_0_1_1_n_n.rhsIdx i q 0).val = (q ⟨0, by decide⟩).val :=
  dot_S1024x64_S1024x512_S64x512_0_0_1_1_n_n.rhsIdx_val_of_single rfl i q
/-- and the column is the result's column. -/
theorem rhs64_1 (i : S64x512.Idx) (q : dot_S1024x64_S1024x512_S64x512_0_0_1_1_n_n.contr.Idx) :
    (dot_S1024x64_S1024x512_S64x512_0_0_1_1_n_n.rhsIdx i q 1).val = (i 1).val := by
  unfold DotDims.rhsIdx
  rw [dif_neg (show ¬(1 : Fin S1024x512.rank) ∈ dot_S1024x64_S1024x512_S64x512_0_0_1_1_n_n.rhsBatch by decide), dif_pos (show (1 : Fin S1024x512.rank) ∈ dot_S1024x64_S1024x512_S64x512_0_0_1_1_n_n.rhsNonContracting by decide)]
  rfl

/-- So the product into a zero accumulator, at (s, k), is the sum over the 1024 rows p of l (p, s) · r (p, k). -/
theorem segdot64_apply (l : FVec Ideal S1024x64 .bf16) (r : FVec Ideal S1024x512 .bf16) (s : Fin 64) (k : Fin 512) :
    matmul dot_S1024x64_S1024x512_S64x512_0_0_1_1_n_n none l r (constant (F := Ideal) S64x512 .f32 0x00000000#32) (ix2 s k)
      = ∑ p : Fin 1024, l (ix2 p s) * r (ix2 p k) := by
  simp only [matmul]
  rw [Ideal.matmul_constant_zero_apply, ← Equiv.sum_comp (contrEquiv1 dot_S1024x64_S1024x512_S64x512_0_0_1_1_n_n 1024 rfl rfl).symm]
  refine Finset.sum_congr rfl fun p _ => ?_
  have hk := contrEquiv1_symm_val dot_S1024x64_S1024x512_S64x512_0_0_1_1_n_n 1024 rfl rfl p
  have el : dot_S1024x64_S1024x512_S64x512_0_0_1_1_n_n.lhsIdx (ix2 s k) ((contrEquiv1 dot_S1024x64_S1024x512_S64x512_0_0_1_1_n_n 1024 rfl rfl).symm p) = ix2 p s := funext fun a => Fin.ext (by
    match a with
    | ⟨0, _⟩ => exact (lhs64_0 _ _).trans hk
    | ⟨1, _⟩ => exact lhs64_1 _ _)
  have er : dot_S1024x64_S1024x512_S64x512_0_0_1_1_n_n.rhsIdx (ix2 s k) ((contrEquiv1 dot_S1024x64_S1024x512_S64x512_0_0_1_1_n_n 1024 rfl rfl).symm p) = ix2 p k := funext fun a => Fin.ext (by
    match a with
    | ⟨0, _⟩ => exact (rhs64_0 _ _).trans hk
    | ⟨1, _⟩ => exact rhs64_1 _ _)
  rw [el, er]

/-- The one-hot entry (p, s): 1 where row p's id reads s, else 0. -/
theorem oh64_apply (v50 : IVec S1024x1 32) (p : Fin 1024) (s : Fin 64) :
    (truncf .bf16 (sitofp (F := Ideal) .f32 (extui 32 (k0_pay17 (F := Ideal) v50) natLt_1_32)) bitsLt_bf16_f32 : FVec Ideal S1024x64 .bf16) (ix2 p s)
      = if (v50 (ix2 p 0)).toInt = (s.val : Int) then (1 : EReal) else 0 := by
  have hb : broadcastTo S1024x64 (shapeCast S1024x1 v50 shapeCasts_S1024x1_S1024x1) broadcasts_S1024x1_S1024x64 (ix2 p s) = v50 (ix2 p 0) := by
    rw [shapeCast_self]; exact broadcastTo_a1_ab_apply v50 _ p s
  have hi : iota .tc S1024x64 32 [1] iota_S1024x64_d1_w32 (ix2 p s) = BitVec.ofNat 32 s.val :=
    iota_single_apply .tc S1024x64 32 1 _ (ix2 p s)
  show ((((IntOp.cmpi .eq (broadcastTo S1024x64 (shapeCast S1024x1 v50 shapeCasts_S1024x1_S1024x1) broadcasts_S1024x1_S1024x64 (ix2 p s))
    (iota .tc S1024x64 32 [1] iota_S1024x64_d1_w32 (ix2 p s))).setWidth 32).toInt : ℝ) : EReal) = _
  rw [hb, hi, oneHot_word]
  exact if_congr (eq_ofNat_iff_toInt _ _ (by have := s.isLt; omega)) rfl rfl

end Batch

section Gated

/-- The dimension numbers of the body's [1024, 256] · [256, 512] products are a plain product's. -/
theorem plainDot : Cert.Lib.IsPlain dot_S1024x256_S256x512_S1024x512_1_0_0_1_n_n :=
  ⟨rfl, rfl, rfl, rfl, rfl, rfl, rfl, rfl⟩

/-- Such a product into a zero accumulator, at (p, k): the sum over j of l (p, j) · r (j, k). -/
theorem plain_apply (l : FVec Ideal S1024x256 .bf16) (r : FVec Ideal S256x512 .bf16) (p : Fin 1024) (k : Fin 512) :
    matmul dot_S1024x256_S256x512_S1024x512_1_0_0_1_n_n none l r (constant (F := Ideal) S1024x512 .f32 0x00000000#32) (ix2 p k)
      = ∑ j : Fin 256, l (ix2 p j) * r (ix2 j k) := by
  simp only [matmul]
  rw [Ideal.matmul_constant_zero_apply]
  exact plainDot.sum_eq l r (ix2 p k)

/-- The update product of a block of rows with a weight block, at (p, k). -/
theorem pay10_apply (x : FVec Ideal S1024x256 .f32) (w : FVec Ideal S256x512 .bf16) (p : Fin 1024) (k : Fin 512) :
    k0_pay10 (F := Ideal) x w (ix2 p k) = ∑ j : Fin 256, x (ix2 p j) * w (ix2 j k) := by
  unfold k0_pay10 k0_pay9
  refine (plain_apply _ _ p k).trans ?_
  refine Finset.sum_congr rfl fun j _ => ?_
  show x (ix2 p j) * shapeCast S256x512 w shapeCasts_S256x512_S256x512 (ix2 j k) = _
  rw [shapeCast_self]

/-- The gate of a block of rows, at (p, k): gelu of the gate product there. -/
theorem pay12_apply (x : FVec Ideal S1024x256 .f32) (w : FVec Ideal S256x512 .bf16) (p : Fin 1024) (k : Fin 512) :
    k0_pay12 (F := Ideal) x w (ix2 p k) = Cert.SegGate.gelu (∑ j : Fin 256, x (ix2 p j) * w (ix2 j k)) := by
  have e : matmul dot_S1024x256_S256x512_S1024x512_1_0_0_1_n_n none (k0_pay9 (F := Ideal) x)
      (shapeCast S256x512 w shapeCasts_S256x512_S256x512) (constant (F := Ideal) S1024x512 .f32 0x00000000#32) (ix2 p k)
        = ∑ j : Fin 256, x (ix2 p j) * w (ix2 j k) := by
    refine (plain_apply _ _ p k).trans ?_
    refine Finset.sum_congr rfl fun j _ => ?_
    show x (ix2 p j) * shapeCast S256x512 w shapeCasts_S256x512_S256x512 (ix2 j k) = _
    rw [shapeCast_self]
  unfold k0_pay12
  show Cert.SegGate.gelu (matmul dot_S1024x256_S256x512_S1024x512_1_0_0_1_n_n none (k0_pay9 (F := Ideal) x)
      (shapeCast S256x512 w shapeCasts_S256x512_S256x512) (constant (F := Ideal) S1024x512 .f32 0x00000000#32) (ix2 p k)) = _
  rw [e]

/-- The masked gated update of a block of rows, at (p, k): (gate · update) · mask of row p. -/
theorem y_apply (v11 v27 : FVec Ideal S1024x512 .f32) (v42 : FVec Ideal S1024x1 .f32) (p : Fin 1024) (k : Fin 512) :
    (truncf .bf16 (mulf (mulf v27 v11) (broadcastTo S1024x512 (k0_pay16 (F := Ideal) v42) broadcasts_S1024x1_S1024x512)) bitsLt_bf16_f32 :
        FVec Ideal S1024x512 .bf16) (ix2 p k)
      = (v27 (ix2 p k) * v11 (ix2 p k)) * v42 (ix2 p 0) := by
  have hb : broadcastTo S1024x512 (k0_pay16 (F := Ideal) v42) broadcasts_S1024x1_S1024x512 (ix2 p k) = v42 (ix2 p 0) := by
    unfold k0_pay16; rw [shapeCast_self]; exact broadcastTo_a1_ab_apply v42 _ p k
  show (v27 (ix2 p k) * v11 (ix2 p k)) * broadcastTo S1024x512 (k0_pay16 (F := Ideal) v42) broadcasts_S1024x1_S1024x512 (ix2 p k) = _
  rw [hb]

/-- A point's batch partial sum at (s, k): over its 1024 rows p, the masked gated update of the rows whose id reads s. -/
theorem pay19_apply (v11 v27 : FVec Ideal S1024x512 .f32) (v42 : FVec Ideal S1024x1 .f32) (v50 : IVec S1024x1 32)
    (s : Fin 64) (k : Fin 512) :
    k0_pay19 (F := Ideal) v11 v27 v42 v50 (ix2 s k)
      = ∑ p : Fin 1024, if (v50 (ix2 p 0)).toInt = (s.val : Int) then (v27 (ix2 p k) * v11 (ix2 p k)) * v42 (ix2 p 0) else 0 := by
  unfold k0_pay19
  refine (segdot64_apply _ _ s k).trans ?_
  refine Finset.sum_congr rfl fun p _ => ?_
  exact (congrArg₂ (· * ·) (oh64_apply v50 p s) (y_apply v11 v27 v42 p k)).trans (Cert.Lib.indicator_mul Iff.rfl _)

end Gated

section Acc

/-- The accumulating store's payload at (u, s, k): what the block held there plus the point's partial sum at (s, k). -/
theorem pay1_apply (v67 : FVec Ideal S64x512 .f32) (v82 : FVec Ideal S1x64x512 .f32) (u : Fin 1) (s : Fin 64) (k : Fin 512) :
    k0_pay1 (F := Ideal) v67 v82 (ix3 u s k) = v82 (ix3 u s k) + v67 (ix2 s k) := by
  unfold k0_pay1
  have hu : u = 0 := Subsingleton.elim _ _
  subst hu
  have e1 : ∀ (z : FVec Ideal S64x512 .f32), shapeCast S1x64x512 z shapeCasts_S64x512_S1x64x512 (ix3 (0 : Fin 1) s k) = z (ix2 s k) := fun z =>
    shapeCast_apply z _ _ _ (by
      rw [Shape.rowMajor_val_three, Shape.rowMajor_val_two]
      show s.val * 512 + k.val = (0 * 64 + s.val) * 512 + k.val
      omega)
  have e2 : shapeCast S64x512 v82 shapeCasts_S1x64x512_S64x512 (ix2 s k) = v82 (ix3 (0 : Fin 1) s k) :=
    shapeCast_apply v82 _ _ _ (by
      rw [Shape.rowMajor_val_three, Shape.rowMajor_val_two]
      show (0 * 64 + s.val) * 512 + k.val = s.val * 512 + k.val
      omega)
  refine (e1 _).trans ?_
  show shapeCast S64x512 v82 shapeCasts_S1x64x512_S64x512 (ix2 s k) + v67 (ix2 s k) = _
  rw [e2]

/-- The reset store's payload is zero everywhere. -/
theorem pay5_apply (i : S1x64x512.Idx) : k0_pay5 (F := Ideal) i = 0 := by
  unfold k0_pay5
  obtain ⟨u, s, k, rfl⟩ : ∃ (u : Fin 1) (s : Fin 64) (k : Fin 512), i = ix3 u s k := ⟨i 0, i 1, i 2, eq_ix3 i⟩
  have hu : u = 0 := Subsingleton.elim _ _
  subst hu
  refine (shapeCast_apply (broadcast S64x512 (Scalar.ofBits (F := Ideal) .f32 0x00000000#32)) shapeCasts_S64x512_S1x64x512 _ (ix2 s k) (by
      rw [Shape.rowMajor_val_three, Shape.rowMajor_val_two]
      show s.val * 512 + k.val = (0 * 64 + s.val) * 512 + k.val
      omega)).trans ?_
  exact Ideal.ofBits_zero_f32

end Acc

section Chain

/-- The chain one-hot product likewise contracts the row axis of both operands: on its left operand the row is the contraction
    position, -/
theorem lhs256_0 (i : S256x512.Idx) (q : dot_S1024x256_S1024x512_S256x512_0_0_1_1_n_n.contr.Idx) :
    (dot_S1024x256_S1024x512_S256x512_0_0_1_1_n_n.lhsIdx i q 0).val = (q ⟨0, by decide⟩).val :=
  dot_S1024x256_S1024x512_S256x512_0_0_1_1_n_n.lhsIdx_val_of_single rfl i q
/-- the column is the result's segment, -/
theorem lhs256_1 (i : S256x512.Idx) (q : dot_S1024x256_S1024x512_S256x512_0_0_1_1_n_n.contr.Idx) :
    (dot_S1024x256_S1024x512_S256x512_0_0_1_1_n_n.lhsIdx i q 1).val = (i 0).val := by
  unfold DotDims.lhsIdx
  rw [dif_neg (show ¬(1 : Fin S1024x256.rank) ∈ dot_S1024x256_S1024x512_S256x512_0_0_1_1_n_n.lhsBatch by decide), dif_pos (show (1 : Fin S1024x256.rank) ∈ dot_S1024x256_S1024x512_S256x512_0_0_1_1_n_n.lhsNonContracting by decide)]
  rfl
/-- on its right operand the row is the contraction position -/
theorem rhs256_0 (i : S256x512.Idx) (q : dot_S1024x256_S1024x512_S256x512_0_0_1_1_n_n.contr.Idx) :
    (dot_S1024x256_S1024x512_S256x512_0_0_1_1_n_n.rhsIdx i q 0).val = (q ⟨0, by decide⟩).val :=
  dot_S1024x256_S1024x512_S256x512_0_0_1_1_n_n.rhsIdx_val_of_single rfl i q
/-- and the column is the result's column. -/
theorem rhs256_1 (i : S256x512.Idx) (q : dot_S1024x256_S1024x512_S256x512_0_0_1_1_n_n.contr.Idx) :
    (dot_S1024x256_S1024x512_S256x512_0_0_1_1_n_n.rhsIdx i q 1).val = (i 1).val := by
  unfold DotDims.rhsIdx
  rw [dif_neg (show ¬(1 : Fin S1024x512.rank) ∈ dot_S1024x256_S1024x512_S256x512_0_0_1_1_n_n.rhsBatch by decide), dif_pos (show (1 : Fin S1024x512.rank) ∈ dot_S1024x256_S1024x512_S256x512_0_0_1_1_n_n.rhsNonContracting by decide)]
  rfl

/-- So the product into a zero accumulator, at (s, k), is the sum over the 1024 rows p of l (p, s) · r (p, k). -/
theorem segdot256_apply (l : FVec Ideal S1024x256 .bf16) (r : FVec Ideal S1024x512 .bf16) (s : Fin 256) (k : Fin 512) :
    matmul dot_S1024x256_S1024x512_S256x512_0_0_1_1_n_n none l r (constant (F := Ideal) S256x512 .f32 0x00000000#32) (ix2 s k)
      = ∑ p : Fin 1024, l (ix2 p s) * r (ix2 p k) := by
  simp only [matmul]
  rw [Ideal.matmul_constant_zero_apply, ← Equiv.sum_comp (contrEquiv1 dot_S1024x256_S1024x512_S256x512_0_0_1_1_n_n 1024 rfl rfl).symm]
  refine Finset.sum_congr rfl fun p _ => ?_
  have hk := contrEquiv1_symm_val dot_S1024x256_S1024x512_S256x512_0_0_1_1_n_n 1024 rfl rfl p
  have el : dot_S1024x256_S1024x512_S256x512_0_0_1_1_n_n.lhsIdx (ix2 s k) ((contrEquiv1 dot_S1024x256_S1024x512_S256x512_0_0_1_1_n_n 1024 rfl rfl).symm p) = ix2 p s := funext fun a => Fin.ext (by
    match a with
    | ⟨0, _⟩ => exact (lhs256_0 _ _).trans hk
    | ⟨1, _⟩ => exact lhs256_1 _ _)
  have er : dot_S1024x256_S1024x512_S256x512_0_0_1_1_n_n.rhsIdx (ix2 s k) ((contrEquiv1 dot_S1024x256_S1024x512_S256x512_0_0_1_1_n_n 1024 rfl rfl).symm p) = ix2 p k := funext fun a => Fin.ext (by
    match a with
    | ⟨0, _⟩ => exact (rhs256_0 _ _).trans hk
    | ⟨1, _⟩ => exact rhs256_1 _ _)
  rw [el, er]

/-- The one-hot entry (p, s): 1 where row p's id reads s, else 0. -/
theorem oh256_apply (v52 : IVec S1024x1 32) (p : Fin 1024) (s : Fin 256) :
    (truncf .bf16 (sitofp (F := Ideal) .f32 (extui 32 (k0_pay18 (F := Ideal) v52) natLt_1_32)) bitsLt_bf16_f32 : FVec Ideal S1024x256 .bf16) (ix2 p s)
      = if (v52 (ix2 p 0)).toInt = (s.val : Int) then (1 : EReal) else 0 := by
  have hb : broadcastTo S1024x256 (shapeCast S1024x1 v52 shapeCasts_S1024x1_S1024x1) broadcasts_S1024x1_S1024x256 (ix2 p s) = v52 (ix2 p 0) := by
    rw [shapeCast_self]; exact broadcastTo_a1_ab_apply v52 _ p s
  have hi : iota .tc S1024x256 32 [1] iota_S1024x256_d1_w32 (ix2 p s) = BitVec.ofNat 32 s.val :=
    iota_single_apply .tc S1024x256 32 1 _ (ix2 p s)
  show ((((IntOp.cmpi .eq (broadcastTo S1024x256 (shapeCast S1024x1 v52 shapeCasts_S1024x1_S1024x1) broadcasts_S1024x1_S1024x256 (ix2 p s))
    (iota .tc S1024x256 32 [1] iota_S1024x256_d1_w32 (ix2 p s))).setWidth 32).toInt : ℝ) : EReal) = _
  rw [hb, hi, oneHot_word]
  exact if_congr (eq_ofNat_iff_toInt _ _ (by have := s.isLt; omega)) rfl rfl

end Chain

section GatedChain

/-- The chain gate product of a block of rows with a weight block, at (p, k). -/
theorem pay13_apply (x : FVec Ideal S1024x256 .f32) (w : FVec Ideal S256x512 .bf16) (p : Fin 1024) (k : Fin 512) :
    k0_pay13 (F := Ideal) x w (ix2 p k) = ∑ j : Fin 256, x (ix2 p j) * w (ix2 j k) := by
  unfold k0_pay13 k0_pay9
  refine (plain_apply _ _ p k).trans ?_
  refine Finset.sum_congr rfl fun j _ => ?_
  show x (ix2 p j) * shapeCast S256x512 w shapeCasts_S256x512_S256x512 (ix2 j k) = _
  rw [shapeCast_self]

/-- The chain gate, which the body computes in three stretches (the product z, then z + c₀·z³, then the rest), is
    gelu of the gate product. -/
theorem gate9_apply (x : FVec Ideal S1024x256 .f32) (w : FVec Ideal S256x512 .bf16) (p : Fin 1024) (k : Fin 512) :
    k0_pay13 (F := Ideal) x w (ix2 p k) * (Cert.SegGate.cHalf * (Cert.SegGate.cOne
        + Ideal.tanh (k0_pay15 (F := Ideal) (ix2 p k) * k0_pay14 (F := Ideal) x w (ix2 p k))))
      = Cert.SegGate.gelu (∑ j : Fin 256, x (ix2 p j) * w (ix2 j k)) := by
  have e := pay13_apply x w p k
  show Cert.SegGate.gelu (k0_pay13 (F := Ideal) x w (ix2 p k)) = _
  rw [e]

/-- The chain's masked gated update of a block of rows, at (p, k), over the three stretches' values. -/
theorem y9_apply (v11 v28 v33 v34 : FVec Ideal S1024x512 .f32) (v42 : FVec Ideal S1024x1 .f32) (p : Fin 1024) (k : Fin 512) :
    (truncf .bf16 (mulf (mulf (mulf v28 (mulf (broadcast S1024x512 (Scalar.ofBits (F := Ideal) .f32 0x3F000000#32))
        (addf (broadcast S1024x512 (Scalar.ofBits (F := Ideal) .f32 0x3F800000#32)) (tanh (mulf v34 v33))))) v11)
        (broadcastTo S1024x512 (k0_pay16 (F := Ideal) v42) broadcasts_S1024x1_S1024x512)) bitsLt_bf16_f32 :
        FVec Ideal S1024x512 .bf16) (ix2 p k)
      = ((v28 (ix2 p k) * (Cert.SegGate.cHalf * (Cert.SegGate.cOne + Ideal.tanh (v34 (ix2 p k) * v33 (ix2 p k))))) * v11 (ix2 p k))
          * v42 (ix2 p 0) := by
  have hb : broadcastTo S1024x512 (k0_pay16 (F := Ideal) v42) broadcasts_S1024x1_S1024x512 (ix2 p k) = v42 (ix2 p 0) := by
    unfold k0_pay16; rw [shapeCast_self]; exact broadcastTo_a1_ab_apply v42 _ p k
  show ((v28 (ix2 p k) * (Cert.SegGate.cHalf * (Cert.SegGate.cOne + Ideal.tanh (v34 (ix2 p k) * v33 (ix2 p k))))) * v11 (ix2 p k))
      * broadcastTo S1024x512 (k0_pay16 (F := Ideal) v42) broadcasts_S1024x1_S1024x512 (ix2 p k) = _
  rw [hb]

/-- A point's chain partial sum at (s, k): over its 1024 rows p, the masked gated update of the rows whose id reads s. -/
theorem pay20_apply (v11 v28 v33 v34 : FVec Ideal S1024x512 .f32) (v42 : FVec Ideal S1024x1 .f32) (v52 : IVec S1024x1 32)
    (s : Fin 256) (k : Fin 512) :
    k0_pay20 (F := Ideal) v11 v28 v33 v34 v42 v52 (ix2 s k)
      = ∑ p : Fin 1024, if (v52 (ix2 p 0)).toInt = (s.val : Int) then
          ((v28 (ix2 p k) * (Cert.SegGate.cHalf * (Cert.SegGate.cOne + Ideal.tanh (v34 (ix2 p k) * v33 (ix2 p k))))) * v11 (ix2 p k))
            * v42 (ix2 p 0) else 0 := by
  unfold k0_pay20
  refine (segdot256_apply _ _ s k).trans ?_
  refine Finset.sum_congr rfl fun p _ => ?_
  exact (congrArg₂ (· * ·) (oh256_apply v52 p s) (y9_apply v11 v28 v33 v34 v42 p k)).trans (Cert.Lib.indicator_mul Iff.rfl _)

end GatedChain

section AccChain

/-- The accumulating store's payload at (u, s, k): what the block held there plus the point's partial sum at (s, k). -/
theorem pay3_apply (v69 : FVec Ideal S256x512 .f32) (v94 : FVec Ideal S1x256x512 .f32) (u : Fin 1) (s : Fin 256) (k : Fin 512) :
    k0_pay3 (F := Ideal) v69 v94 (ix3 u s k) = v94 (ix3 u s k) + v69 (ix2 s k) := by
  unfold k0_pay3
  have hu : u = 0 := Subsingleton.elim _ _
  subst hu
  have e1 : ∀ (z : FVec Ideal S256x512 .f32), shapeCast S1x256x512 z shapeCasts_S256x512_S1x256x512 (ix3 (0 : Fin 1) s k) = z (ix2 s k) := fun z =>
    shapeCast_apply z _ _ _ (by
      rw [Shape.rowMajor_val_three, Shape.rowMajor_val_two]
      show s.val * 512 + k.val = (0 * 256 + s.val) * 512 + k.val
      omega)
  have e2 : shapeCast S256x512 v94 shapeCasts_S1x256x512_S256x512 (ix2 s k) = v94 (ix3 (0 : Fin 1) s k) :=
    shapeCast_apply v94 _ _ _ (by
      rw [Shape.rowMajor_val_three, Shape.rowMajor_val_two]
      show (0 * 256 + s.val) * 512 + k.val = s.val * 512 + k.val
      omega)
  refine (e1 _).trans ?_
  show shapeCast S256x512 v94 shapeCasts_S1x256x512_S256x512 (ix2 s k) + v69 (ix2 s k) = _
  rw [e2]

/-- The reset store's payload is zero everywhere. -/
theorem pay7_apply (i : S1x256x512.Idx) : k0_pay7 (F := Ideal) i = 0 := by
  unfold k0_pay7
  obtain ⟨u, s, k, rfl⟩ : ∃ (u : Fin 1) (s : Fin 256) (k : Fin 512), i = ix3 u s k := ⟨i 0, i 1, i 2, eq_ix3 i⟩
  have hu : u = 0 := Subsingleton.elim _ _
  subst hu
  refine (shapeCast_apply (broadcast S256x512 (Scalar.ofBits (F := Ideal) .f32 0x00000000#32)) shapeCasts_S256x512_S1x256x512 _ (ix2 s k) (by
      rw [Shape.rowMajor_val_three, Shape.rowMajor_val_two]
      show s.val * 512 + k.val = (0 * 256 + s.val) * 512 + k.val
      omega)).trans ?_
  exact Ideal.ofBits_zero_f32

end AccChain

/-! ## The blocks a point reads, as rows of the arrays -/

section Blocks

variable (V : (c : Dev nD) → (b : Ref sig .tc) → Buf (Elt Ideal) ((c : Thread nD τ).loc b)) (c : Dev nD)

/-- The input x [32768, 256], -/
abbrev xarr : FVec Ideal S32768x256 .f32 := V c main_arg0
/-- the batch ids, a [32768, 1] column, -/
abbrev idarr : IVec S32768x1 32 := V c main_v2
/-- the mask, a [32768, 1] column, -/
abbrev marr : FVec Ideal S32768x1 .f32 := V c main_v1
/-- the update weights and the batch gate weights, [256, 512] each. -/
abbrev wuarr : FVec Ideal S256x512 .bf16 := V c main_v5
abbrev wgarr : FVec Ideal S256x512 .bf16 := V c main_v6

/-- Point t's blocks of them. -/
abbrev xblk (t : Fin cfg0.N) : FVec Ideal S1024x256 .f32 := iblk0 V c 0 t
abbrev idblk (t : Fin cfg0.N) : IVec S1024x1 32 := iblk0 V c 1 t
abbrev mblk (t : Fin cfg0.N) : FVec Ideal S1024x1 .f32 := iblk0 V c 3 t
abbrev wublk (t : Fin cfg0.N) : FVec Ideal S256x512 .bf16 := iblk0 V c 4 t
abbrev wgblk (t : Fin cfg0.N) : FVec Ideal S256x512 .bf16 := iblk0 V c 5 t

/-- The printed index maps, decided over the grid: the row windows' block index is (t, 0), the weights' is (0, 0). -/
theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Row p of point t's block of x is row 1024·t + p of x. -/
theorem xblk_apply (t : Fin cfg0.N) (p : Fin 1024) (r : Fin 32768) (hr : r.val = 1024 * t.val + p.val) (j : Fin 256) :
    xblk V c t (ix2 p j) = xarr V c (ix2 r j) := by
  obtain ⟨⟨e0, e1⟩, -⟩ := idx_rows t
  unfold xblk iblk0
  rw [View.read_apply]
  show V c main_arg0 _ = V c main_arg0 _
  congr 1
  funext a; apply Fin.ext
  match a with
  | ⟨0, _⟩ => show win0_0.index t (0 : Fin 2) * 1024 + 1 * p.val = r.val; rw [e0, hr]; omega
  | ⟨1, _⟩ => show win0_0.index t (1 : Fin 2) * 256 + 1 * j.val = j.val; rw [e1]; omega

/-- Row p of point t's block of the ids is row 1024·t + p of the ids. -/
theorem idblk_apply (t : Fin cfg0.N) (p : Fin 1024) (r : Fin 32768) (hr : r.val = 1024 * t.val + p.val) :
    idblk V c t (ix2 p 0) = idarr V c (ix2 r 0) := by
  obtain ⟨-, ⟨e0, e1⟩, -⟩ := idx_rows t
  unfold idblk iblk0
  rw [View.read_apply]
  show V c main_v2 _ = V c main_v2 _
  congr 1
  funext a; apply Fin.ext
  match a with
  | ⟨0, _⟩ => show win0_1.index t (0 : Fin 2) * 1024 + 1 * p.val = r.val; rw [e0, hr]; omega
  | ⟨1, _⟩ => show win0_1.index t (1 : Fin 2) * 1 + 1 * 0 = 0; rw [e1]

/-- Row p of point t's block of the mask is row 1024·t + p of the mask. -/
theorem mblk_apply (t : Fin cfg0.N) (p : Fin 1024) (r : Fin 32768) (hr : r.val = 1024 * t.val + p.val) :
    mblk V c t (ix2 p 0) = marr V c (ix2 r 0) := by
  obtain ⟨-, -, ⟨e0, e1⟩, -⟩ := idx_rows t
  unfold mblk iblk0
  rw [View.read_apply]
  show V c main_v1 _ = V c main_v1 _
  congr 1
  funext a; apply Fin.ext
  match a with
  | ⟨0, _⟩ => show win0_3.index t (0 : Fin 2) * 1024 + 1 * p.val = r.val; rw [e0, hr]; omega
  | ⟨1, _⟩ => show win0_3.index t (1 : Fin 2) * 1 + 1 * 0 = 0; rw [e1]

/-- Every point's block of a weight array is the whole array. -/
theorem wublk_apply (t : Fin cfg0.N) (j : Fin 256) (k : Fin 512) : wublk V c t (ix2 j k) = wuarr V c (ix2 j k) := by
  obtain ⟨-, -, -, ⟨e0, e1⟩, -⟩ := idx_rows t
  unfold wublk iblk0
  rw [View.read_apply]
  show V c main_v5 _ = V c main_v5 _
  congr 1
  funext a; apply Fin.ext
  match a with
  | ⟨0, _⟩ => show win0_4.index t (0 : Fin 2) * 256 + 1 * j.val = j.val; rw [e0]; omega
  | ⟨1, _⟩ => show win0_4.index t (1 : Fin 2) * 512 + 1 * k.val = k.val; rw [e1]; omega

theorem wgblk_apply (t : Fin cfg0.N) (j : Fin 256) (k : Fin 512) : wgblk V c t (ix2 j k) = wgarr V c (ix2 j k) := by
  obtain ⟨-, -, -, -, ⟨e0, e1⟩⟩ := idx_rows t
  unfold wgblk iblk0
  rw [View.read_apply]
  show V c main_v6 _ = V c main_v6 _
  congr 1
  funext a; apply Fin.ext
  match a with
  | ⟨0, _⟩ => show win0_5.index t (0 : Fin 2) * 256 + 1 * j.val = j.val; rw [e0]; omega
  | ⟨1, _⟩ => show win0_5.index t (1 : Fin 2) * 512 + 1 * k.val = k.val; rw [e1]; omega

/-- Row e's contribution to segment s at column k: its masked gated update if its id reads s, else 0 (0 past the
    last row, so that it is a function of every natural number). -/
def term7 (s : Nat) (k : Fin 512) (e : Nat) : EReal :=
  if h : e < 32768 then
    (if (idarr V c (ix2 (⟨e, h⟩ : Fin 32768) 0)).toInt = (s : Int) then
      Cert.SegGate.gated (xarr V c) (wuarr V c) (wgarr V c) (fun r => marr V c (ix2 r 0)) ⟨e, h⟩ k
    else 0)
  else 0

/-- Point t's batch partial sums [64, 512]. -/
abbrev part7 (t : Fin cfg0.N) : FVec Ideal S64x512 .f32 :=
  k0_pay19 (F := Ideal) (k0_pay10 (F := Ideal) (xblk V c t) (wublk V c t)) (k0_pay12 (F := Ideal) (xblk V c t) (wgblk V c t)) (mblk V c t) (idblk V c t)

/-- At (s, k) they are the contributions of the point's rows 1024·t … 1024·t + 1023. -/
theorem part7_apply (t : Fin cfg0.N) (s : Fin 64) (k : Fin 512) :
    part7 V c t (ix2 s k) = ∑ p : Fin 1024, term7 V c s.val k (1024 * t.val + p.val) := by
  have hN : cfg0.N = 32 := N_0
  refine (pay19_apply _ _ _ _ s k).trans ?_
  refine Finset.sum_congr rfl fun p _ => ?_
  have ht := t.isLt
  have hlt : 1024 * t.val + p.val < 32768 := by have := p.isLt; omega
  have hx : ∀ j : Fin 256, xblk V c t (ix2 p j) = xarr V c (ix2 (⟨1024 * t.val + p.val, hlt⟩ : Fin 32768) j) :=
    fun j => xblk_apply V c t p ⟨_, hlt⟩ rfl j
  have e10 : k0_pay10 (F := Ideal) (xblk V c t) (wublk V c t) (ix2 p k)
      = Cert.SegGate.proj (xarr V c) (wuarr V c) (⟨1024 * t.val + p.val, hlt⟩ : Fin 32768) k := by
    rw [pay10_apply]
    exact Finset.sum_congr rfl fun j _ => by rw [hx j, wublk_apply]
  have e12 : k0_pay12 (F := Ideal) (xblk V c t) (wgblk V c t) (ix2 p k)
      = Cert.SegGate.gelu (Cert.SegGate.proj (xarr V c) (wgarr V c) (⟨1024 * t.val + p.val, hlt⟩ : Fin 32768) k) := by
    rw [pay12_apply]
    exact congrArg Cert.SegGate.gelu (Finset.sum_congr rfl fun j _ => by rw [hx j, wgblk_apply])
  unfold term7
  rw [dif_pos hlt, e10, e12, idblk_apply V c t p ⟨_, hlt⟩ rfl, mblk_apply V c t p ⟨_, hlt⟩ rfl]
  rfl

end Blocks

section BlocksChain

variable (V : (c : Dev nD) → (b : Ref sig .tc) → Buf (Elt Ideal) ((c : Thread nD τ).loc b)) (c : Dev nD)

/-- The chain ids, a [32768, 1] column, and the chain gate weights [256, 512]; point t's blocks of them. -/
abbrev cidarr : IVec S32768x1 32 := V c main_v3
abbrev wcarr : FVec Ideal S256x512 .bf16 := V c main_v7
abbrev cidblk (t : Fin cfg0.N) : IVec S1024x1 32 := iblk0 V c 2 t
abbrev wcblk (t : Fin cfg0.N) : FVec Ideal S256x512 .bf16 := iblk0 V c 6 t

/-- Their index maps, decided over the grid: (t, 0) for the ids, (0, 0) for the weights. -/
theorem idx_rows9 : ∀ t : Fin cfg0.N, (win0_2.index t (0 : Fin 2) = t.val ∧ win0_2.index t (1 : Fin 2) = 0)
    ∧ (win0_6.index t (0 : Fin 2) = 0 ∧ win0_6.index t (1 : Fin 2) = 0) :=
  (by decide +kernel : ∀ t : Fin grid0.N, _)

/-- Row p of point t's block of the chain ids is row 1024·t + p of the chain ids. -/
theorem cidblk_apply (t : Fin cfg0.N) (p : Fin 1024) (r : Fin 32768) (hr : r.val = 1024 * t.val + p.val) :
    cidblk V c t (ix2 p 0) = cidarr V c (ix2 r 0) := by
  obtain ⟨⟨e0, e1⟩, -⟩ := idx_rows9 t
  unfold cidblk iblk0
  rw [View.read_apply]
  show V c main_v3 _ = V c main_v3 _
  congr 1
  funext a; apply Fin.ext
  match a with
  | ⟨0, _⟩ => show win0_2.index t (0 : Fin 2) * 1024 + 1 * p.val = r.val; rw [e0, hr]; omega
  | ⟨1, _⟩ => show win0_2.index t (1 : Fin 2) * 1 + 1 * 0 = 0; rw [e1]

/-- Every point's block of the chain gate weights is the whole array. -/
theorem wcblk_apply (t : Fin cfg0.N) (j : Fin 256) (k : Fin 512) : wcblk V c t (ix2 j k) = wcarr V c (ix2 j k) := by
  obtain ⟨-, ⟨e0, e1⟩⟩ := idx_rows9 t
  unfold wcblk iblk0
  rw [View.read_apply]
  show V c main_v7 _ = V c main_v7 _
  congr 1
  funext a; apply Fin.ext
  match a with
  | ⟨0, _⟩ => show win0_6.index t (0 : Fin 2) * 256 + 1 * j.val = j.val; rw [e0]; omega
  | ⟨1, _⟩ => show win0_6.index t (1 : Fin 2) * 512 + 1 * k.val = k.val; rw [e1]; omega

/-- Row e's contribution to chain segment s at column k: its masked gated update if its chain id reads s, else 0. -/
def term9 (s : Nat) (k : Fin 512) (e : Nat) : EReal :=
  if h : e < 32768 then
    (if (cidarr V c (ix2 (⟨e, h⟩ : Fin 32768) 0)).toInt = (s : Int) then
      Cert.SegGate.gated (xarr V c) (wuarr V c) (wcarr V c) (fun r => marr V c (ix2 r 0)) ⟨e, h⟩ k
    else 0)
  else 0

/-- Point t's chain partial sums [256, 512]. -/
abbrev part9 (t : Fin cfg0.N) : FVec Ideal S256x512 .f32 :=
  k0_pay20 (F := Ideal) (k0_pay10 (F := Ideal) (xblk V c t) (wublk V c t)) (k0_pay13 (F := Ideal) (xblk V c t) (wcblk V c t))
    (k0_pay14 (F := Ideal) (xblk V c t) (wcblk V c t)) (k0_pay15 (F := Ideal)) (mblk V c t) (cidblk V c t)

/-- At (s, k) they are the contributions of the point's rows 1024·t … 1024·t + 1023. -/
theorem part9_apply (t : Fin cfg0.N) (s : Fin 256) (k : Fin 512) :
    part9 V c t (ix2 s k) = ∑ p : Fin 1024, term9 V c s.val k (1024 * t.val + p.val) := by
  have hN : cfg0.N = 32 := N_0
  refine (pay20_apply _ _ _ _ _ _ s k).trans ?_
  refine Finset.sum_congr rfl fun p _ => ?_
  have ht := t.isLt
  have hlt : 1024 * t.val + p.val < 32768 := by have := p.isLt; omega
  have hx : ∀ j : Fin 256, xblk V c t (ix2 p j) = xarr V c (ix2 (⟨1024 * t.val + p.val, hlt⟩ : Fin 32768) j) :=
    fun j => xblk_apply V c t p ⟨_, hlt⟩ rfl j
  have e10 : k0_pay10 (F := Ideal) (xblk V c t) (wublk V c t) (ix2 p k)
      = Cert.SegGate.proj (xarr V c) (wuarr V c) (⟨1024 * t.val + p.val, hlt⟩ : Fin 32768) k := by
    rw [pay10_apply]
    exact Finset.sum_congr rfl fun j _ => by rw [hx j, wublk_apply]
  have eg : k0_pay13 (F := Ideal) (xblk V c t) (wcblk V c t) (ix2 p k) * (Cert.SegGate.cHalf * (Cert.SegGate.cOne
        + Ideal.tanh (k0_pay15 (F := Ideal) (ix2 p k) * k0_pay14 (F := Ideal) (xblk V c t) (wcblk V c t) (ix2 p k))))
      = Cert.SegGate.gelu (Cert.SegGate.proj (xarr V c) (wcarr V c) (⟨1024 * t.val + p.val, hlt⟩ : Fin 32768) k) := by
    rw [gate9_apply]
    exact congrArg Cert.SegGate.gelu (Finset.sum_congr rfl fun j _ => by rw [hx j, wcblk_apply])
  unfold term9
  rw [dif_pos hlt, eg, e10, cidblk_apply V c t p ⟨_, hlt⟩ rfl, mblk_apply V c t p ⟨_, hlt⟩ rfl]
  rfl

end BlocksChain

/-! ## The accumulator over a half's sixteen points -/

section Fold

variable (V : (c : Dev nD) → (b : Ref sig .tc) → Buf (Elt Ideal) ((c : Thread nD τ).loc b)) (c : Dev nD)

/-- At a half's first point the block is zeroed and the point's partial sums added. -/
theorem outs7_A (t : Fin cfg0.N) (h0 : t.val % 16 = 0) :
    (outsAt0 V c t.val t.isLt).1 = k0_pay1 (F := Ideal) (part7 V c t) (k0_pay5 (F := Ideal)) := by
  rw [outsAt0_A V c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t)

/-- At every other point the point's partial sums are added to what the point before left. -/
theorem outs7_B (t : Fin cfg0.N) (h0 : ¬t.val % 16 = 0) :
    (outsAt0 V c t.val t.isLt).1
      = k0_pay1 (F := Ideal) (part7 V c t) (outsAt0 V c (t.val - 1) (Nat.lt_of_le_of_lt (Nat.sub_le _ _) t.isLt)).1 := by
  rw [outsAt0_B V c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1

/-- Point n's addend at segment s and column k, as a function of every natural number n (0 past the grid). -/
def add7 (s : Fin 64) (k : Fin 512) (n : Nat) : EReal :=
  if h : n < cfg0.N then part7 V c ⟨n, h⟩ (ix2 s k) else 0

/-- After the last point of its half the block holds, at (u, s, k), the sum of the half's sixteen addends. -/
theorem outs7_last (t : Fin cfg0.N) (h15 : t.val % 16 = 15) (u : Fin 1) (s : Fin 64) (k : Fin 512) :
    (outsAt0 V c t.val t.isLt).1 (ix3 u s k) = ∑ q ∈ Finset.range 16, add7 V c s k (16 * (t.val / 16) + q) := by
  have h' : 16 * (t.val / 16) + t.val % 16 < cfg0.N := by rw [Nat.div_add_mod]; exact t.isLt
  have e := Pipeline.eq_accAt_of_mod (N := cfg0.N) (fun n h => (outsAt0 V c n h).1)
    16 (fun n h => k0_pay1 (F := Ideal) (part7 V c ⟨n, h⟩) (k0_pay5 (F := Ideal)))
    (fun n h a => k0_pay1 (F := Ideal) (part7 V c ⟨n, h⟩) a)
    (fun n h hm => outs7_A V c ⟨n, h⟩ hm)
    (fun n h hne => outs7_B V c ⟨n + 1, h⟩ hne)
    (by decide) t.val t.isLt h'
  have key : ∀ (v67 : FVec Ideal S64x512 .f32) (v82 : FVec Ideal S1x64x512 .f32) (j : S1x64x512.Idx),
      k0_pay1 (F := Ideal) v67 v82 j = v82 j + v67 (ix2 (j 1) (j 2)) := fun v67 v82 j => by
    obtain ⟨u, s, k, rfl⟩ : ∃ (u : Fin 1) (s : Fin 64) (k : Fin 512), j = ix3 u s k := ⟨j 0, j 1, j 2, eq_ix3 j⟩
    exact pay1_apply v67 v82 u s k
  have e2 := Pipeline.accAt_add_apply (N := cfg0.N)
    (fun n h => k0_pay1 (F := Ideal) (part7 V c ⟨n, h⟩) (k0_pay5 (F := Ideal)))
    (fun n h a => k0_pay1 (F := Ideal) (part7 V c ⟨n, h⟩) a)
    (fun _ => (0 : EReal)) (fun n j => add7 V c (j 1) (j 2) n) (16 * (t.val / 16)) 15
    (fun h j => by
      show k0_pay1 (F := Ideal) (part7 V c ⟨16 * (t.val / 16), h⟩) (k0_pay5 (F := Ideal)) j = 0 + add7 V c (j 1) (j 2) (16 * (t.val / 16))
      rw [key, pay5_apply]; unfold add7; rw [dif_pos h])
    (fun n h a j _ _ => by
      show k0_pay1 (F := Ideal) (part7 V c ⟨n, h⟩) a j = a j + add7 V c (j 1) (j 2) n
      rw [key]; unfold add7; rw [dif_pos h])
    (t.val % 16) (by omega) h' (ix3 u s k)
  have e3 := congrFun e (ix3 u s k)
  rw [e3, e2, h15, zero_add]

end Fold

/-! ## The accumulator over a half's sixteen points -/

section FoldChain

variable (V : (c : Dev nD) → (b : Ref sig .tc) → Buf (Elt Ideal) ((c : Thread nD τ).loc b)) (c : Dev nD)

/-- At a half's first point the block is zeroed and the point's partial sums added. -/
theorem outs9_A (t : Fin cfg0.N) (h0 : t.val % 16 = 0) :
    (outsAt0 V c t.val t.isLt).2.2.1 = k0_pay3 (F := Ideal) (part9 V c t) (k0_pay7 (F := Ideal)) := by
  rw [outsAt0_A V c t h0]
  dsimp only
  exact out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t)

/-- At every other point the point's partial sums are added to what the point before left. -/
theorem outs9_B (t : Fin cfg0.N) (h0 : ¬t.val % 16 = 0) :
    (outsAt0 V c t.val t.isLt).2.2.1
      = k0_pay3 (F := Ideal) (part9 V c t) (outsAt0 V c (t.val - 1) (Nat.lt_of_le_of_lt (Nat.sub_le _ _) t.isLt)).2.2.1 := by
  rw [outsAt0_B V c t h0]
  dsimp only
  exact out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1

/-- Point n's addend at segment s and column k, as a function of every natural number n (0 past the grid). -/
def add9 (s : Fin 256) (k : Fin 512) (n : Nat) : EReal :=
  if h : n < cfg0.N then part9 V c ⟨n, h⟩ (ix2 s k) else 0

/-- After the last point of its half the block holds, at (u, s, k), the sum of the half's sixteen addends. -/
theorem outs9_last (t : Fin cfg0.N) (h15 : t.val % 16 = 15) (u : Fin 1) (s : Fin 256) (k : Fin 512) :
    (outsAt0 V c t.val t.isLt).2.2.1 (ix3 u s k) = ∑ q ∈ Finset.range 16, add9 V c s k (16 * (t.val / 16) + q) := by
  have h' : 16 * (t.val / 16) + t.val % 16 < cfg0.N := by rw [Nat.div_add_mod]; exact t.isLt
  have e := Pipeline.eq_accAt_of_mod (N := cfg0.N) (fun n h => (outsAt0 V c n h).2.2.1)
    16 (fun n h => k0_pay3 (F := Ideal) (part9 V c ⟨n, h⟩) (k0_pay7 (F := Ideal)))
    (fun n h a => k0_pay3 (F := Ideal) (part9 V c ⟨n, h⟩) a)
    (fun n h hm => outs9_A V c ⟨n, h⟩ hm)
    (fun n h hne => outs9_B V c ⟨n + 1, h⟩ hne)
    (by decide) t.val t.isLt h'
  have key : ∀ (v69 : FVec Ideal S256x512 .f32) (v94 : FVec Ideal S1x256x512 .f32) (j : S1x256x512.Idx),
      k0_pay3 (F := Ideal) v69 v94 j = v94 j + v69 (ix2 (j 1) (j 2)) := fun v69 v94 j => by
    obtain ⟨u, s, k, rfl⟩ : ∃ (u : Fin 1) (s : Fin 256) (k : Fin 512), j = ix3 u s k := ⟨j 0, j 1, j 2, eq_ix3 j⟩
    exact pay3_apply v69 v94 u s k
  have e2 := Pipeline.accAt_add_apply (N := cfg0.N)
    (fun n h => k0_pay3 (F := Ideal) (part9 V c ⟨n, h⟩) (k0_pay7 (F := Ideal)))
    (fun n h a => k0_pay3 (F := Ideal) (part9 V c ⟨n, h⟩) a)
    (fun _ => (0 : EReal)) (fun n j => add9 V c (j 1) (j 2) n) (16 * (t.val / 16)) 15
    (fun h j => by
      show k0_pay3 (F := Ideal) (part9 V c ⟨16 * (t.val / 16), h⟩) (k0_pay7 (F := Ideal)) j = 0 + add9 V c (j 1) (j 2) (16 * (t.val / 16))
      rw [key, pay7_apply]; unfold add9; rw [dif_pos h])
    (fun n h a j _ _ => by
      show k0_pay3 (F := Ideal) (part9 V c ⟨n, h⟩) a j = a j + add9 V c (j 1) (j 2) n
      rw [key]; unfold add9; rw [dif_pos h])
    (t.val % 16) (by omega) h' (ix3 u s k)
  have e3 := congrFun e (ix3 u s k)
  rw [e3, e2, h15, zero_add]

end FoldChain

/-! ## The half's sixteen tiles are its 16384 rows; the write-back; the array -/

section Final

variable (V : (c : Dev nD) → (b : Ref sig .tc) → Buf (Elt Ideal) ((c : Thread nD τ).loc b)) (c : Dev nD)

/-- The sixteen addends of half cc, at (u, s, k), are the half's sum over its 16384 rows of the rows whose id reads s. -/
theorem half_sum7 (cc : Fin 2) (s : Fin 64) (k : Fin 512) :
    ∑ q ∈ Finset.range 16, add7 V c s k (16 * cc.val + q)
      = Cert.SegGate.coreSum (fun r => idarr V c (ix2 r 0))
          (fun r => Cert.SegGate.gated (xarr V c) (wuarr V c) (wgarr V c) (fun e => marr V c (ix2 e 0)) r k) cc s.val := by
  have hN : cfg0.N = 32 := N_0
  have hcc := cc.isLt
  have e1 : ∀ q ∈ Finset.range 16, add7 V c s k (16 * cc.val + q)
      = ∑ p : Fin 1024, (fun e => term7 V c s.val k (16384 * cc.val + e)) (1024 * q + p.val) := fun q hq => by
    have hq' : q < 16 := Finset.mem_range.mp hq
    have hlt : 16 * cc.val + q < cfg0.N := by omega
    unfold add7
    rw [dif_pos hlt]
    refine (part7_apply V c ⟨16 * cc.val + q, hlt⟩ s k).trans ?_
    refine Finset.sum_congr rfl fun p _ => ?_
    show term7 V c s.val k (1024 * (16 * cc.val + q) + p.val) = term7 V c s.val k (16384 * cc.val + (1024 * q + p.val))
    congr 1; omega
  refine (Finset.sum_congr rfl e1).trans ((Cert.Lib.sum_fin_tiles 1024 16 (fun e => term7 V c s.val k (16384 * cc.val + e))).trans ?_)
  unfold Cert.SegGate.coreSum
  refine Finset.sum_congr rfl fun e _ => ?_
  have he : 16384 * cc.val + e.val < 32768 := by have := e.isLt; omega
  show term7 V c s.val k (16384 * cc.val + e.val) = _
  unfold term7
  rw [dif_pos he]
  rfl

/-- The first pass's batch sums [2, 64, 512] as one function of the arrays. -/
abbrev G7 : FVec Ideal S2x64x512 .f32 :=
  Cert.SegGate.reduceSum (xarr V c) (idarr V c) (marr V c) (wuarr V c) (wgarr V c)

/-- At (cc, s, k) they are half cc's sum, over its rows whose id reads s, of the masked gated updates at column k. -/
theorem G7_apply (cc : Fin 2) (s : Fin 64) (k : Fin 512) :
    G7 V c (ix3 cc s k) = Cert.SegGate.coreSum (fun r => idarr V c (ix2 r 0))
      (fun r => Cert.SegGate.gated (xarr V c) (wuarr V c) (wgarr V c) (fun e => marr V c (ix2 e 0)) r k) cc s.val := rfl

/-- The accumulator's block index, decided over the grid: block (t / 16, 0, 0). -/
theorem idx_acc7 : ∀ t : Fin cfg0.N, win0_7.index t (0 : Fin 3) = t.val / 16 ∧ win0_7.index t (1 : Fin 3) = 0
    ∧ win0_7.index t (2 : Fin 3) = 0 :=
  (by decide +kernel : ∀ t : Fin grid0.N, _)

/-- Point t's block of a [2, 64, 512] array G is its half t / 16. -/
theorem read_blk7 (G : FVec Ideal S2x64x512 .f32) (t : Fin cfg0.N) (u : Fin 1) (s : Fin 64) (k : Fin 512) (hcc : t.val / 16 < 2) :
    (((cfg0.win 7).blk t).view.read (Elt Ideal) G : FVec Ideal S1x64x512 .f32) (ix3 u s k)
      = G (ix3 (⟨t.val / 16, hcc⟩ : Fin 2) s k) := by
  obtain ⟨e0, e1, e2⟩ := idx_acc7 t
  have hu : u.val < 1 := u.isLt
  rw [View.read_apply]
  show G _ = G _
  congr 1
  funext a; apply Fin.ext
  match a with
  | ⟨0, _⟩ => show win0_7.index t (0 : Fin 3) * 1 + 1 * u.val = t.val / 16; rw [e0]; omega
  | ⟨1, _⟩ => show win0_7.index t (1 : Fin 3) * 64 + 1 * s.val = s.val; rw [e1]; omega
  | ⟨2, _⟩ => show win0_7.index t (2 : Fin 3) * 512 + 1 * k.val = k.val; rw [e2]; omega

/-- What the last point of a half writes back is that half's block of any array G that holds the halves' sums. -/
theorem flushed7_of (G : FVec Ideal S2x64x512 .f32)
    (hG : ∀ (cc : Fin 2) (s : Fin 64) (k : Fin 512), G (ix3 cc s k) = Cert.SegGate.coreSum (fun r => idarr V c (ix2 r 0))
      (fun r => Cert.SegGate.gated (xarr V c) (wuarr V c) (wgarr V c) (fun e => marr V c (ix2 e 0)) r k) cc s.val)
    (t : Fin cfg0.N) (hf : (cfg0.win 7).flush t = true) :
    (dat0 V c).flushed 7 t = ((cfg0.win 7).blk t).view.read (Elt Ideal) G := by
  have h15 : t.val % 16 = 15 := (flush0_7 t).mp hf
  have hN : cfg0.N = 32 := N_0
  have ht := t.isLt
  have hcc : t.val / 16 < 2 := by omega
  show (cfg0.win 7).cut (grid0.coords t) ((dat0 V c).after 7 t) = _
  rw [after0_7]
  funext y
  obtain ⟨u, s, k, rfl⟩ : ∃ (u : Fin 1) (s : Fin 64) (k : Fin 512), y = ix3 u s k := ⟨y 0, y 1, y 2, eq_ix3 y⟩
  refine Eq.trans ?_ (read_blk7 G t u s k hcc).symm
  show (outsAt0 V c t.val t.isLt).1 (ix3 u s k) = _
  have hs := half_sum7 V c ⟨t.val / 16, hcc⟩ s k
  dsimp only at hs
  exact ((outs7_last V c t h15 u s k).trans hs).trans (hG ⟨t.val / 16, hcc⟩ s k).symm

/-- An index of the [2, 64, 512] array is in point t's block iff each coordinate is in the block's range. -/
theorem mem_blk7 (t : Fin cfg0.N) (i : S2x64x512.Idx) :
    i ∈ ((cfg0.win 7).blk t).view.set ↔ ∀ a : Fin 3, win0_7.index t a * S1x64x512.size a ≤ (i a).val
      ∧ (i a).val < win0_7.index t a * S1x64x512.size a + S1x64x512.size a := by
  show i ∈ ((View.whole main_v10_0).slice (win0_7.rect t)).set ↔ _
  rw [View.set_slice_whole, Rect.mem_set_unit]
  exact Iff.rfl

/-- The batch partial sums [2, 64, 512] after all 32 points. -/
theorem final7 : (dat0 (F := Ideal) V c).arrAt 7 cfg0.N
    = Cert.SegGate.reduceSum (V c main_arg0) (V c main_v2) (V c main_v1) (V c main_v5) (V c main_v6) := by
  have hN : cfg0.N = 32 := N_0
  refine (dat0 V c).arrAt_eq_of_cover 7 (G7 V c) (flushed7_of V c (G7 V c) (G7_apply V c)) fun i => ?_
  have hi0 : (i 0).val < 2 := (i 0).isLt
  have hi1 : (i 1).val < 64 := (i 1).isLt
  have hi2 : (i 2).val < 512 := (i 2).isLt
  have htl : 16 * (i 0).val + 15 < cfg0.N := by omega
  obtain ⟨e0, e1, e2⟩ := idx_acc7 ⟨16 * (i 0).val + 15, htl⟩
  refine ⟨⟨16 * (i 0).val + 15, htl⟩, (flush0_7 _).mpr (by show (16 * (i 0).val + 15) % 16 = 15; omega), ?_⟩
  rw [mem_blk7]
  intro a
  match a with
  | ⟨0, _⟩ =>
    show win0_7.index ⟨16 * (i 0).val + 15, htl⟩ (0 : Fin 3) * 1 ≤ (i 0).val ∧ (i 0).val < win0_7.index ⟨16 * (i 0).val + 15, htl⟩ (0 : Fin 3) * 1 + 1
    rw [e0]; show (16 * (i 0).val + 15) / 16 * 1 ≤ (i 0).val ∧ (i 0).val < (16 * (i 0).val + 15) / 16 * 1 + 1; omega
  | ⟨1, _⟩ =>
    show win0_7.index ⟨16 * (i 0).val + 15, htl⟩ (1 : Fin 3) * 64 ≤ (i 1).val ∧ (i 1).val < win0_7.index ⟨16 * (i 0).val + 15, htl⟩ (1 : Fin 3) * 64 + 64
    rw [e1]; omega
  | ⟨2, _⟩ =>
    show win0_7.index ⟨16 * (i 0).val + 15, htl⟩ (2 : Fin 3) * 512 ≤ (i 2).val ∧ (i 2).val < win0_7.index ⟨16 * (i 0).val + 15, htl⟩ (2 : Fin 3) * 512 + 512
    rw [e2]; omega

end Final

/-! ## The half's sixteen tiles are its 16384 rows; the write-back; the array -/

section FinalChain

variable (V : (c : Dev nD) → (b : Ref sig .tc) → Buf (Elt Ideal) ((c : Thread nD τ).loc b)) (c : Dev nD)

/-- The sixteen addends of half cc, at (u, s, k), are the half's sum over its 16384 rows of the rows whose id reads s. -/
theorem half_sum9 (cc : Fin 2) (s : Fin 256) (k : Fin 512) :
    ∑ q ∈ Finset.range 16, add9 V c s k (16 * cc.val + q)
      = Cert.SegGate.coreSum (fun r => cidarr V c (ix2 r 0))
          (fun r => Cert.SegGate.gated (xarr V c) (wuarr V c) (wcarr V c) (fun e => marr V c (ix2 e 0)) r k) cc s.val := by
  have hN : cfg0.N = 32 := N_0
  have hcc := cc.isLt
  have e1 : ∀ q ∈ Finset.range 16, add9 V c s k (16 * cc.val + q)
      = ∑ p : Fin 1024, (fun e => term9 V c s.val k (16384 * cc.val + e)) (1024 * q + p.val) := fun q hq => by
    have hq' : q < 16 := Finset.mem_range.mp hq
    have hlt : 16 * cc.val + q < cfg0.N := by omega
    unfold add9
    rw [dif_pos hlt]
    refine (part9_apply V c ⟨16 * cc.val + q, hlt⟩ s k).trans ?_
    refine Finset.sum_congr rfl fun p _ => ?_
    show term9 V c s.val k (1024 * (16 * cc.val + q) + p.val) = term9 V c s.val k (16384 * cc.val + (1024 * q + p.val))
    congr 1; omega
  refine (Finset.sum_congr rfl e1).trans ((Cert.Lib.sum_fin_tiles 1024 16 (fun e => term9 V c s.val k (16384 * cc.val + e))).trans ?_)
  unfold Cert.SegGate.coreSum
  refine Finset.sum_congr rfl fun e _ => ?_
  have he : 16384 * cc.val + e.val < 32768 := by have := e.isLt; omega
  show term9 V c s.val k (16384 * cc.val + e.val) = _
  unfold term9
  rw [dif_pos he]
  rfl

/-- The first pass's chain sums [2, 256, 512] as one function of the arrays. -/
abbrev G9 : FVec Ideal S2x256x512 .f32 :=
  Cert.SegGate.reduceSum (xarr V c) (cidarr V c) (marr V c) (wuarr V c) (wcarr V c)

/-- At (cc, s, k) they are half cc's sum, over its rows whose id reads s, of the masked gated updates at column k. -/
theorem G9_apply (cc : Fin 2) (s : Fin 256) (k : Fin 512) :
    G9 V c (ix3 cc s k) = Cert.SegGate.coreSum (fun r => cidarr V c (ix2 r 0))
      (fun r => Cert.SegGate.gated (xarr V c) (wuarr V c) (wcarr V c) (fun e => marr V c (ix2 e 0)) r k) cc s.val := rfl

/-- The accumulator's block index, decided over the grid: block (t / 16, 0, 0). -/
theorem idx_acc9 : ∀ t : Fin cfg0.N, win0_9.index t (0 : Fin 3) = t.val / 16 ∧ win0_9.index t (1 : Fin 3) = 0
    ∧ win0_9.index t (2 : Fin 3) = 0 :=
  (by decide +kernel : ∀ t : Fin grid0.N, _)

/-- Point t's block of a [2, 256, 512] array G is its half t / 16. -/
theorem read_blk9 (G : FVec Ideal S2x256x512 .f32) (t : Fin cfg0.N) (u : Fin 1) (s : Fin 256) (k : Fin 512) (hcc : t.val / 16 < 2) :
    (((cfg0.win 9).blk t).view.read (Elt Ideal) G : FVec Ideal S1x256x512 .f32) (ix3 u s k)
      = G (ix3 (⟨t.val / 16, hcc⟩ : Fin 2) s k) := by
  obtain ⟨e0, e1, e2⟩ := idx_acc9 t
  have hu : u.val < 1 := u.isLt
  rw [View.read_apply]
  show G _ = G _
  congr 1
  funext a; apply Fin.ext
  match a with
  | ⟨0, _⟩ => show win0_9.index t (0 : Fin 3) * 1 + 1 * u.val = t.val / 16; rw [e0]; omega
  | ⟨1, _⟩ => show win0_9.index t (1 : Fin 3) * 256 + 1 * s.val = s.val; rw [e1]; omega
  | ⟨2, _⟩ => show win0_9.index t (2 : Fin 3) * 512 + 1 * k.val = k.val; rw [e2]; omega

/-- What the last point of a half writes back is that half's block of any array G that holds the halves' sums. -/
theorem flushed9_of (G : FVec Ideal S2x256x512 .f32)
    (hG : ∀ (cc : Fin 2) (s : Fin 256) (k : Fin 512), G (ix3 cc s k) = Cert.SegGate.coreSum (fun r => cidarr V c (ix2 r 0))
      (fun r => Cert.SegGate.gated (xarr V c) (wuarr V c) (wcarr V c) (fun e => marr V c (ix2 e 0)) r k) cc s.val)
    (t : Fin cfg0.N) (hf : (cfg0.win 9).flush t = true) :
    (dat0 V c).flushed 9 t = ((cfg0.win 9).blk t).view.read (Elt Ideal) G := by
  have h15 : t.val % 16 = 15 := (flush0_9 t).mp hf
  have hN : cfg0.N = 32 := N_0
  have ht := t.isLt
  have hcc : t.val / 16 < 2 := by omega
  show (cfg0.win 9).cut (grid0.coords t) ((dat0 V c).after 9 t) = _
  rw [after0_9]
  funext y
  obtain ⟨u, s, k, rfl⟩ : ∃ (u : Fin 1) (s : Fin 256) (k : Fin 512), y = ix3 u s k := ⟨y 0, y 1, y 2, eq_ix3 y⟩
  refine Eq.trans ?_ (read_blk9 G t u s k hcc).symm
  show (outsAt0 V c t.val t.isLt).2.2.1 (ix3 u s k) = _
  have hs := half_sum9 V c ⟨t.val / 16, hcc⟩ s k
  dsimp only at hs
  exact ((outs9_last V c t h15 u s k).trans hs).trans (hG ⟨t.val / 16, hcc⟩ s k).symm

/-- An index of the [2, 256, 512] array is in point t's block iff each coordinate is in the block's range. -/
theorem mem_blk9 (t : Fin cfg0.N) (i : S2x256x512.Idx) :
    i ∈ ((cfg0.win 9).blk t).view.set ↔ ∀ a : Fin 3, win0_9.index t a * S1x256x512.size a ≤ (i a).val
      ∧ (i a).val < win0_9.index t a * S1x256x512.size a + S1x256x512.size a := by
  show i ∈ ((View.whole main_v10_2).slice (win0_9.rect t)).set ↔ _
  rw [View.set_slice_whole, Rect.mem_set_unit]
  exact Iff.rfl

/-- The chain partial sums [2, 256, 512] after all 32 points. -/
theorem final9 : (dat0 (F := Ideal) V c).arrAt 9 cfg0.N
    = Cert.SegGate.reduceSum (V c main_arg0) (V c main_v3) (V c main_v1) (V c main_v5) (V c main_v7) := by
  have hN : cfg0.N = 32 := N_0
  refine (dat0 V c).arrAt_eq_of_cover 9 (G9 V c) (flushed9_of V c (G9 V c) (G9_apply V c)) fun i => ?_
  have hi0 : (i 0).val < 2 := (i 0).isLt
  have hi1 : (i 1).val < 256 := (i 1).isLt
  have hi2 : (i 2).val < 512 := (i 2).isLt
  have htl : 16 * (i 0).val + 15 < cfg0.N := by omega
  obtain ⟨e0, e1, e2⟩ := idx_acc9 ⟨16 * (i 0).val + 15, htl⟩
  refine ⟨⟨16 * (i 0).val + 15, htl⟩, (flush0_9 _).mpr (by show (16 * (i 0).val + 15) % 16 = 15; omega), ?_⟩
  rw [mem_blk9]
  intro a
  match a with
  | ⟨0, _⟩ =>
    show win0_9.index ⟨16 * (i 0).val + 15, htl⟩ (0 : Fin 3) * 1 ≤ (i 0).val ∧ (i 0).val < win0_9.index ⟨16 * (i 0).val + 15, htl⟩ (0 : Fin 3) * 1 + 1
    rw [e0]; show (16 * (i 0).val + 15) / 16 * 1 ≤ (i 0).val ∧ (i 0).val < (16 * (i 0).val + 15) / 16 * 1 + 1; omega
  | ⟨1, _⟩ =>
    show win0_9.index ⟨16 * (i 0).val + 15, htl⟩ (1 : Fin 3) * 256 ≤ (i 1).val ∧ (i 1).val < win0_9.index ⟨16 * (i 0).val + 15, htl⟩ (1 : Fin 3) * 256 + 256
    rw [e1]; omega
  | ⟨2, _⟩ =>
    show win0_9.index ⟨16 * (i 0).val + 15, htl⟩ (2 : Fin 3) * 512 ≤ (i 2).val ∧ (i 2).val < win0_9.index ⟨16 * (i 0).val + 15, htl⟩ (2 : Fin 3) * 512 + 512
    rw [e2]; omega

end FinalChain

end Cert.KernelIdeal.ReduceSum

end
-- ==== Proof.ReduceCnt.lean ====
/-
  The first pass's partial segment counts read as values: after the 16 points of half cc, block cc of the [2, S, 1]
  array holds, for segment s, the sum of the mask values of that half's rows whose id reads s.

  The 32 points sweep the 32768 rows in blocks of 1024: point t reads rows 1024·t … 1024·t + 1023 of the id column and
  of the mask column, and belongs to half t / 16.  Its partial count for segment s is a sum over the block's rows of
  oh(p, s) · mask(p), where oh(p, s) is 1 when row p's id, read as a signed integer, is s and 0 otherwise; a 0/1
  factor times an extended real is that real or 0, so the partial count is the sum of the mask values of the block's
  rows whose id reads s.  The counts' block of a half is zeroed at the half's first point, every point adds its partial
  count into it, and it is written to the array after the half's last point: there it holds 0 plus the sum over the
  half's 16 points of their partial counts, and 16 consecutive blocks of 1024 rows are the half's 16384 rows.  Sums
  of extended reals are regrouped by commutativity and associativity only: no finiteness is used.

  The batch counts (64 segments) and the chain counts (256 segments) are the same computation on the two id columns.
-/
import proofs.«408816_j25881472925818_3_alg».proof.Proof.Spec
import proofs.«408816_j25881472925818_3_alg».proof.Proof.Gen.KernelIdeal.Frame
import proofs.«408816_j25881472925818_3_alg».proof.Proof.LibTileSum
import proofs.«408816_j25881472925818_3_alg».proof.Proof.LibLayoutColumn
import proofs.«408816_j25881472925818_3_alg».proof.Proof.LibRowTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReduceCnt

open Cert.KernelIdeal Cert.KernelIdeal.Gen
open Idealize.ShloMosaic Idealize.ShloMosaic.TcCoe Idealize.ShloMosaic.ValueIdx Idealize.SL.Sem
open Idealize.ShloMosaic.Pipeline (Dat)

/-! ## What the body's stores leave in the two counts' blocks, for any float values -/

section Pieces

variable {F : FTy → Type} [FloatOps F]

/-- A block read or written whole sits at offset zero on every axis. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The batch counts' block at a point that is not the first of its half: the body's one store of the block
    writes what the block held (read back whole) plus the point's partial count of the mask and id blocks. -/
theorem batPiece_later (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : ¬cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) (xo7 : Vec F S1x64x512 .f32) (xo8 : Vec F S1x64x1 .f32) (xo9 : Vec F S1x256x512 .f32) (xo10 : Vec F S1x256x1 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10 = k0_pay2 (k0_pay21 x3 x1) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10)]
  unfold kernelRun0_B
  dsimp only
  sl_unfold_words
  rw [View.canon_unit_zero zero_off3]
  simp only [View.readAt_eq_ld, harg3.read_unread, harg5.read_unread, harg10.read_unread,
    View.ld_unit_zero (S := S1x64x1) zero_off3, View.ld_unit_zero (S := S1024x1) zero_off2]

/-- The batch counts' block at the first point of a half: the body first stores the zero block, then reads it
    back and stores it plus the point's partial count; the later store covers the earlier one. -/
theorem batPiece_first (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay2 (k0_pay21 x3 x1) k0_pay6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S1x64x1) zero_off3, View.readCov_unit_zero (S := S1x64x1) _ zero_off3]
  simp only [View.readAt_eq_ld, harg3.read_unread, harg5.read_unread,
    View.ld_unit_zero (S := S1x64x1) zero_off3, View.ld_unit_zero (S := S1024x1) zero_off2]

/-- The chain counts' block at a point that is not the first of its half: the body's one store of the block
    writes what the block held (read back whole) plus the point's partial count of the mask and id blocks. -/
theorem chnPiece_later (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : ¬cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) (xo7 : Vec F S1x64x512 .f32) (xo8 : Vec F S1x64x1 .f32) (xo9 : Vec F S1x256x512 .f32) (xo10 : Vec F S1x256x1 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10 = k0_pay4 (k0_pay22 x3 x2) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10)]
  unfold kernelRun0_B
  dsimp only
  sl_unfold_words
  rw [View.canon_unit_zero zero_off3]
  simp only [View.readAt_eq_ld, harg4.read_unread, harg5.read_unread, harg12.read_unread,
    View.ld_unit_zero (S := S1x256x1) zero_off3, View.ld_unit_zero (S := S1024x1) zero_off2]

/-- The chain counts' block at the first point of a half: the body first stores the zero block, then reads it
    back and stores it plus the point's partial count; the later store covers the earlier one. -/
theorem chnPiece_first (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay4 (k0_pay22 x3 x2) k0_pay8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S1x256x1) zero_off3, View.readCov_unit_zero (S := S1x256x1) _ zero_off3]
  simp only [View.readAt_eq_ld, harg4.read_unread, harg5.read_unread,
    View.ld_unit_zero (S := S1x256x1) zero_off3, View.ld_unit_zero (S := S1024x1) zero_off2]

end Pieces

/-! ## One block's count at an index, over the extended reals -/

section Layout

/-- The reduced index s of a [T, a] → [a] row reduction, with row k put back, is (k, s). -/
theorem lift_row {T a : ℕ} (h : (⟨2, ![T, a]⟩ : Shape).Reduces [0] (⟨1, ![a]⟩ : Shape)) (s : Fin a)
    (k : Fin ((⟨2, ![T, a]⟩ : Shape).size 0)) : h.lift (ix1 s) k = ix2 (⟨k.val, k.isLt⟩ : Fin T) s := by
  funext c; apply Fin.ext
  fin_cases c <;> rfl

/-- A 32-bit word compared for equality with the word of a small natural s, widened and read as a signed integer, is
    1 exactly when the word reads s as a signed integer, and 0 otherwise. -/
theorem onehot_word (b : BitVec 32) (s : ℕ) (hs : s < 2 ^ 31) :
    ((((IntOp.cmpi .eq b (BitVec.ofNat 32 s)).setWidth 32).toInt : ℝ) : EReal)
      = if b.toInt = (s : Int) then (1 : EReal) else 0 := by
  by_cases h : b = BitVec.ofNat 32 s
  · have hi : b.toInt = (s : Int) := by
      rw [h, BitVec.toInt_ofNat']
      exact Int.bmod_eq_of_le (by omega) (by omega)
    rw [if_pos hi]
    have : IntOp.cmpi .eq b (BitVec.ofNat 32 s) = 1#1 := by
      unfold IntOp.cmpi
      simp [h]
    rw [this]
    norm_num
  · have hi : ¬ b.toInt = (s : Int) := fun e => h (by
      rw [← BitVec.ofInt_toInt (x := b), e, BitVec.ofInt_natCast])
    rw [if_neg hi]
    have hb : (b == BitVec.ofNat 32 s) = false := beq_false_of_ne h
    have : IntOp.cmpi .eq b (BitVec.ofNat 32 s) = 0#1 := by
      unfold IntOp.cmpi
      simp only [hb]
      rfl
    rw [this]
    norm_num

end Layout

section BlockCount

/-- One block's count for segment s. The one-hot of the ids against the lane number, as a float, times the mask
    column broadcast across the lanes, summed over the block's T rows and viewed as a column: at (s, ·) it is the sum
    of the mask values of the rows whose id reads s. -/
theorem count_apply {T a : ℕ} (ha : a ≤ 2 ^ 31) (m : FVec Ideal ⟨2, ![T, 1]⟩ .f32) (ids : IVec ⟨2, ![T, 1]⟩ 32)
    (hcm : (⟨2, ![T, 1]⟩ : Shape).ShapeCasts ⟨2, ![T, 1]⟩)
    (hio : (⟨2, ![T, a]⟩ : Shape).Iotas .tc 32 [1]) (hb : (⟨2, ![T, 1]⟩ : Shape).Broadcasts ⟨2, ![T, a]⟩) (hlt : 1 < 32)
    (hr : (⟨2, ![T, a]⟩ : Shape).Reduces [0] ⟨1, ![a]⟩) (hφ : FKind.Formats .f32)
    (hacc : (0x00000000#32 : BitVec 32) = FKind.add.neutral .f32 hφ)
    (hc : (⟨1, ![a]⟩ : Shape).ShapeCasts ⟨2, ![a, 1]⟩) (s : Fin a) (u : Fin 1) :
    shapeCast ⟨2, ![a, 1]⟩
      (multiReduction (F := Ideal) .add [0] ⟨1, ![a]⟩
        (mulf (sitofp .f32 (extui 32 (cmpi .eq (broadcastTo ⟨2, ![T, a]⟩ (shapeCast ⟨2, ![T, 1]⟩ ids hcm) hb)
                (iota .tc ⟨2, ![T, a]⟩ 32 [1] hio)) hlt) : FVec Ideal ⟨2, ![T, a]⟩ .f32)
              (broadcastTo ⟨2, ![T, a]⟩ (shapeCast ⟨2, ![T, 1]⟩ m hcm) hb))
        0x00000000#32 hr hφ hacc) hc (ix2 s u)
      = ∑ p : Fin T, if (ids (ix2 p (0 : Fin 1))).toInt = (s.val : Int) then m (ix2 p (0 : Fin 1)) else 0 := by
  rw [shapeCast_a_a1_apply]
  refine (Ideal.multiReduction_add_single _ _ hr hφ hacc (ix1 s)).trans ?_
  refine Finset.sum_congr rfl fun k _ => ?_
  rw [lift_row hr s k, mulf_apply, sitofp_apply, extui_apply, broadcastTo_a1_ab_apply, shapeCast_self]
  rw [shapeCast_self]
  show ((((IntOp.cmpi .eq (broadcastTo _ ids hb (ix2 ⟨k.val, k.isLt⟩ s))
      (iota .tc _ 32 [1] hio (ix2 ⟨k.val, k.isLt⟩ s))).setWidth 32).toInt : ℝ) : EReal) * m (ix2 ⟨k.val, k.isLt⟩ 0) = _
  rw [broadcastTo_a1_ab_apply, iota_single_apply]
  show ((((IntOp.cmpi .eq (ids (ix2 ⟨k.val, k.isLt⟩ 0)) (BitVec.ofNat 32 s.val)).setWidth 32).toInt : ℝ) : EReal)
      * m (ix2 ⟨k.val, k.isLt⟩ 0) = _
  rw [onehot_word _ s.val (by have := s.isLt; omega)]
  exact Cert.Lib.indicator_mul Iff.rfl _

/-- The accumulation step at an index: the [1, a, 1] block viewed as a column, plus the column, viewed back. -/
theorem upd_apply {a : ℕ} (v : FVec Ideal ⟨2, ![a, 1]⟩ .f32) (acc : FVec Ideal ⟨3, ![1, a, 1]⟩ .f32)
    (h1 : (⟨3, ![1, a, 1]⟩ : Shape).ShapeCasts ⟨2, ![a, 1]⟩) (h2 : (⟨2, ![a, 1]⟩ : Shape).ShapeCasts ⟨3, ![1, a, 1]⟩)
    (u : Fin 1) (s : Fin a) (w : Fin 1) :
    shapeCast ⟨3, ![1, a, 1]⟩ (addf (shapeCast ⟨2, ![a, 1]⟩ acc h1) v) h2 (ix3 u s w)
      = acc (ix3 (0 : Fin 1) s (0 : Fin 1)) + v (ix2 s (0 : Fin 1)) := by
  rw [shapeCast_a1_1a1_apply, addf_apply, shapeCast_1ab_ab_apply]

/-- The reset block at an index: zero. -/
theorem zero_apply {a : ℕ} (h2 : (⟨2, ![a, 1]⟩ : Shape).ShapeCasts ⟨3, ![1, a, 1]⟩) (u : Fin 1) (s : Fin a) (w : Fin 1) :
    shapeCast ⟨3, ![1, a, 1]⟩ (broadcast ⟨2, ![a, 1]⟩ (Scalar.ofBits (F := Ideal) .f32 0x00000000#32)) h2 (ix3 u s w) = 0 := by
  rw [shapeCast_a1_1a1_apply, broadcast_apply]
  exact Ideal.ofBits_zero_f32

end BlockCount

/-! ## Rows, blocks and halves -/

section Shared

variable (V : (c : Dev nD) → (b : Ref sig .tc) → Buf (Elt Ideal) ((c : Thread nD τ).loc b)) (c : Dev nD)

/-- Row r's contribution to segment s: its mask value if its id reads s, else 0 (and 0 for an r past the array's
    end, which no sum below reaches). -/
def rowTerm (ids : S32768x1.Idx → BitVec 32) (mk : S32768x1.Idx → EReal) (s r : ℕ) : EReal :=
  if h : r < 32768 then
    (if (ids (ix2 (⟨r, h⟩ : Fin 32768) (0 : Fin 1))).toInt = (s : Int) then mk (ix2 (⟨r, h⟩ : Fin 32768) (0 : Fin 1)) else 0)
  else 0

/-- Block n's count for segment s: the sum of the contributions of its 1024 rows, rows 1024·n … 1024·n + 1023. -/
def blockSum (ids : S32768x1.Idx → BitVec 32) (mk : S32768x1.Idx → EReal) (s n : ℕ) : EReal :=
  ∑ p : Fin 1024, rowTerm ids mk s (1024 * n + p.val)

/-- Sixteen consecutive blocks of 1024 rows, blocks 16·q … 16·q + 15, are the 16384 rows of half q. -/
theorem blocks_eq_half (ids : S32768x1.Idx → BitVec 32) (mk : S32768x1.Idx → EReal) (s q : ℕ) (hq : q < 2) :
    ∑ k ∈ Finset.range 16, blockSum ids mk s (16 * q + k)
      = Cert.SegGate.coreSum (fun r => ids (ix2 r (0 : Fin 1))) (fun r => mk (ix2 r (0 : Fin 1))) (⟨q, hq⟩ : Fin 2) s := by
  have e1 : ∀ k ∈ Finset.range 16, blockSum ids mk s (16 * q + k)
      = ∑ p : Fin 1024, (fun e => rowTerm ids mk s (16384 * q + e)) (1024 * k + p.val) := fun k _ => by
    unfold blockSum
    refine Finset.sum_congr rfl fun p _ => ?_
    exact congrArg (rowTerm ids mk s) (by omega)
  rw [Finset.sum_congr rfl e1, Cert.Lib.sum_fin_tiles 1024 16 (fun e => rowTerm ids mk s (16384 * q + e))]
  unfold Cert.SegGate.coreSum
  show ∑ e : Fin 16384, rowTerm ids mk s (16384 * q + e.val) = _
  refine Finset.sum_congr rfl fun e _ => ?_
  have he : 16384 * q + e.val < 32768 := by have := e.isLt; omega
  unfold rowTerm
  rw [dif_pos he]
  rfl

/-- The mask column, and a point's block of it. -/
abbrev mArr : S32768x1.Idx → EReal := V c main_v1
abbrev mBlk (t : Fin cfg0.N) : Vec Ideal S1024x1 .f32 := iblk0 V c 3 t

/-- Where the printed index maps put a point's blocks: the three column windows at block (t, 0), the two count
    accumulators at block (t / 16, 0, 0). Decided over the 32 points. -/
theorem idx_cols : ∀ t : Fin cfg0.N,
    win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem idx_accs : ∀ t : Fin cfg0.N,
    win0_8.index t (0 : Fin 3) = t.val / 16 ∧ win0_8.index t (1 : Fin 3) = 0 ∧ win0_8.index t (2 : Fin 3) = 0
    ∧ win0_10.index t (0 : Fin 3) = t.val / 16 ∧ win0_10.index t (1 : Fin 3) = 0 ∧ win0_10.index t (2 : Fin 3) = 0 :=
  (by decide +kernel : ∀ t : Fin grid0.N, _)

/-- Row p of point t's mask block is row 1024·t + p of the mask column. -/
theorem mBlk_apply (t : Fin cfg0.N) (p : Fin 1024) (h : 1024 * t.val + p.val < 32768) :
    mBlk V c t (ix2 p (0 : Fin 1)) = mArr V c (ix2 (⟨1024 * t.val + p.val, h⟩ : Fin 32768) (0 : Fin 1)) := by
  obtain ⟨-, -, -, -, e0, e1⟩ := idx_cols t
  show iblk0 V c 3 t (ix2 p (0 : Fin 1)) = _
  unfold iblk0
  rw [View.read_apply]
  show V c main_v1 _ = V c main_v1 _
  congr 1
  funext a
  apply Fin.ext
  match a with
  | ⟨0, _⟩ => show win0_3.index t (0 : Fin 2) * 1024 + 1 * p.val = 1024 * t.val + p.val; rw [e0]; omega
  | ⟨1, _⟩ => show win0_3.index t (1 : Fin 2) * 1 + 1 * 0 = 0; rw [e1]

end Shared

/-! ## The batch counts -/

section Batch

variable (V : (c : Dev nD) → (b : Ref sig .tc) → Buf (Elt Ideal) ((c : Thread nD τ).loc b)) (c : Dev nD)

/-- The batch id column, and a point's block of it. -/
abbrev batArr : S32768x1.Idx → BitVec 32 := V c main_v2
abbrev batBlk (t : Fin cfg0.N) : Vec Ideal S1024x1 .i32 := iblk0 V c 1 t

/-- Row p of point t's batch id block is row 1024·t + p of the id column. -/
theorem batBlk_apply (t : Fin cfg0.N) (p : Fin 1024) (h : 1024 * t.val + p.val < 32768) :
    batBlk V c t (ix2 p (0 : Fin 1)) = batArr V c (ix2 (⟨1024 * t.val + p.val, h⟩ : Fin 32768) (0 : Fin 1)) := by
  obtain ⟨e0, e1, -⟩ := idx_cols t
  show iblk0 V c 1 t (ix2 p (0 : Fin 1)) = _
  unfold iblk0
  rw [View.read_apply]
  show V c main_v2 _ = V c main_v2 _
  congr 1
  funext a
  apply Fin.ext
  match a with
  | ⟨0, _⟩ => show win0_1.index t (0 : Fin 2) * 1024 + 1 * p.val = 1024 * t.val + p.val; rw [e0]; omega
  | ⟨1, _⟩ => show win0_1.index t (1 : Fin 2) * 1 + 1 * 0 = 0; rw [e1]

/-- Point t's partial batch count at segment s is block t's count: the rows of the block are rows 1024·t … of the
    columns. -/
theorem batCnt_apply (t : Fin cfg0.N) (s : Fin 64) (u : Fin 1) :
    k0_pay21 (F := Ideal) (mBlk V c t) (batBlk V c t) (ix2 s u) = blockSum (batArr V c) (mArr V c) s.val t.val := by
  have hN : cfg0.N = 32 := N_0
  have ht : t.val < 32 := by have := t.isLt; omega
  unfold k0_pay21 k0_pay17 k0_pay16
  refine (count_apply (by norm_num) (mBlk V c t) (batBlk V c t) shapeCasts_S1024x1_S1024x1 iota_S1024x64_d1_w32
    broadcasts_S1024x1_S1024x64 natLt_1_32 reduces_S1024x64_S64 (.inl rfl) rfl shapeCasts_S64_S64x1 s u).trans ?_
  unfold blockSum
  refine Finset.sum_congr rfl fun p _ => ?_
  have hp : 1024 * t.val + p.val < 32768 := by have := p.isLt; omega
  rw [batBlk_apply V c t p hp, mBlk_apply V c t p hp]
  unfold rowTerm
  rw [dif_pos hp]

/-- The accumulation step at an index: what the block held there plus the point's partial count. -/
theorem batAcc_apply (v : FVec Ideal S64x1 .f32) (acc : Vec Ideal S1x64x1 .f32) (u : Fin 1) (s : Fin 64) (w : Fin 1) :
    k0_pay2 v acc (ix3 u s w) = acc (ix3 u s w) + v (ix2 s (0 : Fin 1)) := by
  obtain rfl : u = 0 := Subsingleton.elim _ _
  obtain rfl : w = 0 := Subsingleton.elim _ _
  unfold k0_pay2
  exact upd_apply v acc shapeCasts_S1x64x1_S64x1 shapeCasts_S64x1_S1x64x1 0 s 0

/-- The reset block is zero at every index. -/
theorem batZero_apply (u : Fin 1) (s : Fin 64) (w : Fin 1) : k0_pay6 (F := Ideal) (ix3 u s w) = 0 := by
  unfold k0_pay6
  exact zero_apply shapeCasts_S64x1_S1x64x1 u s w

/-- What the batch counts' staging block holds after point n; what a resetting point leaves; what a later point
    makes of what the point before left. -/
abbrev batHeld (n : ℕ) (h : n < cfg0.N) : Vec Ideal S1x64x1 .f32 := (outsAt0 V c n h).2.1
abbrev batReset (n : ℕ) (h : n < cfg0.N) : Vec Ideal S1x64x1 .f32 :=
  k0_pay2 (k0_pay21 (mBlk V c ⟨n, h⟩) (batBlk V c ⟨n, h⟩)) (k0_pay6 (F := Ideal))
abbrev batStep (n : ℕ) (h : n < cfg0.N) (acc : Vec Ideal S1x64x1 .f32) : Vec Ideal S1x64x1 .f32 :=
  k0_pay2 (k0_pay21 (mBlk V c ⟨n, h⟩) (batBlk V c ⟨n, h⟩)) acc

/-- At the first point of a half the block is reset and then updated. -/
theorem batHeld_reset (n : ℕ) (h : n < cfg0.N) (hm : n % 16 = 0) : batHeld V c n h = batReset V c n h := by
  show (outsAt0 V c (⟨n, h⟩ : Fin cfg0.N).val (⟨n, h⟩ : Fin cfg0.N).isLt).2.1 = _
  rw [outsAt0_A V c ⟨n, h⟩ hm]
  dsimp only
  exact batPiece_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) ((hcond0_0 ⟨n, h⟩).mpr hm) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩)

/-- At every other point it is updated from what the point before left. -/
theorem batHeld_step (n : ℕ) (h : n + 1 < cfg0.N) (hm : ¬(n + 1) % 16 = 0) :
    batHeld V c (n + 1) h = batStep V c (n + 1) h (batHeld V c n (Nat.lt_of_succ_lt h)) := by
  show (outsAt0 V c (⟨n + 1, h⟩ : Fin cfg0.N).val (⟨n + 1, h⟩ : Fin cfg0.N).isLt).2.1 = _
  rw [outsAt0_B V c ⟨n + 1, h⟩ hm]
  dsimp only
  exact batPiece_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (fun hh => hm ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1

/-- So after point t the block holds the fold over the points of t's half up to t. -/
theorem batHeld_fold (t : ℕ) (ht : t < cfg0.N) (h' : 16 * (t / 16) + t % 16 < cfg0.N) :
    batHeld V c t ht = Pipeline.accAt (batReset V c) (batStep V c) (16 * (t / 16)) (t % 16) h' :=
  Pipeline.eq_accAt_of_mod (batHeld V c) 16 (batReset V c) (batStep V c) (batHeld_reset V c) (batHeld_step V c)
    (by norm_num) t ht h'

/-- The fold at an index: the sum of the blocks' counts over the points it ran through. -/
theorem batFold_apply (b j : ℕ) (hj : j ≤ 15) (h : b + j < cfg0.N) (u : Fin 1) (s : Fin 64) (w : Fin 1) :
    Pipeline.accAt (batReset V c) (batStep V c) b j h (ix3 u s w)
      = 0 + ∑ k ∈ Finset.range (j + 1), blockSum (batArr V c) (mArr V c) s.val (b + k) := by
  refine Pipeline.accAt_add_apply (ι := S1x64x1.Idx) (β := EReal) (batReset V c) (batStep V c) (fun _ => 0)
    (fun n i => blockSum (batArr V c) (mArr V c) (i 1).val n) b 15 ?_ ?_ j hj h (ix3 u s w)
  · intro hb i
    obtain ⟨u, s, w, rfl⟩ : ∃ (u : Fin 1) (s : Fin 64) (w : Fin 1), i = ix3 u s w := ⟨i 0, i 1, i 2, eq_ix3 i⟩
    show k0_pay2 (k0_pay21 (mBlk V c ⟨b, hb⟩) (batBlk V c ⟨b, hb⟩)) (k0_pay6 (F := Ideal)) (ix3 u s w)
      = 0 + blockSum (batArr V c) (mArr V c) s.val b
    rw [batAcc_apply, batZero_apply, batCnt_apply]
  · intro n hn acc i _ _
    obtain ⟨u, s, w, rfl⟩ : ∃ (u : Fin 1) (s : Fin 64) (w : Fin 1), i = ix3 u s w := ⟨i 0, i 1, i 2, eq_ix3 i⟩
    show k0_pay2 (k0_pay21 (mBlk V c ⟨n, hn⟩) (batBlk V c ⟨n, hn⟩)) acc (ix3 u s w)
      = acc (ix3 u s w) + blockSum (batArr V c) (mArr V c) s.val n
    rw [batAcc_apply, batCnt_apply]

/-- A flushing point is the last of its half (t % 16 = 15); what it writes back is its block of the counts array:
    block (t / 16, 0, 0), whose entry (·, s, ·) is half t / 16's count for segment s. -/
theorem batFlushed (t : Fin cfg0.N) (hf : (cfg0.win 8).flush t = true) :
    (dat0 (F := Ideal) V c).flushed 8 t
      = ((cfg0.win 8).blk t).view.read (Elt Ideal) (Cert.SegGate.reduceCnt (S := 64) (V c main_v2) (V c main_v1)) := by
  have hN : cfg0.N = 32 := N_0
  have ht : t.val < 32 := by have := t.isLt; omega
  have h15 : t.val % 16 = 15 := (flush0_8 t).mp hf
  have hq : t.val / 16 < 2 := by omega
  obtain ⟨o0, o1, o2, -⟩ := idx_accs t
  show (cfg0.win 8).cut (grid0.coords t) ((dat0 (F := Ideal) V c).after 8 t) = _
  rw [after0_8]
  funext y
  obtain ⟨u, s, w, rfl⟩ : ∃ (u : Fin 1) (s : Fin 64) (w : Fin 1), y = ix3 u s w := ⟨y 0, y 1, y 2, eq_ix3 y⟩
  have he : ((cfg0.win 8).blk t).view.emb (ix3 u s w) = ix3 (⟨t.val / 16, hq⟩ : Fin 2) s (0 : Fin 1) := by
    funext a
    apply Fin.ext
    match a with
    | ⟨0, _⟩ => show win0_8.index t (0 : Fin 3) * 1 + 1 * u.val = t.val / 16; rw [o0]; omega
    | ⟨1, _⟩ => show win0_8.index t (1 : Fin 3) * 64 + 1 * s.val = s.val; rw [o1]; omega
    | ⟨2, _⟩ => show win0_8.index t (2 : Fin 3) * 1 + 1 * w.val = 0; rw [o2]; omega
  show batHeld V c t.val t.isLt (ix3 u s w) = _
  rw [View.read_apply, he]
  refine Eq.trans ?_ (cast_eq _ _).symm
  rw [batHeld_fold V c t.val t.isLt (by omega),
    batFold_apply V c (16 * (t.val / 16)) (t.val % 16) (by omega) (by omega) u s w, zero_add,
    show t.val % 16 + 1 = 16 from by omega]
  exact blocks_eq_half (batArr V c) (mArr V c) s.val (t.val / 16) hq

/-- Every entry (q, s, ·) of the counts array lies in the block the last point of half q writes back. -/
theorem batCover (i : S2x64x1.Idx) :
    ∃ t : Fin cfg0.N, (cfg0.win 8).flush t = true ∧ i ∈ ((cfg0.win 8).blk t).view.set := by
  have hN : cfg0.N = 32 := N_0
  have h0 : (i 0).val < 2 := (i 0).isLt
  have h1 : (i 1).val < 64 := (i 1).isLt
  have h2 : (i 2).val < 1 := (i 2).isLt
  have hlt : 16 * (i 0).val + 15 < cfg0.N := by omega
  have hq : (16 * (i 0).val + 15) / 16 = (i 0).val := by omega
  obtain ⟨o0, o1, o2, -⟩ := idx_accs ⟨16 * (i 0).val + 15, hlt⟩
  have q0 : win0_8.index ⟨16 * (i 0).val + 15, hlt⟩ (0 : Fin 3) = (i 0).val := o0.trans hq
  refine ⟨⟨16 * (i 0).val + 15, hlt⟩, (flush0_8 ⟨16 * (i 0).val + 15, hlt⟩).mpr (by show (16 * (i 0).val + 15) % 16 = 15; omega), ?_⟩
  show i ∈ ((View.whole main_v10_1).slice (win0_8.rect ⟨16 * (i 0).val + 15, hlt⟩)).set
  rw [View.set_slice_whole, Rect.mem_set_unit]
  intro a
  match a with
  | ⟨0, _⟩ =>
    show win0_8.index ⟨16 * (i 0).val + 15, hlt⟩ (0 : Fin 3) * 1 ≤ (i 0).val
      ∧ (i 0).val < win0_8.index ⟨16 * (i 0).val + 15, hlt⟩ (0 : Fin 3) * 1 + 1
    rw [q0]; omega
  | ⟨1, _⟩ =>
    show win0_8.index ⟨16 * (i 0).val + 15, hlt⟩ (1 : Fin 3) * 64 ≤ (i 1).val
      ∧ (i 1).val < win0_8.index ⟨16 * (i 0).val + 15, hlt⟩ (1 : Fin 3) * 64 + 64
    rw [o1]; omega
  | ⟨2, _⟩ =>
    show win0_8.index ⟨16 * (i 0).val + 15, hlt⟩ (2 : Fin 3) * 1 ≤ (i 2).val
      ∧ (i 2).val < win0_8.index ⟨16 * (i 0).val + 15, hlt⟩ (2 : Fin 3) * 1 + 1
    rw [o2]; omega

end Batch

/-! ## The chain counts: the same on the chain id column, 256 segments for 64 -/

section Chain

variable (V : (c : Dev nD) → (b : Ref sig .tc) → Buf (Elt Ideal) ((c : Thread nD τ).loc b)) (c : Dev nD)

/-- The chain id column, and a point's block of it. -/
abbrev chnArr : S32768x1.Idx → BitVec 32 := V c main_v3
abbrev chnBlk (t : Fin cfg0.N) : Vec Ideal S1024x1 .i32 := iblk0 V c 2 t

/-- Row p of point t's chain id block is row 1024·t + p of the id column. -/
theorem chnBlk_apply (t : Fin cfg0.N) (p : Fin 1024) (h : 1024 * t.val + p.val < 32768) :
    chnBlk V c t (ix2 p (0 : Fin 1)) = chnArr V c (ix2 (⟨1024 * t.val + p.val, h⟩ : Fin 32768) (0 : Fin 1)) := by
  obtain ⟨-, -, e0, e1, -⟩ := idx_cols t
  show iblk0 V c 2 t (ix2 p (0 : Fin 1)) = _
  unfold iblk0
  rw [View.read_apply]
  show V c main_v3 _ = V c main_v3 _
  congr 1
  funext a
  apply Fin.ext
  match a with
  | ⟨0, _⟩ => show win0_2.index t (0 : Fin 2) * 1024 + 1 * p.val = 1024 * t.val + p.val; rw [e0]; omega
  | ⟨1, _⟩ => show win0_2.index t (1 : Fin 2) * 1 + 1 * 0 = 0; rw [e1]

/-- Point t's partial chain count at segment s is block t's count: the rows of the block are rows 1024·t … of the
    columns. -/
theorem chnCnt_apply (t : Fin cfg0.N) (s : Fin 256) (u : Fin 1) :
    k0_pay22 (F := Ideal) (mBlk V c t) (chnBlk V c t) (ix2 s u) = blockSum (chnArr V c) (mArr V c) s.val t.val := by
  have hN : cfg0.N = 32 := N_0
  have ht : t.val < 32 := by have := t.isLt; omega
  unfold k0_pay22 k0_pay18 k0_pay16
  refine (count_apply (by norm_num) (mBlk V c t) (chnBlk V c t) shapeCasts_S1024x1_S1024x1 iota_S1024x256_d1_w32
    broadcasts_S1024x1_S1024x256 natLt_1_32 reduces_S1024x256_S256 (.inl rfl) rfl shapeCasts_S256_S256x1 s u).trans ?_
  unfold blockSum
  refine Finset.sum_congr rfl fun p _ => ?_
  have hp : 1024 * t.val + p.val < 32768 := by have := p.isLt; omega
  rw [chnBlk_apply V c t p hp, mBlk_apply V c t p hp]
  unfold rowTerm
  rw [dif_pos hp]

/-- The accumulation step at an index: what the block held there plus the point's partial count. -/
theorem chnAcc_apply (v : FVec Ideal S256x1 .f32) (acc : Vec Ideal S1x256x1 .f32) (u : Fin 1) (s : Fin 256) (w : Fin 1) :
    k0_pay4 v acc (ix3 u s w) = acc (ix3 u s w) + v (ix2 s (0 : Fin 1)) := by
  obtain rfl : u = 0 := Subsingleton.elim _ _
  obtain rfl : w = 0 := Subsingleton.elim _ _
  unfold k0_pay4
  exact upd_apply v acc shapeCasts_S1x256x1_S256x1 shapeCasts_S256x1_S1x256x1 0 s 0

/-- The reset block is zero at every index. -/
theorem chnZero_apply (u : Fin 1) (s : Fin 256) (w : Fin 1) : k0_pay8 (F := Ideal) (ix3 u s w) = 0 := by
  unfold k0_pay8
  exact zero_apply shapeCasts_S256x1_S1x256x1 u s w

/-- What the chain counts' staging block holds after point n; what a resetting point leaves; what a later point
    makes of what the point before left. -/
abbrev chnHeld (n : ℕ) (h : n < cfg0.N) : Vec Ideal S1x256x1 .f32 := (outsAt0 V c n h).2.2.2.1
abbrev chnReset (n : ℕ) (h : n < cfg0.N) : Vec Ideal S1x256x1 .f32 :=
  k0_pay4 (k0_pay22 (mBlk V c ⟨n, h⟩) (chnBlk V c ⟨n, h⟩)) (k0_pay8 (F := Ideal))
abbrev chnStep (n : ℕ) (h : n < cfg0.N) (acc : Vec Ideal S1x256x1 .f32) : Vec Ideal S1x256x1 .f32 :=
  k0_pay4 (k0_pay22 (mBlk V c ⟨n, h⟩) (chnBlk V c ⟨n, h⟩)) acc

/-- At the first point of a half the block is reset and then updated. -/
theorem chnHeld_reset (n : ℕ) (h : n < cfg0.N) (hm : n % 16 = 0) : chnHeld V c n h = chnReset V c n h := by
  show (outsAt0 V c (⟨n, h⟩ : Fin cfg0.N).val (⟨n, h⟩ : Fin cfg0.N).isLt).2.2.2.1 = _
  rw [outsAt0_A V c ⟨n, h⟩ hm]
  dsimp only
  exact chnPiece_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) ((hcond0_0 ⟨n, h⟩).mpr hm) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩)

/-- At every other point it is updated from what the point before left. -/
theorem chnHeld_step (n : ℕ) (h : n + 1 < cfg0.N) (hm : ¬(n + 1) % 16 = 0) :
    chnHeld V c (n + 1) h = chnStep V c (n + 1) h (chnHeld V c n (Nat.lt_of_succ_lt h)) := by
  show (outsAt0 V c (⟨n + 1, h⟩ : Fin cfg0.N).val (⟨n + 1, h⟩ : Fin cfg0.N).isLt).2.2.2.1 = _
  rw [outsAt0_B V c ⟨n + 1, h⟩ hm]
  dsimp only
  exact chnPiece_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (fun hh => hm ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1

/-- So after point t the block holds the fold over the points of t's half up to t. -/
theorem chnHeld_fold (t : ℕ) (ht : t < cfg0.N) (h' : 16 * (t / 16) + t % 16 < cfg0.N) :
    chnHeld V c t ht = Pipeline.accAt (chnReset V c) (chnStep V c) (16 * (t / 16)) (t % 16) h' :=
  Pipeline.eq_accAt_of_mod (chnHeld V c) 16 (chnReset V c) (chnStep V c) (chnHeld_reset V c) (chnHeld_step V c)
    (by norm_num) t ht h'

/-- The fold at an index: the sum of the blocks' counts over the points it ran through. -/
theorem chnFold_apply (b j : ℕ) (hj : j ≤ 15) (h : b + j < cfg0.N) (u : Fin 1) (s : Fin 256) (w : Fin 1) :
    Pipeline.accAt (chnReset V c) (chnStep V c) b j h (ix3 u s w)
      = 0 + ∑ k ∈ Finset.range (j + 1), blockSum (chnArr V c) (mArr V c) s.val (b + k) := by
  refine Pipeline.accAt_add_apply (ι := S1x256x1.Idx) (β := EReal) (chnReset V c) (chnStep V c) (fun _ => 0)
    (fun n i => blockSum (chnArr V c) (mArr V c) (i 1).val n) b 15 ?_ ?_ j hj h (ix3 u s w)
  · intro hb i
    obtain ⟨u, s, w, rfl⟩ : ∃ (u : Fin 1) (s : Fin 256) (w : Fin 1), i = ix3 u s w := ⟨i 0, i 1, i 2, eq_ix3 i⟩
    show k0_pay4 (k0_pay22 (mBlk V c ⟨b, hb⟩) (chnBlk V c ⟨b, hb⟩)) (k0_pay8 (F := Ideal)) (ix3 u s w)
      = 0 + blockSum (chnArr V c) (mArr V c) s.val b
    rw [chnAcc_apply, chnZero_apply, chnCnt_apply]
  · intro n hn acc i _ _
    obtain ⟨u, s, w, rfl⟩ : ∃ (u : Fin 1) (s : Fin 256) (w : Fin 1), i = ix3 u s w := ⟨i 0, i 1, i 2, eq_ix3 i⟩
    show k0_pay4 (k0_pay22 (mBlk V c ⟨n, hn⟩) (chnBlk V c ⟨n, hn⟩)) acc (ix3 u s w)
      = acc (ix3 u s w) + blockSum (chnArr V c) (mArr V c) s.val n
    rw [chnAcc_apply, chnCnt_apply]

/-- A flushing point is the last of its half (t % 16 = 15); what it writes back is its block of the counts array:
    block (t / 16, 0, 0), whose entry (·, s, ·) is half t / 16's count for segment s. -/
theorem chnFlushed (t : Fin cfg0.N) (hf : (cfg0.win 10).flush t = true) :
    (dat0 (F := Ideal) V c).flushed 10 t
      = ((cfg0.win 10).blk t).view.read (Elt Ideal) (Cert.SegGate.reduceCnt (S := 256) (V c main_v3) (V c main_v1)) := by
  have hN : cfg0.N = 32 := N_0
  have ht : t.val < 32 := by have := t.isLt; omega
  have h15 : t.val % 16 = 15 := (flush0_10 t).mp hf
  have hq : t.val / 16 < 2 := by omega
  obtain ⟨-, -, -, o0, o1, o2⟩ := idx_accs t
  show (cfg0.win 10).cut (grid0.coords t) ((dat0 (F := Ideal) V c).after 10 t) = _
  rw [after0_10]
  funext y
  obtain ⟨u, s, w, rfl⟩ : ∃ (u : Fin 1) (s : Fin 256) (w : Fin 1), y = ix3 u s w := ⟨y 0, y 1, y 2, eq_ix3 y⟩
  have he : ((cfg0.win 10).blk t).view.emb (ix3 u s w) = ix3 (⟨t.val / 16, hq⟩ : Fin 2) s (0 : Fin 1) := by
    funext a
    apply Fin.ext
    match a with
    | ⟨0, _⟩ => show win0_10.index t (0 : Fin 3) * 1 + 1 * u.val = t.val / 16; rw [o0]; omega
    | ⟨1, _⟩ => show win0_10.index t (1 : Fin 3) * 256 + 1 * s.val = s.val; rw [o1]; omega
    | ⟨2, _⟩ => show win0_10.index t (2 : Fin 3) * 1 + 1 * w.val = 0; rw [o2]; omega
  show chnHeld V c t.val t.isLt (ix3 u s w) = _
  rw [View.read_apply, he]
  refine Eq.trans ?_ (cast_eq _ _).symm
  rw [chnHeld_fold V c t.val t.isLt (by omega),
    chnFold_apply V c (16 * (t.val / 16)) (t.val % 16) (by omega) (by omega) u s w, zero_add,
    show t.val % 16 + 1 = 16 from by omega]
  exact blocks_eq_half (chnArr V c) (mArr V c) s.val (t.val / 16) hq

/-- Every entry (q, s, ·) of the counts array lies in the block the last point of half q writes back. -/
theorem chnCover (i : S2x256x1.Idx) :
    ∃ t : Fin cfg0.N, (cfg0.win 10).flush t = true ∧ i ∈ ((cfg0.win 10).blk t).view.set := by
  have hN : cfg0.N = 32 := N_0
  have h0 : (i 0).val < 2 := (i 0).isLt
  have h1 : (i 1).val < 256 := (i 1).isLt
  have h2 : (i 2).val < 1 := (i 2).isLt
  have hlt : 16 * (i 0).val + 15 < cfg0.N := by omega
  have hq : (16 * (i 0).val + 15) / 16 = (i 0).val := by omega
  obtain ⟨-, -, -, o0, o1, o2⟩ := idx_accs ⟨16 * (i 0).val + 15, hlt⟩
  have q0 : win0_10.index ⟨16 * (i 0).val + 15, hlt⟩ (0 : Fin 3) = (i 0).val := o0.trans hq
  refine ⟨⟨16 * (i 0).val + 15, hlt⟩, (flush0_10 ⟨16 * (i 0).val + 15, hlt⟩).mpr (by show (16 * (i 0).val + 15) % 16 = 15; omega), ?_⟩
  show i ∈ ((View.whole main_v10_3).slice (win0_10.rect ⟨16 * (i 0).val + 15, hlt⟩)).set
  rw [View.set_slice_whole, Rect.mem_set_unit]
  intro a
  match a with
  | ⟨0, _⟩ =>
    show win0_10.index ⟨16 * (i 0).val + 15, hlt⟩ (0 : Fin 3) * 1 ≤ (i 0).val
      ∧ (i 0).val < win0_10.index ⟨16 * (i 0).val + 15, hlt⟩ (0 : Fin 3) * 1 + 1
    rw [q0]; omega
  | ⟨1, _⟩ =>
    show win0_10.index ⟨16 * (i 0).val + 15, hlt⟩ (1 : Fin 3) * 256 ≤ (i 1).val
      ∧ (i 1).val < win0_10.index ⟨16 * (i 0).val + 15, hlt⟩ (1 : Fin 3) * 256 + 256
    rw [o1]; omega
  | ⟨2, _⟩ =>
    show win0_10.index ⟨16 * (i 0).val + 15, hlt⟩ (2 : Fin 3) * 1 ≤ (i 2).val
      ∧ (i 2).val < win0_10.index ⟨16 * (i 0).val + 15, hlt⟩ (2 : Fin 3) * 1 + 1
    rw [o2]; omega

end Chain

/-! ## The two arrays after the 32 points -/

variable (V : (c : Dev nD) → (b : Ref sig .tc) → Buf (Elt Ideal) ((c : Thread nD τ).loc b)) (c : Dev nD)

/-- The batch partial counts [2, 64, 1] after all 32 points. -/
theorem final8 : (dat0 (F := Ideal) V c).arrAt 8 cfg0.N = Cert.SegGate.reduceCnt (V c main_v2) (V c main_v1) :=
  (dat0 (F := Ideal) V c).arrAt_eq_of_cover 8 _ (fun t hf => batFlushed V c t hf) batCover

/-- The chain partial counts [2, 256, 1] after all 32 points. -/
theorem final10 : (dat0 (F := Ideal) V c).arrAt 10 cfg0.N = Cert.SegGate.reduceCnt (V c main_v3) (V c main_v1) :=
  (dat0 (F := Ideal) V c).arrAt_eq_of_cover 10 _ (fun t hf => chnFlushed V c t hf) chnCover

end Cert.KernelIdeal.ReduceCnt

end
-- ==== Proof.ReduceUpd.lean ====
/-
  The first pass's update array read as a value: point t writes rows 1024·t … 1024·t + 1023 of x · W_update, so after
  all 32 points the [32768, 512] array is the whole product.
-/
import proofs.«408816_j25881472925818_3_alg».proof.Proof.Spec
import proofs.«408816_j25881472925818_3_alg».proof.Proof.Gen.KernelIdeal.Frame
import proofs.«408816_j25881472925818_3_alg».proof.Proof.LibTileSum
import proofs.«408816_j25881472925818_3_alg».proof.Proof.LibLayoutColumn
import proofs.«408816_j25881472925818_3_alg».proof.Proof.LibRowTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReduceUpd

open Cert.KernelIdeal Cert.KernelIdeal.Gen
open Idealize.ShloMosaic Idealize.ShloMosaic.TcCoe Idealize.ShloMosaic.ValueIdx Idealize.SL.Sem
open Idealize.ShloMosaic.Pipeline (Dat)

/-! ## What one point leaves in the staging buffer of the update array

In either case of the point (first of its half or not) the body stores one payload over the whole [1024, 512]
buffer: the product of the point's block of x with W_update, which does not depend on what the buffer held. -/

section Pieces

variable {F : FTy → Type} [FloatOps F]

/-- The offsets (0, 0) of a store or a load over a whole block. -/
theorem zero_offsets : (![0, 0] : Fin 2 → Nat) = fun _ => 0 := funext fun a => by fin_cases a <;> rfl

/-- At the first point of a half the buffer ends holding the product payload of the blocks of x and W_update. -/
theorem stored_first (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay11 x0 x4 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero zero_offsets]
  simp only [View.readAt_eq_ld, harg2.read_unread, harg6.read_unread, View.ld_unit_zero (S := S1024x256) zero_offsets,
    View.ld_unit_zero (S := S256x512) zero_offsets]

/-- At every other point the buffer ends holding the same payload, whatever the four accumulators held. -/
theorem stored_later (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x64x512 .f32) (harg9 : arg9.IsWhole) (arg10 : Memref sig .tc .vmem S1x64x1 .f32) (harg10 : arg10.IsWhole) (arg11 : Memref sig .tc .vmem S1x256x512 .f32) (harg11 : arg11.IsWhole) (arg12 : Memref sig .tc .vmem S1x256x1 .f32) (harg12 : arg12.IsWhole) (arg13 : Memref sig .tc .vmem S1024x512 .bf16) (harg13 : arg13.IsWhole) (hc0 : ¬cond0_0 i)
    (x0 : Vec F S1024x256 .f32) (x1 : Vec F S1024x1 .i32) (x2 : Vec F S1024x1 .i32) (x3 : Vec F S1024x1 .f32) (x4 : Vec F S256x512 .bf16) (x5 : Vec F S256x512 .bf16) (x6 : Vec F S256x512 .bf16) (xo7 : Vec F S1x64x512 .f32) (xo8 : Vec F S1x64x1 .f32) (xo9 : Vec F S1x256x512 .f32) (xo10 : Vec F S1x256x1 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10 = k0_pay11 x0 x4 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7 xo8 xo9 xo10)]
  unfold kernelRun0_B
  dsimp only
  sl_unfold_words
  rw [View.canon_unit_zero zero_offsets]
  simp only [View.readAt_eq_ld, harg2.read_unread, harg6.read_unread, View.ld_unit_zero (S := S1024x256) zero_offsets,
    View.ld_unit_zero (S := S256x512) zero_offsets]

end Pieces

/-! ## The payload at an index

Over the extended reals the rounding steps are the identity and the accumulator starts at zero, so entry (p, k) of
the payload is the sum over j of x-block (p, j) · W-block (j, k). -/

/-- The body's contraction is the plain one: [1024, 256] · [256, 512], the left operand's second axis against the
    right operand's first. -/
theorem plain_dims : Cert.Lib.IsPlain dot_S1024x256_S256x512_S1024x512_1_0_0_1_n_n :=
  ⟨rfl, rfl, rfl, rfl, rfl, rfl, rfl, rfl⟩

/-- Entry (p, k) of the payload: row p of the x block against column k of the W block, over the 256 contracted
    positions. -/
theorem payload_apply (x : FVec Ideal S1024x256 .f32) (w : FVec Ideal S256x512 .bf16) (p : Fin 1024) (k : Fin 512) :
    k0_pay11 (F := Ideal) x w (ix2 p k) = ∑ j : Fin 256, x (ix2 p j) * w (ix2 j k) := by
  unfold k0_pay11 k0_pay10 k0_pay9
  refine (Ideal.matmul_constant_zero_apply dot_S1024x256_S256x512_S1024x512_1_0_0_1_n_n none
    (truncf .bf16 x bitsLt_bf16_f32) (shapeCast S256x512 w shapeCasts_S256x512_S256x512) (ix2 p k)).trans ?_
  refine (plain_dims.sum_eq _ _ (ix2 p k)).trans ?_
  refine Finset.sum_congr rfl fun j _ => ?_
  show x (ix2 p j) * shapeCast S256x512 w shapeCasts_S256x512_S256x512 (ix2 j k) = _
  rw [shapeCast_self]

/-! ## From the blocks to the array -/

variable (V : (c : Dev nD) → (b : Ref sig .tc) → Buf (Elt Ideal) ((c : Thread nD τ).loc b)) (c : Dev nD)

/-- The input x [32768, 256] on entry to the first pass. -/
abbrev xarr : FVec Ideal S32768x256 .f32 := V c main_arg0
/-- W_update [256, 512] on entry to the first pass. -/
abbrev warr : FVec Ideal S256x512 .bf16 := V c main_v5
/-- Point t's block of x: rows 1024·t … 1024·t + 1023. -/
abbrev xblk (t : Fin cfg0.N) : FVec Ideal S1024x256 .f32 := iblk0 V c 0 t
/-- Point t's block of W_update: the whole array. -/
abbrev wblk (t : Fin cfg0.N) : FVec Ideal S256x512 .bf16 := iblk0 V c 4 t

/-- After point t the staging buffer of the update array holds the payload of point t's blocks, whichever case
    the point is. -/
theorem staged (t : Fin cfg0.N) :
    (outsAt0 (F := Ideal) V c t.val t.isLt).2.2.2.2 = k0_pay11 (F := Ideal) (xblk V c t) (wblk V c t) := by
  by_cases h : t.val % 16 = 0
  · rw [outsAt0_A V c t h]
    dsimp only
    exact stored_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk0 V c 0 t) (iblk0 V c 1 t) (iblk0 V c 2 t) (iblk0 V c 3 t) (iblk0 V c 4 t) (iblk0 V c 5 t) (iblk0 V c 6 t)
  · rw [outsAt0_B V c t h]
    dsimp only
    exact stored_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hh => h ((hcond0_0 t).mp hh)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1

/-- The block index maps over the 32 points: at point t the block of x and the block of the update array are row
    block t, column block 0; the block of W_update is the whole array. -/
theorem block_indices : ∀ t : Fin cfg0.N, win0_0.index t (0 : Fin 2) = t.val ∧ win0_0.index t (1 : Fin 2) = 0
    ∧ win0_4.index t (0 : Fin 2) = 0 ∧ win0_4.index t (1 : Fin 2) = 0
    ∧ win0_11.index t (0 : Fin 2) = t.val ∧ win0_11.index t (1 : Fin 2) = 0 :=
  (by decide +kernel : ∀ t : Fin grid0.N, _)

/-- Row p of point t's block of x is row 1024·t + p of x. -/
theorem xblk_apply (t : Fin cfg0.N) (p : Fin 1024) (j : Fin 256) (r : Fin 32768) (hr : r.val = 1024 * t.val + p.val) :
    xblk V c t (ix2 p j) = xarr V c (ix2 r j) := by
  obtain ⟨e0, e1, -⟩ := block_indices t
  show V c main_arg0 (((cfg0.win 0).blk t).view.emb (ix2 p j)) = V c main_arg0 (ix2 r j)
  refine congrArg (V c main_arg0) ?_
  funext a; apply Fin.ext
  match a with
  | ⟨0, _⟩ => show win0_0.index t (0 : Fin 2) * 1024 + 1 * p.val = r.val; omega
  | ⟨1, _⟩ => show win0_0.index t (1 : Fin 2) * 256 + 1 * j.val = j.val; omega

/-- Point t's block of W_update reads W_update itself. -/
theorem wblk_apply (t : Fin cfg0.N) (j : Fin 256) (k k' : Fin 512) (hk : k'.val = k.val) :
    wblk V c t (ix2 j k) = warr V c (ix2 j k') := by
  obtain ⟨-, -, e2, e3, -⟩ := block_indices t
  show V c main_v5 (((cfg0.win 4).blk t).view.emb (ix2 j k)) = V c main_v5 (ix2 j k')
  refine congrArg (V c main_v5) ?_
  funext a; apply Fin.ext
  match a with
  | ⟨0, _⟩ => show win0_4.index t (0 : Fin 2) * 256 + 1 * j.val = j.val; omega
  | ⟨1, _⟩ => show win0_4.index t (1 : Fin 2) * 512 + 1 * k.val = k'.val; omega

/-- What point t writes back is block t of x · W_update: rows 1024·t … 1024·t + 1023, all 512 columns. -/
theorem written_back_block (t : Fin cfg0.N) :
    (dat0 (F := Ideal) V c).flushed 11 t
      = ((cfg0.win 11).blk t).view.read (Elt Ideal) (Cert.SegGate.updOut (V c main_arg0) (V c main_v5)) := by
  show (cfg0.win 11).cut (grid0.coords t) ((dat0 V c).after 11 t) = _
  rw [after0_11, staged]
  obtain ⟨-, -, -, -, e4, e5⟩ := block_indices t
  funext y
  obtain ⟨p, k, rfl⟩ : ∃ (p : Fin 1024) (k : Fin 512), y = ix2 p k := ⟨y 0, y 1, eq_ix2 y⟩
  show k0_pay11 (F := Ideal) (xblk V c t) (wblk V c t) (ix2 p k)
    = Cert.SegGate.updOut (V c main_arg0) (V c main_v5) (((cfg0.win 11).blk t).view.emb (ix2 p k))
  rw [payload_apply]
  have h0 : ((((cfg0.win 11).blk t).view.emb (ix2 p k)) 0).val = 1024 * t.val + p.val := by
    show win0_11.index t (0 : Fin 2) * 1024 + 1 * p.val = _; omega
  have h1 : ((((cfg0.win 11).blk t).view.emb (ix2 p k)) 1).val = k.val := by
    show win0_11.index t (1 : Fin 2) * 512 + 1 * k.val = _; omega
  exact Finset.sum_congr rfl fun j _ =>
    congrArg₂ (· * ·) (xblk_apply V c t p j _ h0) (wblk_apply V c t j k _ h1)

/-- An index of the [32768, 512] array is in point t's block iff each coordinate is in the block's range. -/
theorem mem_block (t : Fin cfg0.N) (i : S32768x512.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v10_4).slice (win0_11.rect t)).set ↔ _
  rw [View.set_slice_whole, Rect.mem_set_unit]
  exact Iff.rfl

/-- Every row r of the array is written back by the point r / 1024. -/
theorem covered (i : S32768x512.Idx) :
    ∃ t : Fin cfg0.N, (cfg0.win 11).flush t = true ∧ i ∈ ((cfg0.win 11).blk t).view.set := by
  have hN : cfg0.N = 32 := N_0
  have hi0 : (i 0).val < 32768 := (i 0).isLt
  have hi1 : (i 1).val < 512 := (i 1).isLt
  have ht : (i 0).val / 1024 < cfg0.N := by rw [hN]; omega
  obtain ⟨-, -, -, -, e4, e5⟩ := block_indices ⟨(i 0).val / 1024, ht⟩
  refine ⟨⟨(i 0).val / 1024, ht⟩, flush0_11 _, ?_⟩
  rw [mem_block]
  intro a
  match a with
  | ⟨0, _⟩ =>
    show win0_11.index ⟨(i 0).val / 1024, ht⟩ (0 : Fin 2) * 1024 ≤ (i 0).val
      ∧ (i 0).val < win0_11.index ⟨(i 0).val / 1024, ht⟩ (0 : Fin 2) * 1024 + 1024
    rw [e4]; dsimp only; omega
  | ⟨1, _⟩ =>
    show win0_11.index ⟨(i 0).val / 1024, ht⟩ (1 : Fin 2) * 512 ≤ (i 1).val
      ∧ (i 1).val < win0_11.index ⟨(i 0).val / 1024, ht⟩ (1 : Fin 2) * 512 + 512
    rw [e5]; omega

/-- The update array [32768, 512] after all 32 points. -/
theorem final11 : (dat0 (F := Ideal) V c).arrAt 11 cfg0.N = Cert.SegGate.updOut (V c main_arg0) (V c main_v5) :=
  (dat0 (F := Ideal) V c).arrAt_eq_of_cover 11 (Cert.SegGate.updOut (V c main_arg0) (V c main_v5))
    (fun t _ => written_back_block V c t) (covered)

end Cert.KernelIdeal.ReduceUpd

end
-- ==== Proof.HostGlue.lean ====
/-
  The host operations around the two passes, read as values: what each array holds when the first pass is entered
  (casts and column broadcasts of the arguments), and when the second is (the same, the update array the first pass
  left, and the two mean tables built from the first pass's partial sums and counts).
-/
import proofs.«408816_j25881472925818_3_alg».proof.Proof.Spec
import proofs.«408816_j25881472925818_3_alg».proof.Proof.Gen.KernelIdeal.Frame
import proofs.«408816_j25881472925818_3_alg».proof.Proof.LibLayoutColumn
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The mask as reals, one per row. -/
def maskf : Fin 32768 → EReal := fun r => (uitofp (F := Ideal) .f32 (m ((c.tc : Thread nD τ).loc main_arg1))) (ix1 r)

/-! ## Layout operations of the host read at an index -/

/-- A vector placed as an `[a, 1]` column reads, at `i`, the vector at `i`'s row. -/
theorem col_apply {α : Type} {a : ℕ} (h : (⟨1, ![a]⟩ : Shape).BroadcastsInDim ⟨2, ![a, 1]⟩ ![0])
    (x : (⟨1, ![a]⟩ : Shape).Idx → α) (i : (⟨2, ![a, 1]⟩ : Shape).Idx) :
    broadcastInDim ⟨2, ![a, 1]⟩ ![0] h x i = x (ix1 (i 0)) := by
  refine broadcastInDim_apply _ h x i (ix1 (i 0)) fun ax => ?_
  match ax with
  | ⟨0, _⟩ =>
    show (i 0).val = if a = 1 then 0 else (i 0).val
    split
    · have h0 : (i 0).val < a := (i 0).isLt
      omega
    · rfl

/-- A vector placed as a `[1, b]` row reads, at `i`, the vector at `i`'s column. -/
theorem row_apply {α : Type} {b : ℕ} (h : (⟨1, ![b]⟩ : Shape).BroadcastsInDim ⟨2, ![1, b]⟩ ![1])
    (x : (⟨1, ![b]⟩ : Shape).Idx → α) (i : (⟨2, ![1, b]⟩ : Shape).Idx) :
    broadcastInDim ⟨2, ![1, b]⟩ ![1] h x i = x (ix1 (i 1)) := by
  refine broadcastInDim_apply _ h x i (ix1 (i 1)) fun ax => ?_
  match ax with
  | ⟨0, _⟩ =>
    show (i 1).val = if b = 1 then 0 else (i 1).val
    split
    · have h1 : (i 1).val < b := (i 1).isLt
      omega
    · rfl

/-! ## At the first pass's entry

Each array is one or two host operations applied to an argument: the input itself, the mask read as reals and placed
as a column, an id vector placed as a column, or a weight matrix narrowed (the identity over the extended reals). -/

theorem V1_arg0 : V1 m ρ c main_arg0 = m ((c.tc : Thread nD τ).loc main_arg0) := by
  show StableHlo.after hostOps0 (W0 m ρ c) (Proc.devRef .tc main_arg0) = _
  dsimp only [hostOps0]
  after_results

theorem V1_v1 : V1 m ρ c main_v1 = fun i => maskf m c (i 0) := by
  show StableHlo.after hostOps0 (W0 m ρ c) (Proc.devRef .tc main_v1) = _
  dsimp only [hostOps0]
  after_results
  funext i
  exact col_apply _ _ i

theorem V1_v2 : V1 m ρ c main_v2 = fun i => m ((c.tc : Thread nD τ).loc main_arg2) (ix1 (i 0)) := by
  show StableHlo.after hostOps0 (W0 m ρ c) (Proc.devRef .tc main_v2) = _
  dsimp only [hostOps0]
  after_results
  funext i
  exact col_apply _ _ i

theorem V1_v3 : V1 m ρ c main_v3 = fun i => m ((c.tc : Thread nD τ).loc main_arg3) (ix1 (i 0)) := by
  show StableHlo.after hostOps0 (W0 m ρ c) (Proc.devRef .tc main_v3) = _
  dsimp only [hostOps0]
  after_results
  funext i
  exact col_apply _ _ i

theorem V1_v5 : V1 m ρ c main_v5 = m ((c.tc : Thread nD τ).loc main_arg4) := by
  show StableHlo.after hostOps0 (W0 m ρ c) (Proc.devRef .tc main_v5) = _
  dsimp only [hostOps0]
  after_results
  rfl

theorem V1_v6 : V1 m ρ c main_v6 = m ((c.tc : Thread nD τ).loc main_arg7) := by
  show StableHlo.after hostOps0 (W0 m ρ c) (Proc.devRef .tc main_v6) = _
  dsimp only [hostOps0]
  after_results
  rfl

theorem V1_v7 : V1 m ρ c main_v7 = m ((c.tc : Thread nD τ).loc main_arg6) := by
  show StableHlo.after hostOps0 (W0 m ρ c) (Proc.devRef .tc main_v7) = _
  dsimp only [hostOps0]
  after_results
  rfl

/-! ## The mean table the host builds between the passes -/

open scoped BigOperators in
/-- The host's sum over the leading axis of extent two of a `[2, S, n]` array, from a zero, is at `(s, k)` the sum of
    the two halves' entries at `(s, k)`. -/
theorem reduceHalves_apply {S n : ℕ} (x : (⟨3, ![2, S, n]⟩ : Shape).Idx → EReal)
    (h' : (⟨3, ![2, S, n]⟩ : Shape).ReducesTo [0] ⟨2, ![S, n]⟩) (h : (⟨3, ![2, S, n]⟩ : Shape).Reduces [0] ⟨2, ![S, n]⟩)
    (hu : 0 < S_.numel) (j : (⟨2, ![S, n]⟩ : Shape).Idx) :
    Host.reduceAdd (F := Ideal) (φ := .f32) x (constant (F := Ideal) S_ .f32 0x00000000#32) h' hu j
      = ∑ cc : Fin 2, x (ix3 cc (j 0) (j 1)) := by
  show Ideal.hostReduceAdd h' x (Ideal.ofBits .f32 0x00000000#32) j = _
  rw [Ideal.hostReduceAdd_single h' h, Ideal.ofBits_zero_f32, zero_add]
  refine Finset.sum_congr rfl fun cc _ => congrArg x ?_
  funext ax
  match ax with
  | ⟨0, _⟩ => rfl
  | ⟨1, _⟩ => rfl
  | ⟨2, _⟩ => rfl

/-- A `[S, 1]` column spread over `n` lanes reads, at `(s, k)`, the column at `s`. -/
theorem spread_apply {α : Type} {S n : ℕ} (h : (⟨2, ![S, 1]⟩ : Shape).BroadcastsInDim ⟨2, ![S, n]⟩ ![0, 1])
    (x : (⟨2, ![S, 1]⟩ : Shape).Idx → α) (j : (⟨2, ![S, n]⟩ : Shape).Idx) :
    broadcastInDim ⟨2, ![S, n]⟩ ![0, 1] h x j = x (ix2 (j 0) (0 : Fin 1)) := by
  refine broadcastInDim_apply _ h x j (ix2 (j 0) (0 : Fin 1)) fun ax => ?_
  match ax with
  | ⟨0, _⟩ =>
    show (j 0).val = if S = 1 then 0 else (j 0).val
    split
    · have h0 : (j 0).val < S := (j 0).isLt
      omega
    · rfl
  | ⟨1, _⟩ => rfl

/-- A scalar spread over any shape reads the scalar everywhere. -/
theorem scalar_apply {α : Type} {T : Shape} (h : S_.BroadcastsInDim T ![]) (x : S_.Idx → α) (j : T.Idx) :
    broadcastInDim T ![] h x j = x ix0 := by
  unfold broadcastInDim
  exact congrArg x (funext fun a => a.elim0)

/-- The host's chain from the first pass's partial sums `[2, S, 512]` and partial counts `[2, S, 1]` — each summed
    over its two halves, the counts floored at ε and spread over the lanes, the quotient taken and narrowed — is
    the mean table of the two arrays, entry by entry. -/
theorem host_meanTable {S : ℕ} (sums : (⟨3, ![2, S, 512]⟩ : Shape).Idx → EReal) (cnts : (⟨3, ![2, S, 1]⟩ : Shape).Idx → EReal)
    (h1' : (⟨3, ![2, S, 512]⟩ : Shape).ReducesTo [0] ⟨2, ![S, 512]⟩) (h1 : (⟨3, ![2, S, 512]⟩ : Shape).Reduces [0] ⟨2, ![S, 512]⟩)
    (h2' : (⟨3, ![2, S, 1]⟩ : Shape).ReducesTo [0] ⟨2, ![S, 1]⟩) (h2 : (⟨3, ![2, S, 1]⟩ : Shape).Reduces [0] ⟨2, ![S, 1]⟩)
    (hu : 0 < S_.numel) (hb : (⟨2, ![S, 1]⟩ : Shape).BroadcastsInDim ⟨2, ![S, 512]⟩ ![0, 1])
    (hs : S_.BroadcastsInDim ⟨2, ![S, 1]⟩ ![]) (hlt : FTy.bits .bf16 < FTy.bits .f32) :
    (truncf (F := Ideal) .bf16
      (Host.divf (F := Ideal) (φ := .f32)
        (Host.reduceAdd (F := Ideal) (φ := .f32) sums (constant (F := Ideal) S_ .f32 0x00000000#32) h1' hu)
        (broadcastInDim ⟨2, ![S, 512]⟩ ![0, 1] hb
          (maximumf (F := Ideal) (φ := .f32)
            (Host.reduceAdd (F := Ideal) (φ := .f32) cnts (constant (F := Ideal) S_ .f32 0x00000000#32) h2' hu)
            (broadcastInDim ⟨2, ![S, 1]⟩ ![] hs (constant (F := Ideal) S_ .f32 0x358637BD#32)))))
      hlt : (⟨2, ![S, 512]⟩ : Shape).Idx → EReal)
      = Cert.SegGate.meanTable sums cnts := by
  funext i
  unfold Cert.SegGate.meanTable
  show Ideal.div
      (Host.reduceAdd (F := Ideal) (φ := .f32) sums (constant (F := Ideal) S_ .f32 0x00000000#32) h1' hu i)
      (broadcastInDim ⟨2, ![S, 512]⟩ ![0, 1] hb
          (maximumf (F := Ideal) (φ := .f32)
            (Host.reduceAdd (F := Ideal) (φ := .f32) cnts (constant (F := Ideal) S_ .f32 0x00000000#32) h2' hu)
            (broadcastInDim ⟨2, ![S, 1]⟩ ![] hs (constant (F := Ideal) S_ .f32 0x358637BD#32))) i) = _
  rw [reduceHalves_apply sums h1' h1 hu i, spread_apply hb _ i]
  show Ideal.div _ (max
      (Host.reduceAdd (F := Ideal) (φ := .f32) cnts (constant (F := Ideal) S_ .f32 0x00000000#32) h2' hu (ix2 (i 0) (0 : Fin 1)))
      (broadcastInDim ⟨2, ![S, 1]⟩ ![] hs (constant (F := Ideal) S_ .f32 0x358637BD#32) (ix2 (i 0) (0 : Fin 1)))) = _
  rw [reduceHalves_apply cnts h2' h2 hu, scalar_apply hs]
  rfl

/-! ## At the second pass's entry

The first pass writes only its five output arrays.  An array it reads (the input, the id columns) and an array it does
not touch (the other two narrowed weights, the bias row) still holds what the host put there before the first pass;
the update array is what the first pass left; each mean table is the host's chain over a pair of the first pass's
partial arrays. -/

theorem V3_arg0 : V3 m ρ c main_arg0 = m ((c.tc : Thread nD τ).loc main_arg0) := by
  show StableHlo.after hostOps1 (W2 m ρ c) (Proc.devRef .tc main_arg0) = _
  dsimp only [hostOps1]
  after_results_simp
  exact ((W2_arr m ρ c 0).trans (((dat0 (V1 m ρ) c).arrAt_in 0 rfl _).trans (A_eq0 (V1 m ρ) c 0))).trans (V1_arg0 m ρ c)

theorem V3_v2 : V3 m ρ c main_v2 = fun i => m ((c.tc : Thread nD τ).loc main_arg2) (ix1 (i 0)) := by
  show StableHlo.after hostOps1 (W2 m ρ c) (Proc.devRef .tc main_v2) = _
  dsimp only [hostOps1]
  after_results_simp
  exact ((W2_arr m ρ c 1).trans (((dat0 (V1 m ρ) c).arrAt_in 1 rfl _).trans (A_eq0 (V1 m ρ) c 1))).trans (V1_v2 m ρ c)

theorem V3_v3 : V3 m ρ c main_v3 = fun i => m ((c.tc : Thread nD τ).loc main_arg3) (ix1 (i 0)) := by
  show StableHlo.after hostOps1 (W2 m ρ c) (Proc.devRef .tc main_v3) = _
  dsimp only [hostOps1]
  after_results_simp
  exact ((W2_arr m ρ c 2).trans (((dat0 (V1 m ρ) c).arrAt_in 2 rfl _).trans (A_eq0 (V1 m ρ) c 2))).trans (V1_v3 m ρ c)

theorem V3_v8 : V3 m ρ c main_v8 = m ((c.tc : Thread nD τ).loc main_arg5) := by
  show StableHlo.after hostOps1 (W2 m ρ c) (Proc.devRef .tc main_v8) = _
  dsimp only [hostOps1]
  after_results_simp
  rw [W2_of_ne m ρ c main_v8 (by decide)]
  show StableHlo.after hostOps0 (W0 m ρ c) (Proc.devRef .tc main_v8) = _
  dsimp only [hostOps0]
  after_results
  rfl

theorem V3_v9 : V3 m ρ c main_v9 = m ((c.tc : Thread nD τ).loc main_arg8) := by
  show StableHlo.after hostOps1 (W2 m ρ c) (Proc.devRef .tc main_v9) = _
  dsimp only [hostOps1]
  after_results_simp
  rw [W2_of_ne m ρ c main_v9 (by decide)]
  show StableHlo.after hostOps0 (W0 m ρ c) (Proc.devRef .tc main_v9) = _
  dsimp only [hostOps0]
  after_results
  rfl

theorem V3_v4 : V3 m ρ c main_v4 = fun i => m ((c.tc : Thread nD τ).loc main_arg9) (ix1 (i 1)) := by
  show StableHlo.after hostOps1 (W2 m ρ c) (Proc.devRef .tc main_v4) = _
  dsimp only [hostOps1]
  after_results_simp
  rw [W2_of_ne m ρ c main_v4 (by decide)]
  show StableHlo.after hostOps0 (W0 m ρ c) (Proc.devRef .tc main_v4) = _
  dsimp only [hostOps0]
  after_results
  funext i
  exact row_apply _ _ i

theorem V3_v10_4 : V3 m ρ c main_v10_4 = (dat0 (V1 m ρ) c).arrAt 11 cfg0.N := by
  show StableHlo.after hostOps1 (W2 m ρ c) (Proc.devRef .tc main_v10_4) = _
  dsimp only [hostOps1]
  after_results_simp
  exact W2_arr m ρ c 11

theorem V3_v19 : V3 m ρ c main_v19
    = Cert.SegGate.meanTable ((dat0 (V1 m ρ) c).arrAt 7 cfg0.N) ((dat0 (V1 m ρ) c).arrAt 8 cfg0.N) := by
  show StableHlo.after hostOps1 (W2 m ρ c) (Proc.devRef .tc main_v19) = _
  dsimp only [hostOps1]
  after_results_simp
  have e7 : W2 m ρ c (Proc.devRef .tc main_v10_0) = (dat0 (V1 m ρ) c).arrAt 7 cfg0.N := W2_arr m ρ c 7
  have e8 : W2 m ρ c (Proc.devRef .tc main_v10_1) = (dat0 (V1 m ρ) c).arrAt 8 cfg0.N := W2_arr m ρ c 8
  rw [e7, e8]
  exact host_meanTable (S := 64) _ _ _ (by decide) _ (by decide) _ _ _ _

theorem V3_v24 : V3 m ρ c main_v24
    = Cert.SegGate.meanTable ((dat0 (V1 m ρ) c).arrAt 9 cfg0.N) ((dat0 (V1 m ρ) c).arrAt 10 cfg0.N) := by
  show StableHlo.after hostOps1 (W2 m ρ c) (Proc.devRef .tc main_v24) = _
  dsimp only [hostOps1]
  after_results_simp
  have e9 : W2 m ρ c (Proc.devRef .tc main_v10_2) = (dat0 (V1 m ρ) c).arrAt 9 cfg0.N := W2_arr m ρ c 9
  have e10 : W2 m ρ c (Proc.devRef .tc main_v10_3) = (dat0 (V1 m ρ) c).arrAt 10 cfg0.N := W2_arr m ρ c 10
  rw [e9, e10]
  exact host_meanTable (S := 256) _ _ _ (by decide) _ (by decide) _ _ _ _

end Cert.KernelIdeal.HostValue

end
-- ==== Proof.KValue.lean ====
/-
  The two-pass program's result as one function of its arguments: the run with the result named, the second pass's
  value over the arrays it is entered with, those arrays read back through the host operations and the first pass,
  and the two-pass form folded into the one-pass form.
-/
import proofs.«408816_j25881472925818_3_alg».proof.Proof.SpecLaws
import proofs.«408816_j25881472925818_3_alg».proof.Proof.RunValue
import proofs.«408816_j25881472925818_3_alg».proof.Proof.Apply
import proofs.«408816_j25881472925818_3_alg».proof.Proof.ReduceSum
import proofs.«408816_j25881472925818_3_alg».proof.Proof.ReduceCnt
import proofs.«408816_j25881472925818_3_alg».proof.Proof.ReduceUpd
import proofs.«408816_j25881472925818_3_alg».proof.Proof.HostGlue

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result as a function of the launch memory: each table read at the row the id itself clamps to. -/
def result (c : Dev nD) : Buf (Elt Ideal) ((c.tc : Thread nD τ).loc main_v25) :=
  fun i => Cert.SegGate.out (m ((c.tc : Thread nD τ).loc main_arg0)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (fun d => m ((c.tc : Thread nD τ).loc main_arg9) (ix1 d))
    (Cert.KernelIdeal.HostValue.maskf m c)
    (fun r => m ((c.tc : Thread nD τ).loc main_arg2) (ix1 r)) (fun r => m ((c.tc : Thread nD τ).loc main_arg3) (ix1 r))
    (fun r => Cert.SegGate.selRow 64 (by decide) (m ((c.tc : Thread nD τ).loc main_arg2) (ix1 r)))
    (fun r => Cert.SegGate.selRow 256 (by decide) (m ((c.tc : Thread nD τ).loc main_arg3) (ix1 r))) (i 0) (i 1)

/-- The last boundary's contents at the result buffer are that function. -/
theorem final (c : Dev nD) : W4 m ρ c (Proc.devRef .tc main_v25) = result m c := by
  have h9 : W4 m ρ c (Proc.devRef .tc main_v25) = (dat1 (V3 m ρ) c).arrAt 9 cfg1.N := W4_arr m ρ c 9
  rw [h9, Cert.KernelIdeal.ApplyValue.final, Cert.KernelIdeal.HostValue.V3_arg0, Cert.KernelIdeal.HostValue.V3_v2,
    Cert.KernelIdeal.HostValue.V3_v3, Cert.KernelIdeal.HostValue.V3_v8, Cert.KernelIdeal.HostValue.V3_v9,
    Cert.KernelIdeal.HostValue.V3_v4, Cert.KernelIdeal.HostValue.V3_v19, Cert.KernelIdeal.HostValue.V3_v24,
    Cert.KernelIdeal.HostValue.V3_v10_4, Cert.KernelIdeal.ReduceSum.final7, Cert.KernelIdeal.ReduceCnt.final8,
    Cert.KernelIdeal.ReduceSum.final9, Cert.KernelIdeal.ReduceCnt.final10, Cert.KernelIdeal.ReduceUpd.final11,
    Cert.KernelIdeal.HostValue.V1_arg0, Cert.KernelIdeal.HostValue.V1_v1, Cert.KernelIdeal.HostValue.V1_v2,
    Cert.KernelIdeal.HostValue.V1_v3, Cert.KernelIdeal.HostValue.V1_v5, Cert.KernelIdeal.HostValue.V1_v6,
    Cert.KernelIdeal.HostValue.V1_v7]
  exact Cert.SegGate.two_pass _ _ _ _ _ _ _ _ _ _

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final m ρ c), (h c).2⟩) (Cert.KernelIdeal.RunValue.run_value (F := Ideal) m ρ)

end Cert.KernelIdeal.KValue

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.RefValue.lean ====
/-
  The reference read as a value: its result array is SegGate.out of the ten arguments, each gather reading the
  table row the id clamps to after a negative id has been moved up by the table's height.
-/
import proofs.«408816_j25881472925818_3_alg».proof.Proof.Spec
import proofs.«408816_j25881472925818_3_alg».proof.Proof.Gen.ReferenceIdeal.Read
import proofs.«408816_j25881472925818_3_alg».proof.Proof.LibScatterAdd
import proofs.«408816_j25881472925818_3_alg».proof.Proof.LibGatherRows
import proofs.«408816_j25881472925818_3_alg».proof.Proof.LibRowTile
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.ValueIdx

/-- An id as a table index the way jnp indexing reads it: a negative id moved up by the table's height S. -/
def wrapId (S : Nat) (b : BitVec 32) : BitVec 32 := if b.toInt < 0 then b + BitVec.ofNat 32 S else b

/-- An id that is not negative is read as it stands. -/
theorem wrapId_of_nonneg (S : Nat) (b : BitVec 32) (h : 0 ≤ b.toInt) : wrapId S b = b := by
  unfold wrapId; rw [if_neg (by omega)]

/-- The types of the [32768, 256] input and of a [256, 512] weight matrix over the extended reals. -/
abbrev XT := (⟨S32768x256, .f32⟩ : BufTy).Contents (Elt Ideal)
abbrev WT := (⟨S256x512, .f32⟩ : BufTy).Contents (Elt Ideal)

/-- The first contraction at (r, k). -/
theorem v2_eq (x0 : XT) (w : WT) (r : Fin 32768) (k : Fin 512) :
    val_main_v2 (F := Ideal) x0 w (ix2 r k) = Cert.SegGate.proj x0 w r k := by
  rw [val_main_v2_apply]
  unfold Cert.SegGate.proj
  refine Finset.sum_congr rfl fun j _ => ?_
  have el : lidx_main_v2 (ix2 r k) j = ix2 r j := funext fun a => Fin.ext (by match a with | ⟨0, _⟩ => rfl | ⟨1, _⟩ => rfl)
  have er : ridx_main_v2 (ix2 r k) j = ix2 j k := funext fun a => Fin.ext (by match a with | ⟨0, _⟩ => rfl | ⟨1, _⟩ => rfl)
  rw [el, er]

/-- The four contractions of the input with a [256, 512] matrix are one function of the input and the matrix. -/
theorem v3_is_v2 (x0 : XT) (w : WT) : val_main_v3 (F := Ideal) x0 w = val_main_v2 (F := Ideal) x0 w := rfl
theorem v17_is_v2 (x0 : XT) (w : WT) : val_main_v17 (F := Ideal) x0 w = val_main_v2 (F := Ideal) x0 w := rfl
theorem v31_is_v2 (x0 : XT) (w : WT) : val_main_v31 (F := Ideal) x0 w = val_main_v2 (F := Ideal) x0 w := rfl

/-- The tanh form of gelu as the program groups it, the cube as (z·z)·z. -/
theorem v16_eq (x0 : XT) (w : WT) (i : S32768x512.Idx) :
    val_main_v16 (F := Ideal) x0 w i = Cert.SegGate.gelu (val_main_v3 (F := Ideal) x0 w i) := by
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v7_apply, val_main_v6_apply, val_main_cst_apply,
    val_main_v5_apply, val_main_v4_apply]
  generalize val_main_v3 (F := Ideal) x0 w i = z
  simp only [Ideal.mulf_def, Ideal.addf_def, Ideal.hostUnary_tanh_def, Ideal.ofBits_def]
  unfold Cert.SegGate.gelu Cert.SegGate.cHalf Cert.SegGate.cOne Cert.SegGate.c079 Cert.SegGate.c044
  rw [mul_assoc z z z]

/-- The same for the chain gate's pre-activation. -/
theorem v30_eq (x0 : XT) (w : WT) (i : S32768x512.Idx) :
    val_main_v30 (F := Ideal) x0 w i = Cert.SegGate.gelu (val_main_v17 (F := Ideal) x0 w i) := by
  rw [val_main_v30_apply, val_main_v29_apply, val_main_v28_apply, val_main_cst_6_apply, val_main_v27_apply,
    val_main_v26_apply, val_main_cst_5_apply, val_main_v25_apply, val_main_v24_apply, val_main_v23_apply,
    val_main_cst_4_apply, val_main_v22_apply, val_main_v21_apply, val_main_v20_apply, val_main_cst_3_apply,
    val_main_v19_apply, val_main_v18_apply]
  generalize val_main_v17 (F := Ideal) x0 w i = z
  simp only [Ideal.mulf_def, Ideal.addf_def, Ideal.hostUnary_tanh_def, Ideal.ofBits_def]
  unfold Cert.SegGate.gelu Cert.SegGate.cHalf Cert.SegGate.cOne Cert.SegGate.c079 Cert.SegGate.c044
  rw [mul_assoc z z z]

/-- The same for the batch gate's pre-activation. -/
theorem v44_eq (x0 : XT) (w : WT) (i : S32768x512.Idx) :
    val_main_v44 (F := Ideal) x0 w i = Cert.SegGate.gelu (val_main_v31 (F := Ideal) x0 w i) := by
  rw [val_main_v44_apply, val_main_v43_apply, val_main_v42_apply, val_main_cst_10_apply, val_main_v41_apply,
    val_main_v40_apply, val_main_cst_9_apply, val_main_v39_apply, val_main_v38_apply, val_main_v37_apply,
    val_main_cst_8_apply, val_main_v36_apply, val_main_v35_apply, val_main_v34_apply, val_main_cst_7_apply,
    val_main_v33_apply, val_main_v32_apply]
  generalize val_main_v31 (F := Ideal) x0 w i = z
  simp only [Ideal.mulf_def, Ideal.addf_def, Ideal.hostUnary_tanh_def, Ideal.ofBits_def]
  unfold Cert.SegGate.gelu Cert.SegGate.cHalf Cert.SegGate.cOne Cert.SegGate.c079 Cert.SegGate.c044
  rw [mul_assoc z z z]

/-- The types of the mask vector and of an id vector over 32768 rows. -/
abbrev MT := (⟨S32768, .i1⟩ : BufTy).Contents (Elt Ideal)
abbrev IT := (⟨S32768, .i32⟩ : BufTy).Contents (Elt Ideal)

/-- The mask as extended reals, row by row. -/
abbrev maskOf (x1 : MT) : Fin 32768 → EReal := fun r => (uitofp (F := Ideal) .f32 x1) (ix1 r)

/-- The mask column [32768, 1] at row e. -/
theorem v1_eq (x1 : MT) (e : Fin 32768) (z : Fin 1) :
    val_main_v1 (F := Ideal) x1 (ix2 e z) = maskOf x1 e := by
  rw [val_main_v1_apply]
  have e1 : idx_main_v1 (ix2 e z) = ix1 e := funext fun a => by match a with | ⟨0, _⟩ => rfl
  rw [e1]; rfl

/-- The batch gate's masked update row. -/
theorem v47_eq (x0 : XT) (x1 : MT) (x4 x7 : WT) (e : Fin 32768) (k : Fin 512) :
    val_main_v47 (F := Ideal) x0 x1 x4 x7 (ix2 e k) = Cert.SegGate.gated x0 x4 x7 (maskOf x1) e k := by
  rw [val_main_v47_apply, val_main_v45_apply, v44_eq, v31_is_v2, v2_eq, v2_eq, val_main_v46_apply]
  have e1 : idx_main_v46 (ix2 e k) = ix2 e (0 : Fin 1) := funext fun a => Fin.ext (by match a with | ⟨0, _⟩ => rfl | ⟨1, _⟩ => rfl)
  rw [e1, v1_eq]
  rfl

/-- The chain gate's masked update row. -/
theorem v67_eq (x0 : XT) (x1 : MT) (x4 x6 : WT) (e : Fin 32768) (k : Fin 512) :
    val_main_v67 (F := Ideal) x0 x1 x4 x6 (ix2 e k) = Cert.SegGate.gated x0 x4 x6 (maskOf x1) e k := by
  rw [val_main_v67_apply, val_main_v65_apply, v30_eq, v17_is_v2, v2_eq, v2_eq, val_main_v66_apply]
  have e1 : idx_main_v66 (ix2 e k) = ix2 e (0 : Fin 1) := funext fun a => Fin.ext (by match a with | ⟨0, _⟩ => rfl | ⟨1, _⟩ => rfl)
  rw [e1, v1_eq]
  rfl

/-- The batch segment sums [64, 512]: row s, column k is the sum of the masked update rows whose batch id reads s. -/
theorem v50_eq (x0 : XT) (x1 : MT) (x2 : IT) (x4 x7 : WT) (s : Fin 64) (k : Fin 512) :
    val_main_v50 (F := Ideal) x0 x1 x2 x4 x7 (ix2 s k)
      = Cert.SegGate.segSum (fun e => x2 (ix1 e)) (fun e => Cert.SegGate.gated x0 x4 x7 (maskOf x1) e k) s.val := by
  unfold val_main_v50
  generalize hx : val_main_v48 (F := Ideal) = x
  generalize hidx : val_main_v49 (F := Ideal) x2 = idx
  generalize hupd : val_main_v47 (F := Ideal) x0 x1 x4 x7 = upd
  have hd : scatter_S64x512_S32768x1_S32768x512_1_0_0_1
      = Cert.Lib.rowScatterDims 64 512 32768 Facts₀.scatter_S64x512_S32768x1_S32768x512_1_0_0_1_wf := rfl
  rw [hd]
  unfold Host.scatterAdd
  rw [Ideal.hostScatterAdd_def, Cert.Lib.scatterAdd_rows_apply]
  subst hx hidx hupd
  rw [val_main_v48_apply, val_main_cst_11_apply, Ideal.ofBits_def, Ideal.ofBits_zero_f32, zero_add]
  unfold Cert.SegGate.segSum
  refine Finset.sum_congr rfl fun e _ => ?_
  have e1 : idx_main_v49 (ix2 e (0 : Fin 1)) = ix1 e := funext fun a => by match a with | ⟨0, _⟩ => rfl
  rw [val_main_v49_apply, e1, v47_eq]

/-- The count column [64, 1]: row s is the sum of the mask values of the rows whose batch id reads s. -/
theorem v53_eq (x1 : MT) (x2 : IT) (s : Fin 64) (z : Fin 1) :
    val_main_v53 (F := Ideal) x1 x2 (ix2 s z)
      = Cert.SegGate.segSum (fun e => x2 (ix1 e)) (maskOf x1) s.val := by
  unfold val_main_v53
  generalize hx : val_main_v51 (F := Ideal) = x
  generalize hidx : val_main_v52 (F := Ideal) x2 = idx
  generalize hupd : val_main_v1 (F := Ideal) x1 = upd
  have hd : scatter_S64x1_S32768x1_S32768x1_1_0_0_1
      = Cert.Lib.rowScatterDims 64 1 32768 Facts₀.scatter_S64x1_S32768x1_S32768x1_1_0_0_1_wf := rfl
  rw [hd]
  unfold Host.scatterAdd
  rw [Ideal.hostScatterAdd_def, Cert.Lib.scatterAdd_rows_apply]
  subst hx hidx hupd
  rw [val_main_v51_apply, val_main_cst_12_apply, Ideal.ofBits_def, Ideal.ofBits_zero_f32, zero_add]
  unfold Cert.SegGate.segSum
  refine Finset.sum_congr rfl fun e _ => ?_
  have e1 : idx_main_v52 (ix2 e (0 : Fin 1)) = ix1 e := funext fun a => by match a with | ⟨0, _⟩ => rfl
  rw [val_main_v52_apply, e1, v1_eq]

/-- The batch mean table [64, 512]. -/
theorem v57_eq (x0 : XT) (x1 : MT) (x2 : IT) (x4 x7 : WT) (s : Fin 64) (k : Fin 512) :
    val_main_v57 (F := Ideal) x0 x1 x2 x4 x7 (ix2 s k)
      = Cert.SegGate.segMean (fun e => x2 (ix1 e)) (maskOf x1) (fun e => Cert.SegGate.gated x0 x4 x7 (maskOf x1) e k) s.val := by
  have e1 : idx_main_v56 (ix2 s k) = ix2 s (0 : Fin 1) := funext fun a => Fin.ext (by match a with | ⟨0, _⟩ => rfl | ⟨1, _⟩ => rfl)
  rw [val_main_v57_apply, v50_eq, val_main_v56_apply, e1, val_main_v55_apply, v53_eq, val_main_v54_apply,
    val_main_cst_13_apply, Ideal.hostDivf_def, Ideal.maximumf_def, Ideal.ofBits_def]
  rfl

/-- A negative id moved up by the table's height, as the program's compare, add and select compute it. -/
theorem wrap_eq (S : Nat) (b : BitVec 32) :
    Scalar.select (IntOp.cmpi .slt b 0#32) (IntOp.addi b (BitVec.ofNat 32 S)) b = wrapId S b := by
  have h0 : (0#32 : BitVec 32).toInt = 0 := by decide
  have hc : IntOp.cmpi .slt b 0#32 = BitVec.ofBool (b.slt 0#32) := rfl
  unfold Scalar.select IntOp.addi wrapId
  rw [hc]
  by_cases h : b.toInt < 0
  · have hs : b.slt 0#32 = true := BitVec.slt_iff_toInt_lt.mpr (by rw [h0]; exact h)
    rw [if_pos h, hs, if_pos (by decide)]
  · have hs : b.slt 0#32 = false := by
      rw [Bool.eq_false_iff]; intro hh; exact h (by have := BitVec.slt_iff_toInt_lt.mp hh; rwa [h0] at this)
    rw [if_neg h, hs, if_neg (by decide)]

/-- The batch id column handed to the gather, at row r. -/
theorem v63_eq (x2 : IT) (r : Fin 32768) (z : Fin 1) :
    val_main_v63 (F := Ideal) x2 (ix2 r z) = wrapId 64 (x2 (ix1 r)) := by
  have e1 : idx_main_v63 (ix2 r z) = ix1 r := funext fun a => by match a with | ⟨0, _⟩ => rfl
  rw [val_main_v63_apply, e1, val_main_v62_apply, val_main_v59_apply, val_main_v58_apply, val_main_c_apply,
    val_main_v61_apply, val_main_v60_apply, val_main_c_14_apply]
  exact wrap_eq 64 _

/-- The batch gather [32768, 512]: row r reads the mean table at the row its moved id clamps to. -/
theorem v64_eq (x0 : XT) (x1 : MT) (x2 : IT) (x4 x7 : WT) (r : Fin 32768) (k : Fin 512) :
    val_main_v64 (F := Ideal) x0 x1 x2 x4 x7 (ix2 r k)
      = Cert.SegGate.segMean (fun e => x2 (ix1 e)) (maskOf x1) (fun e => Cert.SegGate.gated x0 x4 x7 (maskOf x1) e k)
          (Cert.SegGate.selRow 64 (by decide) (wrapId 64 (x2 (ix1 r)))).val := by
  unfold val_main_v64
  generalize hx : val_main_v57 (F := Ideal) x0 x1 x2 x4 x7 = x
  generalize hidx : val_main_v63 (F := Ideal) x2 = idx
  have hd : gather_S64x512_S32768x1_S32768x512_1_0_n_n_0_1_1512
      = Cert.Lib.rowGatherDims 64 512 32768 Facts₀.gather_S64x512_S32768x1_S32768x512_1_0_n_n_0_1_1512_wf := rfl
  rw [hd, Cert.Lib.gather_rows_apply (by decide)]
  subst hx hidx
  simp only [v63_eq]
  exact v57_eq x0 x1 x2 x4 x7 (Cert.SegGate.selRow 64 (by decide) (wrapId 64 (x2 (ix1 r)))) k

/-- The chain segment sums [256, 512]. -/
theorem v70_eq (x0 : XT) (x1 : MT) (x3 : IT) (x4 x6 : WT) (s : Fin 256) (k : Fin 512) :
    val_main_v70 (F := Ideal) x0 x1 x3 x4 x6 (ix2 s k)
      = Cert.SegGate.segSum (fun e => x3 (ix1 e)) (fun e => Cert.SegGate.gated x0 x4 x6 (maskOf x1) e k) s.val := by
  unfold val_main_v70
  generalize hx : val_main_v68 (F := Ideal) = x
  generalize hidx : val_main_v69 (F := Ideal) x3 = idx
  generalize hupd : val_main_v67 (F := Ideal) x0 x1 x4 x6 = upd
  have hd : scatter_S256x512_S32768x1_S32768x512_1_0_0_1
      = Cert.Lib.rowScatterDims 256 512 32768 Facts₀.scatter_S256x512_S32768x1_S32768x512_1_0_0_1_wf := rfl
  rw [hd]
  unfold Host.scatterAdd
  rw [Ideal.hostScatterAdd_def, Cert.Lib.scatterAdd_rows_apply]
  subst hx hidx hupd
  rw [val_main_v68_apply, val_main_cst_15_apply, Ideal.ofBits_def, Ideal.ofBits_zero_f32, zero_add]
  unfold Cert.SegGate.segSum
  refine Finset.sum_congr rfl fun e _ => ?_
  have e1 : idx_main_v69 (ix2 e (0 : Fin 1)) = ix1 e := funext fun a => by match a with | ⟨0, _⟩ => rfl
  rw [val_main_v69_apply, e1, v67_eq]

/-- The chain count column [256, 1]. -/
theorem v73_eq (x1 : MT) (x3 : IT) (s : Fin 256) (z : Fin 1) :
    val_main_v73 (F := Ideal) x1 x3 (ix2 s z)
      = Cert.SegGate.segSum (fun e => x3 (ix1 e)) (maskOf x1) s.val := by
  unfold val_main_v73
  generalize hx : val_main_v71 (F := Ideal) = x
  generalize hidx : val_main_v72 (F := Ideal) x3 = idx
  generalize hupd : val_main_v1 (F := Ideal) x1 = upd
  have hd : scatter_S256x1_S32768x1_S32768x1_1_0_0_1
      = Cert.Lib.rowScatterDims 256 1 32768 Facts₀.scatter_S256x1_S32768x1_S32768x1_1_0_0_1_wf := rfl
  rw [hd]
  unfold Host.scatterAdd
  rw [Ideal.hostScatterAdd_def, Cert.Lib.scatterAdd_rows_apply]
  subst hx hidx hupd
  rw [val_main_v71_apply, val_main_cst_16_apply, Ideal.ofBits_def, Ideal.ofBits_zero_f32, zero_add]
  unfold Cert.SegGate.segSum
  refine Finset.sum_congr rfl fun e _ => ?_
  have e1 : idx_main_v72 (ix2 e (0 : Fin 1)) = ix1 e := funext fun a => by match a with | ⟨0, _⟩ => rfl
  rw [val_main_v72_apply, e1, v1_eq]

/-- The chain mean table [256, 512]. -/
theorem v77_eq (x0 : XT) (x1 : MT) (x3 : IT) (x4 x6 : WT) (s : Fin 256) (k : Fin 512) :
    val_main_v77 (F := Ideal) x0 x1 x3 x4 x6 (ix2 s k)
      = Cert.SegGate.segMean (fun e => x3 (ix1 e)) (maskOf x1) (fun e => Cert.SegGate.gated x0 x4 x6 (maskOf x1) e k) s.val := by
  have e1 : idx_main_v76 (ix2 s k) = ix2 s (0 : Fin 1) := funext fun a => Fin.ext (by match a with | ⟨0, _⟩ => rfl | ⟨1, _⟩ => rfl)
  rw [val_main_v77_apply, v70_eq, val_main_v76_apply, e1, val_main_v75_apply, v73_eq, val_main_v74_apply,
    val_main_cst_17_apply, Ideal.hostDivf_def, Ideal.maximumf_def, Ideal.ofBits_def]
  rfl

/-- The chain id column handed to the gather, at row r. -/
theorem v83_eq (x3 : IT) (r : Fin 32768) (z : Fin 1) :
    val_main_v83 (F := Ideal) x3 (ix2 r z) = wrapId 256 (x3 (ix1 r)) := by
  have e1 : idx_main_v83 (ix2 r z) = ix1 r := funext fun a => by match a with | ⟨0, _⟩ => rfl
  rw [val_main_v83_apply, e1, val_main_v82_apply, val_main_v79_apply, val_main_v78_apply, val_main_c_18_apply,
    val_main_v81_apply, val_main_v80_apply, val_main_c_19_apply]
  exact wrap_eq 256 _

/-- The chain gather [32768, 512]. -/
theorem v84_eq (x0 : XT) (x1 : MT) (x3 : IT) (x4 x6 : WT) (r : Fin 32768) (k : Fin 512) :
    val_main_v84 (F := Ideal) x0 x1 x3 x4 x6 (ix2 r k)
      = Cert.SegGate.segMean (fun e => x3 (ix1 e)) (maskOf x1) (fun e => Cert.SegGate.gated x0 x4 x6 (maskOf x1) e k)
          (Cert.SegGate.selRow 256 (by decide) (wrapId 256 (x3 (ix1 r)))).val := by
  unfold val_main_v84
  generalize hx : val_main_v77 (F := Ideal) x0 x1 x3 x4 x6 = x
  generalize hidx : val_main_v83 (F := Ideal) x3 = idx
  have hd : gather_S256x512_S32768x1_S32768x512_1_0_n_n_0_1_1512
      = Cert.Lib.rowGatherDims 256 512 32768 Facts₀.gather_S256x512_S32768x1_S32768x512_1_0_n_n_0_1_1512_wf := rfl
  rw [hd, Cert.Lib.gather_rows_apply (by decide)]
  subst hx hidx
  simp only [v83_eq]
  exact v77_eq x0 x1 x3 x4 x6 (Cert.SegGate.selRow 256 (by decide) (wrapId 256 (x3 (ix1 r)))) k

/-- The hidden row [32768, 512]. -/
theorem v87_eq (x0 : XT) (x1 : MT) (x2 x3 : IT) (x4 x5 x6 x7 : WT) (r : Fin 32768) (k : Fin 512) :
    val_main_v87 (F := Ideal) x0 x1 x2 x3 x4 x5 x6 x7 (ix2 r k)
      = Cert.SegGate.hidden x0 x4 x5 x6 x7 (maskOf x1) (fun e => x2 (ix1 e)) (fun e => x3 (ix1 e))
          (fun r => Cert.SegGate.selRow 64 (by decide) (wrapId 64 (x2 (ix1 r))))
          (fun r => Cert.SegGate.selRow 256 (by decide) (wrapId 256 (x3 (ix1 r)))) r k := by
  rw [val_main_v87_apply, val_main_v85_apply, v64_eq, v84_eq, val_main_v86_apply, v16_eq, v3_is_v2, v2_eq, v2_eq,
    Ideal.addf_def, Ideal.addf_def, Ideal.mulf_def]
  rfl

/-- The reference's result, index by index. -/
theorem result_eq (x0 : (⟨S32768x256, .f32⟩ : BufTy).Contents (Elt Ideal)) (x1 : (⟨S32768, .i1⟩ : BufTy).Contents (Elt Ideal))
    (x2 x3 : (⟨S32768, .i32⟩ : BufTy).Contents (Elt Ideal)) (x4 x5 x6 x7 : (⟨S256x512, .f32⟩ : BufTy).Contents (Elt Ideal))
    (x8 : (⟨S512x256, .f32⟩ : BufTy).Contents (Elt Ideal)) (x9 : (⟨S256, .f32⟩ : BufTy).Contents (Elt Ideal)) :
    val_main_v91 (F := Ideal) x0 x1 x2 x3 x4 x5 x6 x7 x8 x9
      = fun i => Cert.SegGate.out x0 x4 x5 x6 x7 x8 (fun d => x9 (ix1 d))
          (fun r => (uitofp (F := Ideal) .f32 x1) (ix1 r)) (fun r => x2 (ix1 r)) (fun r => x3 (ix1 r))
          (fun r => Cert.SegGate.selRow 64 (by decide) (wrapId 64 (x2 (ix1 r))))
          (fun r => Cert.SegGate.selRow 256 (by decide) (wrapId 256 (x3 (ix1 r)))) (i 0) (i 1) := by
  funext i
  obtain ⟨r, d, rfl⟩ : ∃ (r : Fin 32768) (d : Fin 256), i = ix2 r d := ⟨i 0, i 1, eq_ix2 i⟩
  show _ = Cert.SegGate.out x0 x4 x5 x6 x7 x8 (fun d => x9 (ix1 d)) (maskOf x1) (fun r => x2 (ix1 r)) (fun r => x3 (ix1 r))
          (fun r => Cert.SegGate.selRow 64 (by decide) (wrapId 64 (x2 (ix1 r))))
          (fun r => Cert.SegGate.selRow 256 (by decide) (wrapId 256 (x3 (ix1 r)))) r d
  have e90 : idx_main_v89 (idx_main_v90 (ix2 r d)) = ix1 d := funext fun a => by match a with | ⟨0, _⟩ => rfl
  rw [val_main_v91_apply, val_main_v88_apply, val_main_v90_apply, val_main_v89_apply, e90, Ideal.addf_def]
  unfold Cert.SegGate.out
  refine congrArg (fun t : EReal => t + x9 (ix1 d)) ?_
  refine Finset.sum_congr rfl fun k _ => ?_
  have el : lidx_main_v88 (ix2 r d) k = ix2 r k := funext fun a => Fin.ext (by match a with | ⟨0, _⟩ => rfl | ⟨1, _⟩ => rfl)
  have er : ridx_main_v88 (ix2 r d) k = ix2 k d := funext fun a => Fin.ext (by match a with | ⟨0, _⟩ => rfl | ⟨1, _⟩ => rfl)
  rw [el, er, v87_eq]

end Cert.ReferenceIdeal.RefValue

end
-- ==== Proof.PreDecode.lean ====
/-
  What the precondition says of the two id arrays: every batch id and every chain id is at least 0.

  The precondition is a conjunction of all-reductions; its last two conjuncts say that every batch id, and every
  chain id, compares (signed) greater than or equal to the word 0.
-/
import proofs.«408816_j25881472925818_3_alg».proof.Pre_finite_inputs
import proofs.«408816_j25881472925818_3_alg».proof.Proof.Gen.Pre_finite_inputs
import Idealize.ShloMosaic.Lib.ValueIdx
import Idealize.ShloMosaic.Lib.ReduceAll

noncomputable section

namespace Cert.Pre_finite_inputs.Decode

open Cert.Pre_finite_inputs
open Idealize.ShloMosaic Idealize.ShloMosaic.ValueIdx

instance : Subsingleton S_.Idx := ⟨fun a b => funext fun d => d.elim0⟩

/-- The last stretch of the precondition: where it is 1, both all-reductions over the ids are 1, so every id is
    at least 0. -/
theorem part2_nonneg [Cert.Pre_finite_inputs.Facts] (a2 a3 : IVec S32768 32) (v33 : IVec S_ 1)
    (h : fn_part2 (F := Ideal) a2 a3 v33 ix0 = 1#1) (r : Fin 32768) :
    0 ≤ (a2 (ix1 r)).toInt ∧ 0 ≤ (a3 (ix1 r)).toInt := by
  dsimp only [fn_part2] at h
  obtain ⟨h1, hC⟩ := IntOp.andi_eq_one.1 h
  obtain ⟨_, hB⟩ := IntOp.andi_eq_one.1 h1
  have hb := Host.reduce_andi_all _ _ _ _ _ hB (ix1 r)
  have hc := Host.reduce_andi_all _ _ _ _ _ hC (ix1 r)
  have hb' := IntOp.cmpi_sge.1 hb
  have hc' := IntOp.cmpi_sge.1 hc
  change (0 : Int) ≤ _ at hb' hc'
  exact ⟨hb', hc'⟩

/-- Where the precondition holds, no id is negative. -/
theorem ids_nonneg [Cert.Pre_finite_inputs.Facts] (a0 : FVec Ideal S32768x256 .f32) (a1 : IVec S32768 1) (a2 a3 : IVec S32768 32)
    (a4 a5 a6 a7 : FVec Ideal S256x512 .f32) (a8 : FVec Ideal S512x256 .f32) (a9 : FVec Ideal S256 .f32)
    (h : fn (F := Ideal) a0 a1 a2 a3 a4 a5 a6 a7 a8 a9 = fun _ => 1#1) (r : Fin 32768) :
    0 ≤ (a2 (ix1 r)).toInt ∧ 0 ≤ (a3 (ix1 r)).toInt := by
  have h0 := congrFun h ix0
  dsimp only [fn, fn_part1] at h0
  exact part2_nonneg a2 a3 _ h0 r

end Cert.Pre_finite_inputs.Decode

end
-- ==== Proof.lean ====
/-
  The certificate's claims.

  The two-pass program (a first pass that accumulates, per half of the rows, each segment's sum of masked gated
  updates and its count, and stores x·W_update; host operations that add the halves and divide; a second pass that
  reads each mean table by a one-hot product at the clamped id, adds the local gate's term and multiplies by
  W_out) and the one-pass reference (segment sums by scatter-add, means, a gather of each table at the id — a
  negative id first moved up by the table's height — and the same closing product) end with equal results wherever
  no id is negative: there both read the table row the id clamps to, ids at or past the table's height included,
  and an id outside [0, S) adds to no segment in either program.  No step needs the float inputs' finiteness: the
  two sides differ only in how sums are grouped and in 0/1 factors, and 0 · x = 0, 1 · x = x hold for every
  extended real.

  The frames are the generated ones; the reference's frame is its run with the result dropped.
-/
import proofs.«408816_j25881472925818_3_alg».proof.Defs
import proofs.«408816_j25881472925818_3_alg».proof.Proof.Gen.Kernel
import proofs.«408816_j25881472925818_3_alg».proof.Proof.Gen.Kernel.Skeleton
import proofs.«408816_j25881472925818_3_alg».proof.Proof.Gen.Kernel.Launch
import proofs.«408816_j25881472925818_3_alg».proof.Proof.Gen.Kernel.Points
import proofs.«408816_j25881472925818_3_alg».proof.Proof.Gen.Kernel.Frame
import proofs.«408816_j25881472925818_3_alg».proof.Proof.Gen.KernelIdeal
import proofs.«408816_j25881472925818_3_alg».proof.Proof.Gen.KernelIdeal.Skeleton
import proofs.«408816_j25881472925818_3_alg».proof.Proof.Gen.KernelIdeal.Launch
import proofs.«408816_j25881472925818_3_alg».proof.Proof.Gen.KernelIdeal.Points
import proofs.«408816_j25881472925818_3_alg».proof.Proof.Gen.KernelIdeal.Frame
import proofs.«408816_j25881472925818_3_alg».proof.Proof.Gen.ReferenceIdeal
import proofs.«408816_j25881472925818_3_alg».proof.Proof.Gen.ReferenceIdeal.Run
import proofs.«408816_j25881472925818_3_alg».proof.Proof.Gen.ReferenceIdeal.Read
import proofs.«408816_j25881472925818_3_alg».proof.Proof.Gen.Pre_finite_inputs
import proofs.«408816_j25881472925818_3_alg».proof.Proof.KValue
import proofs.«408816_j25881472925818_3_alg».proof.Proof.RefValue
import proofs.«408816_j25881472925818_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at SegGate.out of the arguments; where no id is negative the rows their tables are read at
    are the same. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  have hnn := fun r => Cert.Pre_finite_inputs.Decode.ids_nonneg _ _ _ _ _ _ _ _ _ _ (hpre c) r
  rw [Cert.ReferenceIdeal.Read.val_main_v91_eq, Cert.ReferenceIdeal.RefValue.result_eq, h0, h1, h2, h3, h4, h5, h6, h7,
    h8, h9]
  funext i
  unfold Cert.KernelIdeal.KValue.result
  have eB : (fun r : Fin 32768 => Cert.SegGate.selRow 64 (by decide)
        (Cert.ReferenceIdeal.RefValue.wrapId 64 (m ((c.tc : Thread Cert.KernelIdeal.nD Cert.KernelIdeal.τ).loc Cert.KernelIdeal.main_arg2) (ix1 r))))
      = fun r => Cert.SegGate.selRow 64 (by decide) (m ((c.tc : Thread Cert.KernelIdeal.nD Cert.KernelIdeal.τ).loc Cert.KernelIdeal.main_arg2) (ix1 r)) :=
    funext fun r => by rw [Cert.ReferenceIdeal.RefValue.wrapId_of_nonneg _ _ (hnn r).1]
  have eC : (fun r : Fin 32768 => Cert.SegGate.selRow 256 (by decide)
        (Cert.ReferenceIdeal.RefValue.wrapId 256 (m ((c.tc : Thread Cert.KernelIdeal.nD Cert.KernelIdeal.τ).loc Cert.KernelIdeal.main_arg3) (ix1 r))))
      = fun r => Cert.SegGate.selRow 256 (by decide) (m ((c.tc : Thread Cert.KernelIdeal.nD Cert.KernelIdeal.τ).loc Cert.KernelIdeal.main_arg3) (ix1 r)) :=
    funext fun r => by rw [Cert.ReferenceIdeal.RefValue.wrapId_of_nonneg _ _ (hnn r).2]
  rw [eB, eC]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
